-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1457) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8x8192x2 : Shape := ⟨3, ![8, 8192, 2]⟩
abbrev S768x514 : Shape := ⟨2, ![768, 514]⟩
abbrev S768x256 : Shape := ⟨2, ![768, 256]⟩
abbrev S768 : Shape := ⟨1, ![768]⟩
abbrev S2x256 : Shape := ⟨2, ![2, 256]⟩
abbrev S2 : Shape := ⟨1, ![2]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x8192x2 : S_.BroadcastsInDim S8x8192x2 (![] : Fin 0 → Fin S8x8192x2.rank)
  reducesTo_S8x8192x2_S_d0_1_2 : S8x8192x2.ReducesTo [0, 1, 2] S_
  bcast_S_S768x514 : S_.BroadcastsInDim S768x514 (![] : Fin 0 → Fin S768x514.rank)
  reducesTo_S768x514_S_d0_1 : S768x514.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S2x256 .f32) (main_arg15 : FVec F S2 .f32) (main_v63 : IVec S_ 1) (main_v67 : IVec S_ 1) : IVec S_ 1 :=
  let main_v68 : IVec S_ 1 := andi main_v63 main_v67
  let main_v69 : FVec F S2x256 .f32 := Host.absf main_arg14
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2 .f32 := Host.absf main_arg15
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg11 : FVec F S768x256 .f32) (main_arg12 : FVec F S768 .f32) (main_arg13 : FVec F S768 .f32) (main_arg14 : FVec F S2x256 .f32) (main_arg15 : FVec F S2 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S768x256 .f32 := Host.absf main_arg11
  let main_cst_20 : FVec F S_ .f32 := constant S_ .f32 0x7F800000#32
  let main_v55 : FVec F S768x256 .f32 := broadcastInDim S768x256 ![] bcast_S_S768x256 main_cst_20
  let main_v56 : IVec S768x256 1 := cmpf .olt main_v54 main_v55
  let main_c_21 : IVec S_ 1 := constantI S_ 1 1#1
  let main_v57 : IVec S_ 1 := (fun x v => Host.reduce IntOp.andi x v reducesTo_S768x256_S_d0_1 h_S_) main_v56 main_c_21
  let main_v58 : IVec S_ 1 := andi main_v53 main_v57
  let main_v59 : FVec F S768 .f32 := Host.absf main_arg12
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  let main_v64 : FVec F S768 .f32 := Host.absf main_arg13
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg14 main_arg15 main_v63 main_v67

def fn_part2 {F : FTy → Type} [FloatOps F] (main_arg7 : FVec F S768x256 .f32) (main_arg8 : FVec F S768 .f32) (main_arg9 : FVec F S768 .f32) (main_arg10 : FVec F S768x256 .f32) (main_arg11 : FVec F S768x256 .f32) (main_arg12 : FVec F S768 .f32) (main_arg13 : FVec F S768 .f32) (main_arg14 : FVec F S2x256 .f32) (main_arg15 : FVec F S2 .f32) (main_v33 : IVec S_ 1) : IVec S_ 1 :=
  let main_v34 : FVec F S768x256 .f32 := Host.absf main_arg7
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768x256 .f32 := Host.absf main_arg10
  let main_cst_18 : FVec F S_ .f32 := constant S_ .f32 0x7F800000#32
  let main_v50 : FVec F S768x256 .f32 := broadcastInDim S768x256 ![] bcast_S_S768x256 main_cst_18
  fn_part3 (F := F) main_arg11 main_arg12 main_arg13 main_arg14 main_arg15 main_v48 main_v49 main_v50

def fn_part1 {F : FTy → Type} [FloatOps F] (main_arg4 : FVec F S768 .f32) (main_arg5 : FVec F S768 .f32) (main_arg6 : FVec F S768x256 .f32) (main_arg7 : FVec F S768x256 .f32) (main_arg8 : FVec F S768 .f32) (main_arg9 : FVec F S768 .f32) (main_arg10 : FVec F S768x256 .f32) (main_arg11 : FVec F S768x256 .f32) (main_arg12 : FVec F S768 .f32) (main_arg13 : FVec F S768 .f32) (main_arg14 : FVec F S2x256 .f32) (main_arg15 : FVec F S2 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x512 .f32) (main_arg1 : FVec F S8x8192x2 .f32) (main_arg2 : FVec F S768x514 .f32) (main_arg3 : FVec F S768x256 .f32) (main_arg4 : FVec F S768 .f32) (main_arg5 : FVec F S768 .f32) (main_arg6 : FVec F S768x256 .f32) (main_arg7 : FVec F S768x256 .f32) (main_arg8 : FVec F S768 .f32) (main_arg9 : FVec F S768 .f32) (main_arg10 : FVec F S768x256 .f32) (main_arg11 : FVec F S768x256 .f32) (main_arg12 : FVec F S768 .f32) (main_arg13 : FVec F S768 .f32) (main_arg14 : FVec F S2x256 .f32) (main_arg15 : FVec F S2 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8x8192x2 .f32 := Host.absf main_arg1
  let main_cst_0 : FVec F S_ .f32 := constant S_ .f32 0x7F800000#32
  let main_v5 : FVec F S8x8192x2 .f32 := broadcastInDim S8x8192x2 ![] bcast_S_S8x8192x2 main_cst_0
  let main_v6 : IVec S8x8192x2 1 := cmpf .olt main_v4 main_v5
  let main_c_1 : IVec S_ 1 := constantI S_ 1 1#1
  let main_v7 : IVec S_ 1 := (fun x v => Host.reduce IntOp.andi x v reducesTo_S8x8192x2_S_d0_1_2 h_S_) main_v6 main_c_1
  let main_v8 : IVec S_ 1 := andi main_v3 main_v7
  let main_v9 : FVec F S768x514 .f32 := Host.absf main_arg2
  let main_cst_2 : FVec F S_ .f32 := constant S_ .f32 0x7F800000#32
  let main_v10 : FVec F S768x514 .f32 := broadcastInDim S768x514 ![] bcast_S_S768x514 main_cst_2
  let main_v11 : IVec S768x514 1 := cmpf .olt main_v9 main_v10
  let main_c_3 : IVec S_ 1 := constantI S_ 1 1#1
  let main_v12 : IVec S_ 1 := (fun x v => Host.reduce IntOp.andi x v reducesTo_S768x514_S_d0_1 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x512 : Shape := ⟨2, ![8192, 512]⟩
abbrev S8x8192x2 : Shape := ⟨3, ![8, 8192, 2]⟩
abbrev S768x514 : Shape := ⟨2, ![768, 514]⟩
abbrev S768x256 : Shape := ⟨2, ![768, 256]⟩
abbrev S768 : Shape := ⟨1, ![768]⟩
abbrev S2x256 : Shape := ⟨2, ![2, 256]⟩
abbrev S2 : Shape := ⟨1, ![2]⟩
abbrev S1x8192x2 : Shape := ⟨3, ![1, 8192, 2]⟩
abbrev S8192x2 : Shape := ⟨2, ![8192, 2]⟩
abbrev S768x512 : Shape := ⟨2, ![768, 512]⟩
abbrev S512x768 : Shape := ⟨2, ![512, 768]⟩
abbrev S768x2 : Shape := ⟨2, ![768, 2]⟩
abbrev S2x768 : Shape := ⟨2, ![2, 768]⟩
abbrev S256x768 : Shape := ⟨2, ![256, 768]⟩
abbrev S12x8192x2 : Shape := ⟨3, ![12, 8192, 2]⟩
abbrev S2048x512 : Shape := ⟨2, ![2048, 512]⟩
abbrev S2048x2 : Shape := ⟨2, ![2048, 2]⟩
abbrev S12x2048x2 : Shape := ⟨3, ![12, 2048, 2]⟩
abbrev S2048x256 : Shape := ⟨2, ![2048, 256]⟩
abbrev S2048x768 : Shape := ⟨2, ![2048, 768]⟩
abbrev S1x768 : Shape := ⟨2, ![1, 768]⟩
abbrev S1x256 : Shape := ⟨2, ![1, 256]⟩
abbrev S2048x1 : Shape := ⟨2, ![2048, 1]⟩
abbrev S2048 : Shape := ⟨1, ![2048]⟩
abbrev S1 : Shape := ⟨1, ![1]⟩
abbrev S1x2048x2 : Shape := ⟨3, ![1, 2048, 2]⟩

abbrev nBuf : Space → Nat
  | .hbm => 35
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8x8192x2, .f32⟩
  | .hbm, ⟨2, _⟩ => ⟨S768x514, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S768x256, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S768x256, .f32⟩
  | .hbm, ⟨11, _⟩ => ⟨S768x256, .f32⟩
  | .hbm, ⟨12, _⟩ => ⟨S768, .f32⟩
  | .hbm, ⟨13, _⟩ => ⟨S768, .f32⟩
  | .hbm, ⟨14, _⟩ => ⟨S2x256, .f32⟩
  | .hbm, ⟨15, _⟩ => ⟨S2, .f32⟩
  | .hbm, ⟨16, _⟩ => ⟨S1x8192x2, .f32⟩
  | .hbm, ⟨17, _⟩ => ⟨S8192x2, .f32⟩
  | .hbm, ⟨18, _⟩ => ⟨S8192x512, .bf16⟩
  | .hbm, ⟨19, _⟩ => ⟨S768x512, .f32⟩
  | .hbm, ⟨20, _⟩ => ⟨S512x768, .f32⟩
  | .hbm, ⟨21, _⟩ => ⟨S512x768, .bf16⟩
  | .hbm, ⟨22, _⟩ => ⟨S768x2, .f32⟩
  | .hbm, ⟨23, _⟩ => ⟨S2x768, .f32⟩
  | .hbm, ⟨24, _⟩ => ⟨S256x768, .f32⟩
  | .hbm, ⟨25, _⟩ => ⟨S256x768, .bf16⟩
  | .hbm, ⟨26, _⟩ => ⟨S256x768, .f32⟩
  | .hbm, ⟨27, _⟩ => ⟨S256x768, .bf16⟩
  | .hbm, ⟨28, _⟩ => ⟨S256x768, .f32⟩
  | .hbm, ⟨29, _⟩ => ⟨S256x768, .bf16⟩
  | .hbm, ⟨30, _⟩ => ⟨S256x768, .f32⟩
  | .hbm, ⟨31, _⟩ => ⟨S256x768, .bf16⟩
  | .hbm, ⟨32, _⟩ => ⟨S256x768, .f32⟩
  | .hbm, ⟨33, _⟩ => ⟨S256x768, .bf16⟩
  | .hbm, ⟨34, _⟩ => ⟨S12x8192x2, .f32⟩
  | .local _ .vmem, ⟨0, _⟩ => ⟨S2048x512, .bf16⟩
  | .local _ .vmem, ⟨1, _⟩ => ⟨S2048x512, .bf16⟩
  | .local _ .vmem, ⟨2, _⟩ => ⟨S2048x2, .f32⟩
  | .local _ .vmem, ⟨3, _⟩ => ⟨S2048x2, .f32⟩
  | .local _ .vmem, ⟨4, _⟩ => ⟨S512x768, .bf16⟩
  | .local _ .vmem, ⟨5, _⟩ => ⟨S2x768, .f32⟩
  | .local _ .vmem, ⟨6, _⟩ => ⟨S256x768, .bf16⟩
  | .local _ .vmem, ⟨7, _⟩ => ⟨S768, .f32⟩
  | .local _ .vmem, ⟨8, _⟩ => ⟨S768, .f32⟩
  | .local _ .vmem, ⟨9, _⟩ => ⟨S256x768, .bf16⟩
  | .local _ .vmem, ⟨10, _⟩ => ⟨S256x768, .bf16⟩
  | .local _ .vmem, ⟨11, _⟩ => ⟨S768, .f32⟩
  | .local _ .vmem, ⟨12, _⟩ => ⟨S768, .f32⟩
  | .local _ .vmem, ⟨13, _⟩ => ⟨S256x768, .bf16⟩
  | .local _ .vmem, ⟨14, _⟩ => ⟨S256x768, .bf16⟩
  | .local _ .vmem, ⟨15, _⟩ => ⟨S768, .f32⟩
  | .local _ .vmem, ⟨16, _⟩ => ⟨S768, .f32⟩
  | .local _ .vmem, ⟨17, _⟩ => ⟨S2x256, .f32⟩
  | .local _ .vmem, ⟨18, _⟩ => ⟨S2, .f32⟩
  | .local _ .vmem, ⟨19, _⟩ => ⟨S12x2048x2, .f32⟩
  | .local _ .vmem, ⟨20, _⟩ => ⟨S12x2048x2, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S12x2048x2 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S8x8192x2_S1x8192x2_7_0_0 : S8x8192x2.Slices ![7, 0, 0] S1x8192x2
  shapeCasts_S1x8192x2_S8192x2 : S1x8192x2.ShapeCasts S8192x2
  bitsLt_bf16_f32 : FTy.bits .bf16 < FTy.bits .f32
  slices_S768x514_S768x512_0_0 : S768x514.Slices ![0, 0] S768x512
  transposes_S768x512_S512x768_1_0 : S768x512.Transposes [1, 0] S512x768
  slices_S768x514_S768x2_0_512 : S768x514.Slices ![0, 512] S768x2
  transposes_S768x2_S2x768_1_0 : S768x2.Transposes [1, 0] S2x768
  transposes_S768x256_S256x768_1_0 : S768x256.Transposes [1, 0] S256x768
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S2x768_S2x768_0_0 : ∀ a, (![0, 0] : Fin 2 → Nat) a + S2x768.size a ≤ S2x768.size a
  h_S2x768 : 0 < S2x768.numel
  shapeCasts_S2x768_S2x768 : S2x768.ShapeCasts S2x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  inb_S2x256_S2x256_0_0 : ∀ a, (![0, 0] : Fin 2 → Nat) a + S2x256.size a ≤ S2x256.size a
  h_S2x256 : 0 < S2x256.numel
  inb_S2_S2_0 : ∀ a, (![0] : Fin 1 → Nat) a + S2.size a ≤ S2.size a
  h_S2 : 0 < S2.numel
  slices_S2x768_o0_0_S1x768 : S2x768.Slices ![0, 0] S1x768
  slices_S2x768_o1_0_S1x768 : S2x768.Slices ![1, 0] S1x768
  slices_S2x256_o0_0_S1x256 : S2x256.Slices ![0, 0] S1x256
  slices_S2x256_o1_0_S1x256 : S2x256.Slices ![1, 0] S1x256
  slices_S2048x2_o0_0_S2048x1 : S2048x2.Slices ![0, 0] S2048x1
  broadcasts_S2048x1_S2048x768 : S2048x1.Broadcasts S2048x768
  broadcasts_S1x768_S2048x768 : S1x768.Broadcasts S2048x768
  slices_S2048x2_o0_1_S2048x1 : S2048x2.Slices ![0, 1] S2048x1
  shapeCasts_S768_S1x768 : S768.ShapeCasts S1x768
  slices_S2048x768_o0_0_S2048x256 : S2048x768.Slices ![0, 0] S2048x256
  slices_S2048x768_o0_256_S2048x256 : S2048x768.Slices ![0, 256] S2048x256
  slices_S2048x768_o0_512_S2048x256 : S2048x768.Slices ![0, 512] S2048x256
  broadcasts_S1x256_S2048x256 : S1x256.Broadcasts S2048x256
  reduces_S2048x256_S2048 : S2048x256.Reduces [1] S2048
  shapeCasts_S2048_S2048x1 : S2048.ShapeCasts S2048x1
  slices_S2_o0_S1 : S2.Slices ![0] S1
  inpos_S1_p0 : ∀ a, (![0] : Fin 1 → Nat) a < S1.size a
  slices_S2_o1_S1 : S2.Slices ![1] S1
  concatenates_S2048x1_S2048x1_S2048x2_d1 : Shape.Concatenates [S2048x1, S2048x1] S2048x2 1
  shapeCasts_S2048x2_S1x2048x2 : S2048x2.ShapeCasts S1x2048x2
  concatenates_S1x2048x2_S1x2048x2_S1x2048x2_S1x2048x2_S1x2048x2_S1x2048x2_S1x2048x2_S1x2048x2_S1x2048x2_S1x2048x2_S1x2048x2_S1x2048x2_S12x2048x2_d0 : Shape.Concatenates [S1x2048x2, S1x2048x2, S1x2048x2, S1x2048x2, S1x2048x2, S1x2048x2, S1x2048x2, S1x2048x2, S1x2048x2, S1x2048x2, S1x2048x2, S1x2048x2] S12x2048x2 0
  inb_S12x2048x2_S12x2048x2_0_0_0 : ∀ a, (![0, 0, 0] : Fin 3 → Nat) a + S12x2048x2.size a ≤ S12x2048x2.size a
  h_S12x2048x2 : 0 < S12x2048x2.numel
  dot_S2048x512_S512x768_S2048x768_1_0_0_1_n_n_wf : DotDims.WF S2048x512 S512x768 S2048x768 [1] [0] [0] [1] [] []
  dot_S2048x256_S256x768_S2048x768_1_0_0_1_n_n_wf : DotDims.WF S2048x256 S256x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S8192x2.size a
  hwx0_1 : ∀ i : grid0.Coords, EltTy.bits .f32 = 32 ∨ (Rect.block (s := S8192x2) S2048x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S512x768.size a
  hwx0_2 : ∀ i : grid0.Coords, EltTy.bits .bf16 = 32 ∨ (Rect.block (s := S512x768) S512x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x768.size a ≤ S2x768.size a
  hwx0_3 : ∀ i : grid0.Coords, EltTy.bits .f32 = 32 ∨ (Rect.block (s := S2x768) S2x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x768.size a ≤ S256x768.size a
  hwx0_7 : ∀ i : grid0.Coords, EltTy.bits .bf16 = 32 ∨ (Rect.block (s := S256x768) S256x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x768.size a ≤ S256x768.size a
  hwx0_8 : ∀ i : grid0.Coords, EltTy.bits .bf16 = 32 ∨ (Rect.block (s := S256x768) S256x768.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768.size a ≤ S768.size a
  hwx0_9 : ∀ i : grid0.Coords, EltTy.bits .f32 = 32 ∨ (Rect.block (s := S768) S768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768.size a ≤ S768.size a
  hwx0_10 : ∀ i : grid0.Coords, EltTy.bits .f32 = 32 ∨ (Rect.block (s := S768) S768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x768.size a ≤ S256x768.size a
  hwx0_11 : ∀ i : grid0.Coords, EltTy.bits .bf16 = 32 ∨ (Rect.block (s := S256x768) S256x768.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x768.size a ≤ S256x768.size a
  hwx0_12 : ∀ i : grid0.Coords, EltTy.bits .bf16 = 32 ∨ (Rect.block (s := S256x768) S256x768.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S768.size a ≤ S768.size a
  hwx0_13 : ∀ i : grid0.Coords, EltTy.bits .f32 = 32 ∨ (Rect.block (s := S768) S768.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S768.size a ≤ S768.size a
  hwx0_14 : ∀ i : grid0.Coords, EltTy.bits .f32 = 32 ∨ (Rect.block (s := S768) S768.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2x256.size a ≤ S2x256.size a
  hwx0_15 : ∀ i : grid0.Coords, EltTy.bits .f32 = 32 ∨ (Rect.block (s := S2x256) S2x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2.size a ≤ S2.size a
  hwx0_16 : ∀ i : grid0.Coords, EltTy.bits .f32 = 32 ∨ (Rect.block (s := S2) S2.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S12x2048x2.size a ≤ S12x8192x2.size a
  hwx0_17 : ∀ i : grid0.Coords, EltTy.bits .f32 = 32 ∨ (Rect.block (s := S12x8192x2) S12x2048x2.size (cc0_transform_17 i) (hinb0_17 i)).WholeWords (EltTy.packing .f32)

variable [Facts₀]

def dot_S2048x512_S512x768_S2048x768_1_0_0_1_n_n : DotDims S2048x512 S512x768 S2048x768 where
  lhsContracting := [1]
  rhsContracting := [0]
  lhsNonContracting := [0]
  rhsNonContracting := [1]
  lhsBatch := []
  rhsBatch := []
  wf := dot_S2048x512_S512x768_S2048x768_1_0_0_1_n_n_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S256x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S256x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S256x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S768.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S2x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v18) S12x2048x2.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8192x512 : Shape := ⟨2, ![8192, 512]⟩
abbrev S8x8192x2 : Shape := ⟨3, ![8, 8192, 2]⟩
abbrev S768x514 : Shape := ⟨2, ![768, 514]⟩
abbrev S768x256 : Shape := ⟨2, ![768, 256]⟩
abbrev S768 : Shape := ⟨1, ![768]⟩
abbrev S2x256 : Shape := ⟨2, ![2, 256]⟩
abbrev S2 : Shape := ⟨1, ![2]⟩
abbrev S_ : Shape := ⟨0, ![]⟩
abbrev S8192x256 : Shape := ⟨2, ![8192, 256]⟩
abbrev S1x8192x2 : Shape := ⟨3, ![1, 8192, 2]⟩
abbrev S8192x2 : Shape := ⟨2, ![8192, 2]⟩
abbrev S8192x514 : Shape := ⟨2, ![8192, 514]⟩
abbrev S514x768 : Shape := ⟨2, ![514, 768]⟩
abbrev S8192x768 : Shape := ⟨2, ![8192, 768]⟩
abbrev S1x768 : Shape := ⟨2, ![1, 768]⟩
abbrev S256x768 : Shape := ⟨2, ![256, 768]⟩
abbrev S256x2 : Shape := ⟨2, ![256, 2]⟩
abbrev S1x2 : Shape := ⟨2, ![1, 2]⟩
abbrev S12x8192x2 : Shape := ⟨3, ![12, 8192, 2]⟩

abbrev nBuf : Space → Nat
  | .hbm => 1657
  | .vmem => 0
  | .smem => 0
  | _ => 0

abbrev hbmTy0_0 (i : Nat) : BufTy := match i % 128 with
  | 0 => ⟨S8192x512, .f32⟩
  | 1 => ⟨S8x8192x2, .f32⟩
  | 2 => ⟨S768x514, .f32⟩
  | 3 => ⟨S768x256, .f32⟩
  | 4 => ⟨S768, .f32⟩
  | 5 => ⟨S768, .f32⟩
  | 6 => ⟨S768x256, .f32⟩
  | 7 => ⟨S768x256, .f32⟩
  | 8 => ⟨S768, .f32⟩
  | 9 => ⟨S768, .f32⟩
  | 10 => ⟨S768x256, .f32⟩
  | 11 => ⟨S768x256, .f32⟩
  | 12 => ⟨S768, .f32⟩
  | 13 => ⟨S768, .f32⟩
  | 14 => ⟨S2x256, .f32⟩
  | 15 => ⟨S2, .f32⟩
  | 16 => ⟨S_, .f32⟩
  | 17 => ⟨S8192x256, .f32⟩
  | 18 => ⟨S_, .f32⟩
  | 19 => ⟨S8192x256, .f32⟩
  | 20 => ⟨S_, .f32⟩
  | 21 => ⟨S8192x256, .f32⟩
  | 22 => ⟨S1x8192x2, .f32⟩
  | 23 => ⟨S8192x2, .f32⟩
  | 24 => ⟨S8192x514, .f32⟩
  | 25 => ⟨S514x768, .f32⟩
  | 26 => ⟨S8192x768, .f32⟩
  | 27 => ⟨S1x768, .f32⟩
  | 28 => ⟨S8192x768, .f32⟩
  | 29 => ⟨S8192x768, .f32⟩
  | 30 => ⟨S256x768, .f32⟩
  | 31 => ⟨S8192x768, .f32⟩
  | 32 => ⟨S1x768, .f32⟩
  | 33 => ⟨S8192x768, .f32⟩
  | 34 => ⟨S8192x768, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S8192x256, .f32⟩
  | 44 => ⟨S_, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S_, .f32⟩
  | 54 => ⟨S8192x256, .f32⟩
  | 55 => ⟨S8192x256, .f32⟩
  | 56 => ⟨S_, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S_, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S256x768, .f32⟩
  | 69 => ⟨S8192x768, .f32⟩
  | 70 => ⟨S1x768, .f32⟩
  | 71 => ⟨S8192x768, .f32⟩
  | 72 => ⟨S8192x768, .f32⟩
  | 73 => ⟨S256x768, .f32⟩
  | 74 => ⟨S8192x768, .f32⟩
  | 75 => ⟨S1x768, .f32⟩
  | 76 => ⟨S8192x768, .f32⟩
  | 77 => ⟨S8192x768, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S8192x256, .f32⟩
  | 84 => ⟨S8192x256, .f32⟩
  | 85 => ⟨S8192x256, .f32⟩
  | 86 => ⟨S8192x256, .f32⟩
  | 87 => ⟨S_, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S_, .f32⟩
  | 97 => ⟨S8192x256, .f32⟩
  | 98 => ⟨S8192x256, .f32⟩
  | 99 => ⟨S_, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S_, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S256x768, .f32⟩
  | 112 => ⟨S8192x768, .f32⟩
  | 113 => ⟨S1x768, .f32⟩
  | 114 => ⟨S8192x768, .f32⟩
  | 115 => ⟨S8192x768, .f32⟩
  | 116 => ⟨S256x768, .f32⟩
  | 117 => ⟨S8192x768, .f32⟩
  | 118 => ⟨S1x768, .f32⟩
  | 119 => ⟨S8192x768, .f32⟩
  | 120 => ⟨S8192x768, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S8192x256, .f32⟩
  | 127 => ⟨S8192x256, .f32⟩
  | _ => ⟨S8192x512, .f32⟩

abbrev hbmTy0_1 (i : Nat) : BufTy := match i % 128 with
  | 0 => ⟨S8192x256, .f32⟩
  | 1 => ⟨S8192x256, .f32⟩
  | 2 => ⟨S_, .f32⟩
  | 3 => ⟨S8192x256, .f32⟩
  | 4 => ⟨S8192x256, .f32⟩
  | 5 => ⟨S_, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S_, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S_, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S256x2, .f32⟩
  | 27 => ⟨S8192x2, .f32⟩
  | 28 => ⟨S1x2, .f32⟩
  | 29 => ⟨S8192x2, .f32⟩
  | 30 => ⟨S8192x2, .f32⟩
  | 31 => ⟨S8192x514, .f32⟩
  | 32 => ⟨S514x768, .f32⟩
  | 33 => ⟨S8192x768, .f32⟩
  | 34 => ⟨S1x768, .f32⟩
  | 35 => ⟨S8192x768, .f32⟩
  | 36 => ⟨S8192x768, .f32⟩
  | 37 => ⟨S256x768, .f32⟩
  | 38 => ⟨S8192x768, .f32⟩
  | 39 => ⟨S1x768, .f32⟩
  | 40 => ⟨S8192x768, .f32⟩
  | 41 => ⟨S8192x768, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S8192x256, .f32⟩
  | 50 => ⟨S8192x256, .f32⟩
  | 51 => ⟨S_, .f32⟩
  | 52 => ⟨S8192x256, .f32⟩
  | 53 => ⟨S8192x256, .f32⟩
  | 54 => ⟨S_, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S_, .f32⟩
  | 61 => ⟨S8192x256, .f32⟩
  | 62 => ⟨S8192x256, .f32⟩
  | 63 => ⟨S_, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S256x768, .f32⟩
  | 76 => ⟨S8192x768, .f32⟩
  | 77 => ⟨S1x768, .f32⟩
  | 78 => ⟨S8192x768, .f32⟩
  | 79 => ⟨S8192x768, .f32⟩
  | 80 => ⟨S256x768, .f32⟩
  | 81 => ⟨S8192x768, .f32⟩
  | 82 => ⟨S1x768, .f32⟩
  | 83 => ⟨S8192x768, .f32⟩
  | 84 => ⟨S8192x768, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S8192x256, .f32⟩
  | 91 => ⟨S8192x256, .f32⟩
  | 92 => ⟨S8192x256, .f32⟩
  | 93 => ⟨S8192x256, .f32⟩
  | 94 => ⟨S_, .f32⟩
  | 95 => ⟨S8192x256, .f32⟩
  | 96 => ⟨S8192x256, .f32⟩
  | 97 => ⟨S_, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S_, .f32⟩
  | 104 => ⟨S8192x256, .f32⟩
  | 105 => ⟨S8192x256, .f32⟩
  | 106 => ⟨S_, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S_, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S256x768, .f32⟩
  | 119 => ⟨S8192x768, .f32⟩
  | 120 => ⟨S1x768, .f32⟩
  | 121 => ⟨S8192x768, .f32⟩
  | 122 => ⟨S8192x768, .f32⟩
  | 123 => ⟨S256x768, .f32⟩
  | 124 => ⟨S8192x768, .f32⟩
  | 125 => ⟨S1x768, .f32⟩
  | 126 => ⟨S8192x768, .f32⟩
  | 127 => ⟨S8192x768, .f32⟩
  | _ => ⟨S8192x512, .f32⟩

abbrev hbmTy0_2 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x256, .f32⟩
  | 5 => ⟨S8192x256, .f32⟩
  | 6 => ⟨S8192x256, .f32⟩
  | 7 => ⟨S8192x256, .f32⟩
  | 8 => ⟨S8192x256, .f32⟩
  | 9 => ⟨S_, .f32⟩
  | 10 => ⟨S8192x256, .f32⟩
  | 11 => ⟨S8192x256, .f32⟩
  | 12 => ⟨S_, .f32⟩
  | 13 => ⟨S8192x256, .f32⟩
  | 14 => ⟨S8192x256, .f32⟩
  | 15 => ⟨S8192x256, .f32⟩
  | 16 => ⟨S8192x256, .f32⟩
  | 17 => ⟨S8192x256, .f32⟩
  | 18 => ⟨S_, .f32⟩
  | 19 => ⟨S8192x256, .f32⟩
  | 20 => ⟨S8192x256, .f32⟩
  | 21 => ⟨S_, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S256x2, .f32⟩
  | 34 => ⟨S8192x2, .f32⟩
  | 35 => ⟨S1x2, .f32⟩
  | 36 => ⟨S8192x2, .f32⟩
  | 37 => ⟨S8192x2, .f32⟩
  | 38 => ⟨S8192x514, .f32⟩
  | 39 => ⟨S514x768, .f32⟩
  | 40 => ⟨S8192x768, .f32⟩
  | 41 => ⟨S1x768, .f32⟩
  | 42 => ⟨S8192x768, .f32⟩
  | 43 => ⟨S8192x768, .f32⟩
  | 44 => ⟨S256x768, .f32⟩
  | 45 => ⟨S8192x768, .f32⟩
  | 46 => ⟨S1x768, .f32⟩
  | 47 => ⟨S8192x768, .f32⟩
  | 48 => ⟨S8192x768, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S_, .f32⟩
  | 59 => ⟨S8192x256, .f32⟩
  | 60 => ⟨S8192x256, .f32⟩
  | 61 => ⟨S_, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S_, .f32⟩
  | 68 => ⟨S8192x256, .f32⟩
  | 69 => ⟨S8192x256, .f32⟩
  | 70 => ⟨S_, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S_, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S256x768, .f32⟩
  | 83 => ⟨S8192x768, .f32⟩
  | 84 => ⟨S1x768, .f32⟩
  | 85 => ⟨S8192x768, .f32⟩
  | 86 => ⟨S8192x768, .f32⟩
  | 87 => ⟨S256x768, .f32⟩
  | 88 => ⟨S8192x768, .f32⟩
  | 89 => ⟨S1x768, .f32⟩
  | 90 => ⟨S8192x768, .f32⟩
  | 91 => ⟨S8192x768, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S_, .f32⟩
  | 102 => ⟨S8192x256, .f32⟩
  | 103 => ⟨S8192x256, .f32⟩
  | 104 => ⟨S_, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S_, .f32⟩
  | 111 => ⟨S8192x256, .f32⟩
  | 112 => ⟨S8192x256, .f32⟩
  | 113 => ⟨S_, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S_, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S256x768, .f32⟩
  | 126 => ⟨S8192x768, .f32⟩
  | 127 => ⟨S1x768, .f32⟩
  | _ => ⟨S8192x512, .f32⟩

abbrev hbmTy0_3 (i : Nat) : BufTy := match i % 128 with
  | 0 => ⟨S8192x768, .f32⟩
  | 1 => ⟨S8192x768, .f32⟩
  | 2 => ⟨S256x768, .f32⟩
  | 3 => ⟨S8192x768, .f32⟩
  | 4 => ⟨S1x768, .f32⟩
  | 5 => ⟨S8192x768, .f32⟩
  | 6 => ⟨S8192x768, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S8192x256, .f32⟩
  | 14 => ⟨S8192x256, .f32⟩
  | 15 => ⟨S8192x256, .f32⟩
  | 16 => ⟨S_, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S_, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S_, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S256x2, .f32⟩
  | 41 => ⟨S8192x2, .f32⟩
  | 42 => ⟨S1x2, .f32⟩
  | 43 => ⟨S8192x2, .f32⟩
  | 44 => ⟨S8192x2, .f32⟩
  | 45 => ⟨S8192x514, .f32⟩
  | 46 => ⟨S514x768, .f32⟩
  | 47 => ⟨S8192x768, .f32⟩
  | 48 => ⟨S1x768, .f32⟩
  | 49 => ⟨S8192x768, .f32⟩
  | 50 => ⟨S8192x768, .f32⟩
  | 51 => ⟨S256x768, .f32⟩
  | 52 => ⟨S8192x768, .f32⟩
  | 53 => ⟨S1x768, .f32⟩
  | 54 => ⟨S8192x768, .f32⟩
  | 55 => ⟨S8192x768, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S_, .f32⟩
  | 66 => ⟨S8192x256, .f32⟩
  | 67 => ⟨S8192x256, .f32⟩
  | 68 => ⟨S_, .f32⟩
  | 69 => ⟨S8192x256, .f32⟩
  | 70 => ⟨S8192x256, .f32⟩
  | 71 => ⟨S8192x256, .f32⟩
  | 72 => ⟨S8192x256, .f32⟩
  | 73 => ⟨S8192x256, .f32⟩
  | 74 => ⟨S_, .f32⟩
  | 75 => ⟨S8192x256, .f32⟩
  | 76 => ⟨S8192x256, .f32⟩
  | 77 => ⟨S_, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S256x768, .f32⟩
  | 90 => ⟨S8192x768, .f32⟩
  | 91 => ⟨S1x768, .f32⟩
  | 92 => ⟨S8192x768, .f32⟩
  | 93 => ⟨S8192x768, .f32⟩
  | 94 => ⟨S256x768, .f32⟩
  | 95 => ⟨S8192x768, .f32⟩
  | 96 => ⟨S1x768, .f32⟩
  | 97 => ⟨S8192x768, .f32⟩
  | 98 => ⟨S8192x768, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S8192x256, .f32⟩
  | 106 => ⟨S8192x256, .f32⟩
  | 107 => ⟨S8192x256, .f32⟩
  | 108 => ⟨S_, .f32⟩
  | 109 => ⟨S8192x256, .f32⟩
  | 110 => ⟨S8192x256, .f32⟩
  | 111 => ⟨S_, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S_, .f32⟩
  | 118 => ⟨S8192x256, .f32⟩
  | 119 => ⟨S8192x256, .f32⟩
  | 120 => ⟨S_, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S_, .f32⟩
  | 127 => ⟨S8192x256, .f32⟩
  | _ => ⟨S8192x512, .f32⟩

abbrev hbmTy0_4 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S256x768, .f32⟩
  | 5 => ⟨S8192x768, .f32⟩
  | 6 => ⟨S1x768, .f32⟩
  | 7 => ⟨S8192x768, .f32⟩
  | 8 => ⟨S8192x768, .f32⟩
  | 9 => ⟨S256x768, .f32⟩
  | 10 => ⟨S8192x768, .f32⟩
  | 11 => ⟨S1x768, .f32⟩
  | 12 => ⟨S8192x768, .f32⟩
  | 13 => ⟨S8192x768, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S8192x256, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S_, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S_, .f32⟩
  | 33 => ⟨S8192x256, .f32⟩
  | 34 => ⟨S8192x256, .f32⟩
  | 35 => ⟨S_, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S_, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S256x2, .f32⟩
  | 48 => ⟨S8192x2, .f32⟩
  | 49 => ⟨S1x2, .f32⟩
  | 50 => ⟨S8192x2, .f32⟩
  | 51 => ⟨S8192x2, .f32⟩
  | 52 => ⟨S8192x514, .f32⟩
  | 53 => ⟨S514x768, .f32⟩
  | 54 => ⟨S8192x768, .f32⟩
  | 55 => ⟨S1x768, .f32⟩
  | 56 => ⟨S8192x768, .f32⟩
  | 57 => ⟨S8192x768, .f32⟩
  | 58 => ⟨S256x768, .f32⟩
  | 59 => ⟨S8192x768, .f32⟩
  | 60 => ⟨S1x768, .f32⟩
  | 61 => ⟨S8192x768, .f32⟩
  | 62 => ⟨S8192x768, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S8192x256, .f32⟩
  | 70 => ⟨S8192x256, .f32⟩
  | 71 => ⟨S8192x256, .f32⟩
  | 72 => ⟨S_, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S_, .f32⟩
  | 82 => ⟨S8192x256, .f32⟩
  | 83 => ⟨S8192x256, .f32⟩
  | 84 => ⟨S_, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S256x768, .f32⟩
  | 97 => ⟨S8192x768, .f32⟩
  | 98 => ⟨S1x768, .f32⟩
  | 99 => ⟨S8192x768, .f32⟩
  | 100 => ⟨S8192x768, .f32⟩
  | 101 => ⟨S256x768, .f32⟩
  | 102 => ⟨S8192x768, .f32⟩
  | 103 => ⟨S1x768, .f32⟩
  | 104 => ⟨S8192x768, .f32⟩
  | 105 => ⟨S8192x768, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S_, .f32⟩
  | 116 => ⟨S8192x256, .f32⟩
  | 117 => ⟨S8192x256, .f32⟩
  | 118 => ⟨S_, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S_, .f32⟩
  | 125 => ⟨S8192x256, .f32⟩
  | 126 => ⟨S8192x256, .f32⟩
  | 127 => ⟨S_, .f32⟩
  | _ => ⟨S8192x512, .f32⟩

abbrev hbmTy0_5 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x256, .f32⟩
  | 5 => ⟨S_, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S256x768, .f32⟩
  | 12 => ⟨S8192x768, .f32⟩
  | 13 => ⟨S1x768, .f32⟩
  | 14 => ⟨S8192x768, .f32⟩
  | 15 => ⟨S8192x768, .f32⟩
  | 16 => ⟨S256x768, .f32⟩
  | 17 => ⟨S8192x768, .f32⟩
  | 18 => ⟨S1x768, .f32⟩
  | 19 => ⟨S8192x768, .f32⟩
  | 20 => ⟨S8192x768, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S8192x256, .f32⟩
  | 28 => ⟨S8192x256, .f32⟩
  | 29 => ⟨S8192x256, .f32⟩
  | 30 => ⟨S_, .f32⟩
  | 31 => ⟨S8192x256, .f32⟩
  | 32 => ⟨S8192x256, .f32⟩
  | 33 => ⟨S_, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S_, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S_, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S256x2, .f32⟩
  | 55 => ⟨S8192x2, .f32⟩
  | 56 => ⟨S1x2, .f32⟩
  | 57 => ⟨S8192x2, .f32⟩
  | 58 => ⟨S8192x2, .f32⟩
  | 59 => ⟨S8192x514, .f32⟩
  | 60 => ⟨S514x768, .f32⟩
  | 61 => ⟨S8192x768, .f32⟩
  | 62 => ⟨S1x768, .f32⟩
  | 63 => ⟨S8192x768, .f32⟩
  | 64 => ⟨S8192x768, .f32⟩
  | 65 => ⟨S256x768, .f32⟩
  | 66 => ⟨S8192x768, .f32⟩
  | 67 => ⟨S1x768, .f32⟩
  | 68 => ⟨S8192x768, .f32⟩
  | 69 => ⟨S8192x768, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S8192x256, .f32⟩
  | 77 => ⟨S8192x256, .f32⟩
  | 78 => ⟨S8192x256, .f32⟩
  | 79 => ⟨S_, .f32⟩
  | 80 => ⟨S8192x256, .f32⟩
  | 81 => ⟨S8192x256, .f32⟩
  | 82 => ⟨S_, .f32⟩
  | 83 => ⟨S8192x256, .f32⟩
  | 84 => ⟨S8192x256, .f32⟩
  | 85 => ⟨S8192x256, .f32⟩
  | 86 => ⟨S8192x256, .f32⟩
  | 87 => ⟨S8192x256, .f32⟩
  | 88 => ⟨S_, .f32⟩
  | 89 => ⟨S8192x256, .f32⟩
  | 90 => ⟨S8192x256, .f32⟩
  | 91 => ⟨S_, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S256x768, .f32⟩
  | 104 => ⟨S8192x768, .f32⟩
  | 105 => ⟨S1x768, .f32⟩
  | 106 => ⟨S8192x768, .f32⟩
  | 107 => ⟨S8192x768, .f32⟩
  | 108 => ⟨S256x768, .f32⟩
  | 109 => ⟨S8192x768, .f32⟩
  | 110 => ⟨S1x768, .f32⟩
  | 111 => ⟨S8192x768, .f32⟩
  | 112 => ⟨S8192x768, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S8192x256, .f32⟩
  | 122 => ⟨S_, .f32⟩
  | 123 => ⟨S8192x256, .f32⟩
  | 124 => ⟨S8192x256, .f32⟩
  | 125 => ⟨S_, .f32⟩
  | 126 => ⟨S8192x256, .f32⟩
  | 127 => ⟨S8192x256, .f32⟩
  | _ => ⟨S8192x512, .f32⟩

abbrev hbmTy0_6 (i : Nat) : BufTy := match i % 128 with
  | 0 => ⟨S8192x256, .f32⟩
  | 1 => ⟨S8192x256, .f32⟩
  | 2 => ⟨S8192x256, .f32⟩
  | 3 => ⟨S_, .f32⟩
  | 4 => ⟨S8192x256, .f32⟩
  | 5 => ⟨S8192x256, .f32⟩
  | 6 => ⟨S_, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S_, .f32⟩
  | 13 => ⟨S8192x256, .f32⟩
  | 14 => ⟨S8192x256, .f32⟩
  | 15 => ⟨S8192x256, .f32⟩
  | 16 => ⟨S8192x256, .f32⟩
  | 17 => ⟨S8192x256, .f32⟩
  | 18 => ⟨S256x768, .f32⟩
  | 19 => ⟨S8192x768, .f32⟩
  | 20 => ⟨S1x768, .f32⟩
  | 21 => ⟨S8192x768, .f32⟩
  | 22 => ⟨S8192x768, .f32⟩
  | 23 => ⟨S256x768, .f32⟩
  | 24 => ⟨S8192x768, .f32⟩
  | 25 => ⟨S1x768, .f32⟩
  | 26 => ⟨S8192x768, .f32⟩
  | 27 => ⟨S8192x768, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S8192x256, .f32⟩
  | 36 => ⟨S8192x256, .f32⟩
  | 37 => ⟨S_, .f32⟩
  | 38 => ⟨S8192x256, .f32⟩
  | 39 => ⟨S8192x256, .f32⟩
  | 40 => ⟨S_, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S_, .f32⟩
  | 47 => ⟨S8192x256, .f32⟩
  | 48 => ⟨S8192x256, .f32⟩
  | 49 => ⟨S_, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S_, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S256x2, .f32⟩
  | 62 => ⟨S8192x2, .f32⟩
  | 63 => ⟨S1x2, .f32⟩
  | 64 => ⟨S8192x2, .f32⟩
  | 65 => ⟨S8192x2, .f32⟩
  | 66 => ⟨S8192x514, .f32⟩
  | 67 => ⟨S514x768, .f32⟩
  | 68 => ⟨S8192x768, .f32⟩
  | 69 => ⟨S1x768, .f32⟩
  | 70 => ⟨S8192x768, .f32⟩
  | 71 => ⟨S8192x768, .f32⟩
  | 72 => ⟨S256x768, .f32⟩
  | 73 => ⟨S8192x768, .f32⟩
  | 74 => ⟨S1x768, .f32⟩
  | 75 => ⟨S8192x768, .f32⟩
  | 76 => ⟨S8192x768, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S8192x256, .f32⟩
  | 84 => ⟨S8192x256, .f32⟩
  | 85 => ⟨S8192x256, .f32⟩
  | 86 => ⟨S_, .f32⟩
  | 87 => ⟨S8192x256, .f32⟩
  | 88 => ⟨S8192x256, .f32⟩
  | 89 => ⟨S_, .f32⟩
  | 90 => ⟨S8192x256, .f32⟩
  | 91 => ⟨S8192x256, .f32⟩
  | 92 => ⟨S8192x256, .f32⟩
  | 93 => ⟨S8192x256, .f32⟩
  | 94 => ⟨S8192x256, .f32⟩
  | 95 => ⟨S_, .f32⟩
  | 96 => ⟨S8192x256, .f32⟩
  | 97 => ⟨S8192x256, .f32⟩
  | 98 => ⟨S_, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S_, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S256x768, .f32⟩
  | 111 => ⟨S8192x768, .f32⟩
  | 112 => ⟨S1x768, .f32⟩
  | 113 => ⟨S8192x768, .f32⟩
  | 114 => ⟨S8192x768, .f32⟩
  | 115 => ⟨S256x768, .f32⟩
  | 116 => ⟨S8192x768, .f32⟩
  | 117 => ⟨S1x768, .f32⟩
  | 118 => ⟨S8192x768, .f32⟩
  | 119 => ⟨S8192x768, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S8192x256, .f32⟩
  | 127 => ⟨S8192x256, .f32⟩
  | _ => ⟨S8192x512, .f32⟩

abbrev hbmTy0_7 (i : Nat) : BufTy := match i % 128 with
  | 0 => ⟨S8192x256, .f32⟩
  | 1 => ⟨S_, .f32⟩
  | 2 => ⟨S8192x256, .f32⟩
  | 3 => ⟨S8192x256, .f32⟩
  | 4 => ⟨S_, .f32⟩
  | 5 => ⟨S8192x256, .f32⟩
  | 6 => ⟨S8192x256, .f32⟩
  | 7 => ⟨S8192x256, .f32⟩
  | 8 => ⟨S8192x256, .f32⟩
  | 9 => ⟨S8192x256, .f32⟩
  | 10 => ⟨S_, .f32⟩
  | 11 => ⟨S8192x256, .f32⟩
  | 12 => ⟨S8192x256, .f32⟩
  | 13 => ⟨S_, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S256x768, .f32⟩
  | 26 => ⟨S8192x768, .f32⟩
  | 27 => ⟨S1x768, .f32⟩
  | 28 => ⟨S8192x768, .f32⟩
  | 29 => ⟨S8192x768, .f32⟩
  | 30 => ⟨S256x768, .f32⟩
  | 31 => ⟨S8192x768, .f32⟩
  | 32 => ⟨S1x768, .f32⟩
  | 33 => ⟨S8192x768, .f32⟩
  | 34 => ⟨S8192x768, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S8192x256, .f32⟩
  | 44 => ⟨S_, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S_, .f32⟩
  | 54 => ⟨S8192x256, .f32⟩
  | 55 => ⟨S8192x256, .f32⟩
  | 56 => ⟨S_, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S_, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S256x2, .f32⟩
  | 69 => ⟨S8192x2, .f32⟩
  | 70 => ⟨S1x2, .f32⟩
  | 71 => ⟨S8192x2, .f32⟩
  | 72 => ⟨S8192x2, .f32⟩
  | 73 => ⟨S8192x514, .f32⟩
  | 74 => ⟨S514x768, .f32⟩
  | 75 => ⟨S8192x768, .f32⟩
  | 76 => ⟨S1x768, .f32⟩
  | 77 => ⟨S8192x768, .f32⟩
  | 78 => ⟨S8192x768, .f32⟩
  | 79 => ⟨S256x768, .f32⟩
  | 80 => ⟨S8192x768, .f32⟩
  | 81 => ⟨S1x768, .f32⟩
  | 82 => ⟨S8192x768, .f32⟩
  | 83 => ⟨S8192x768, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S8192x256, .f32⟩
  | 91 => ⟨S8192x256, .f32⟩
  | 92 => ⟨S8192x256, .f32⟩
  | 93 => ⟨S_, .f32⟩
  | 94 => ⟨S8192x256, .f32⟩
  | 95 => ⟨S8192x256, .f32⟩
  | 96 => ⟨S_, .f32⟩
  | 97 => ⟨S8192x256, .f32⟩
  | 98 => ⟨S8192x256, .f32⟩
  | 99 => ⟨S8192x256, .f32⟩
  | 100 => ⟨S8192x256, .f32⟩
  | 101 => ⟨S8192x256, .f32⟩
  | 102 => ⟨S_, .f32⟩
  | 103 => ⟨S8192x256, .f32⟩
  | 104 => ⟨S8192x256, .f32⟩
  | 105 => ⟨S_, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S_, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S256x768, .f32⟩
  | 118 => ⟨S8192x768, .f32⟩
  | 119 => ⟨S1x768, .f32⟩
  | 120 => ⟨S8192x768, .f32⟩
  | 121 => ⟨S8192x768, .f32⟩
  | 122 => ⟨S256x768, .f32⟩
  | 123 => ⟨S8192x768, .f32⟩
  | 124 => ⟨S1x768, .f32⟩
  | 125 => ⟨S8192x768, .f32⟩
  | 126 => ⟨S8192x768, .f32⟩
  | 127 => ⟨S8192x256, .f32⟩
  | _ => ⟨S8192x512, .f32⟩

abbrev hbmTy0_8 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x256, .f32⟩
  | 5 => ⟨S8192x256, .f32⟩
  | 6 => ⟨S8192x256, .f32⟩
  | 7 => ⟨S8192x256, .f32⟩
  | 8 => ⟨S_, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S8192x256, .f32⟩
  | 15 => ⟨S8192x256, .f32⟩
  | 16 => ⟨S8192x256, .f32⟩
  | 17 => ⟨S_, .f32⟩
  | 18 => ⟨S8192x256, .f32⟩
  | 19 => ⟨S8192x256, .f32⟩
  | 20 => ⟨S_, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S_, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S256x768, .f32⟩
  | 33 => ⟨S8192x768, .f32⟩
  | 34 => ⟨S1x768, .f32⟩
  | 35 => ⟨S8192x768, .f32⟩
  | 36 => ⟨S8192x768, .f32⟩
  | 37 => ⟨S256x768, .f32⟩
  | 38 => ⟨S8192x768, .f32⟩
  | 39 => ⟨S1x768, .f32⟩
  | 40 => ⟨S8192x768, .f32⟩
  | 41 => ⟨S8192x768, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S8192x256, .f32⟩
  | 50 => ⟨S8192x256, .f32⟩
  | 51 => ⟨S_, .f32⟩
  | 52 => ⟨S8192x256, .f32⟩
  | 53 => ⟨S8192x256, .f32⟩
  | 54 => ⟨S_, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S_, .f32⟩
  | 61 => ⟨S8192x256, .f32⟩
  | 62 => ⟨S8192x256, .f32⟩
  | 63 => ⟨S_, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S256x2, .f32⟩
  | 76 => ⟨S8192x2, .f32⟩
  | 77 => ⟨S1x2, .f32⟩
  | 78 => ⟨S8192x2, .f32⟩
  | 79 => ⟨S8192x2, .f32⟩
  | 80 => ⟨S8192x514, .f32⟩
  | 81 => ⟨S514x768, .f32⟩
  | 82 => ⟨S8192x768, .f32⟩
  | 83 => ⟨S1x768, .f32⟩
  | 84 => ⟨S8192x768, .f32⟩
  | 85 => ⟨S8192x768, .f32⟩
  | 86 => ⟨S256x768, .f32⟩
  | 87 => ⟨S8192x768, .f32⟩
  | 88 => ⟨S1x768, .f32⟩
  | 89 => ⟨S8192x768, .f32⟩
  | 90 => ⟨S8192x768, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S_, .f32⟩
  | 101 => ⟨S8192x256, .f32⟩
  | 102 => ⟨S8192x256, .f32⟩
  | 103 => ⟨S_, .f32⟩
  | 104 => ⟨S8192x256, .f32⟩
  | 105 => ⟨S8192x256, .f32⟩
  | 106 => ⟨S8192x256, .f32⟩
  | 107 => ⟨S8192x256, .f32⟩
  | 108 => ⟨S8192x256, .f32⟩
  | 109 => ⟨S_, .f32⟩
  | 110 => ⟨S8192x256, .f32⟩
  | 111 => ⟨S8192x256, .f32⟩
  | 112 => ⟨S_, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S_, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S256x768, .f32⟩
  | 125 => ⟨S8192x768, .f32⟩
  | 126 => ⟨S1x768, .f32⟩
  | 127 => ⟨S8192x768, .f32⟩
  | _ => ⟨S8192x512, .f32⟩

abbrev hbmTy0_9 (i : Nat) : BufTy := match i % 128 with
  | 0 => ⟨S8192x768, .f32⟩
  | 1 => ⟨S256x768, .f32⟩
  | 2 => ⟨S8192x768, .f32⟩
  | 3 => ⟨S1x768, .f32⟩
  | 4 => ⟨S8192x768, .f32⟩
  | 5 => ⟨S8192x768, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S8192x256, .f32⟩
  | 14 => ⟨S8192x256, .f32⟩
  | 15 => ⟨S_, .f32⟩
  | 16 => ⟨S8192x256, .f32⟩
  | 17 => ⟨S8192x256, .f32⟩
  | 18 => ⟨S_, .f32⟩
  | 19 => ⟨S8192x256, .f32⟩
  | 20 => ⟨S8192x256, .f32⟩
  | 21 => ⟨S8192x256, .f32⟩
  | 22 => ⟨S8192x256, .f32⟩
  | 23 => ⟨S8192x256, .f32⟩
  | 24 => ⟨S_, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S_, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S256x768, .f32⟩
  | 40 => ⟨S8192x768, .f32⟩
  | 41 => ⟨S1x768, .f32⟩
  | 42 => ⟨S8192x768, .f32⟩
  | 43 => ⟨S8192x768, .f32⟩
  | 44 => ⟨S256x768, .f32⟩
  | 45 => ⟨S8192x768, .f32⟩
  | 46 => ⟨S1x768, .f32⟩
  | 47 => ⟨S8192x768, .f32⟩
  | 48 => ⟨S8192x768, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S_, .f32⟩
  | 59 => ⟨S8192x256, .f32⟩
  | 60 => ⟨S8192x256, .f32⟩
  | 61 => ⟨S_, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S_, .f32⟩
  | 68 => ⟨S8192x256, .f32⟩
  | 69 => ⟨S8192x256, .f32⟩
  | 70 => ⟨S_, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S_, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S256x2, .f32⟩
  | 83 => ⟨S8192x2, .f32⟩
  | 84 => ⟨S1x2, .f32⟩
  | 85 => ⟨S8192x2, .f32⟩
  | 86 => ⟨S8192x2, .f32⟩
  | 87 => ⟨S8192x514, .f32⟩
  | 88 => ⟨S514x768, .f32⟩
  | 89 => ⟨S8192x768, .f32⟩
  | 90 => ⟨S1x768, .f32⟩
  | 91 => ⟨S8192x768, .f32⟩
  | 92 => ⟨S8192x768, .f32⟩
  | 93 => ⟨S256x768, .f32⟩
  | 94 => ⟨S8192x768, .f32⟩
  | 95 => ⟨S1x768, .f32⟩
  | 96 => ⟨S8192x768, .f32⟩
  | 97 => ⟨S8192x768, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S8192x256, .f32⟩
  | 106 => ⟨S8192x256, .f32⟩
  | 107 => ⟨S_, .f32⟩
  | 108 => ⟨S8192x256, .f32⟩
  | 109 => ⟨S8192x256, .f32⟩
  | 110 => ⟨S_, .f32⟩
  | 111 => ⟨S8192x256, .f32⟩
  | 112 => ⟨S8192x256, .f32⟩
  | 113 => ⟨S8192x256, .f32⟩
  | 114 => ⟨S8192x256, .f32⟩
  | 115 => ⟨S8192x256, .f32⟩
  | 116 => ⟨S_, .f32⟩
  | 117 => ⟨S8192x256, .f32⟩
  | 118 => ⟨S8192x256, .f32⟩
  | 119 => ⟨S_, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S_, .f32⟩
  | 126 => ⟨S8192x256, .f32⟩
  | 127 => ⟨S8192x256, .f32⟩
  | _ => ⟨S8192x512, .f32⟩

abbrev hbmTy0_10 (i : Nat) : BufTy := match i % 128 with
  | 0 => ⟨S8192x256, .f32⟩
  | 1 => ⟨S8192x256, .f32⟩
  | 2 => ⟨S8192x256, .f32⟩
  | 3 => ⟨S256x768, .f32⟩
  | 4 => ⟨S8192x768, .f32⟩
  | 5 => ⟨S1x768, .f32⟩
  | 6 => ⟨S8192x768, .f32⟩
  | 7 => ⟨S8192x768, .f32⟩
  | 8 => ⟨S256x768, .f32⟩
  | 9 => ⟨S8192x768, .f32⟩
  | 10 => ⟨S1x768, .f32⟩
  | 11 => ⟨S8192x768, .f32⟩
  | 12 => ⟨S8192x768, .f32⟩
  | 13 => ⟨S8192x256, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S8192x256, .f32⟩
  | 21 => ⟨S8192x256, .f32⟩
  | 22 => ⟨S_, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S8192x256, .f32⟩
  | 29 => ⟨S8192x256, .f32⟩
  | 30 => ⟨S8192x256, .f32⟩
  | 31 => ⟨S_, .f32⟩
  | 32 => ⟨S8192x256, .f32⟩
  | 33 => ⟨S8192x256, .f32⟩
  | 34 => ⟨S_, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S_, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S256x768, .f32⟩
  | 47 => ⟨S8192x768, .f32⟩
  | 48 => ⟨S1x768, .f32⟩
  | 49 => ⟨S8192x768, .f32⟩
  | 50 => ⟨S8192x768, .f32⟩
  | 51 => ⟨S256x768, .f32⟩
  | 52 => ⟨S8192x768, .f32⟩
  | 53 => ⟨S1x768, .f32⟩
  | 54 => ⟨S8192x768, .f32⟩
  | 55 => ⟨S8192x768, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S_, .f32⟩
  | 66 => ⟨S8192x256, .f32⟩
  | 67 => ⟨S8192x256, .f32⟩
  | 68 => ⟨S_, .f32⟩
  | 69 => ⟨S8192x256, .f32⟩
  | 70 => ⟨S8192x256, .f32⟩
  | 71 => ⟨S8192x256, .f32⟩
  | 72 => ⟨S8192x256, .f32⟩
  | 73 => ⟨S8192x256, .f32⟩
  | 74 => ⟨S_, .f32⟩
  | 75 => ⟨S8192x256, .f32⟩
  | 76 => ⟨S8192x256, .f32⟩
  | 77 => ⟨S_, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S256x2, .f32⟩
  | 90 => ⟨S8192x2, .f32⟩
  | 91 => ⟨S1x2, .f32⟩
  | 92 => ⟨S8192x2, .f32⟩
  | 93 => ⟨S8192x2, .f32⟩
  | 94 => ⟨S8192x514, .f32⟩
  | 95 => ⟨S514x768, .f32⟩
  | 96 => ⟨S8192x768, .f32⟩
  | 97 => ⟨S1x768, .f32⟩
  | 98 => ⟨S8192x768, .f32⟩
  | 99 => ⟨S8192x768, .f32⟩
  | 100 => ⟨S256x768, .f32⟩
  | 101 => ⟨S8192x768, .f32⟩
  | 102 => ⟨S1x768, .f32⟩
  | 103 => ⟨S8192x768, .f32⟩
  | 104 => ⟨S8192x768, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S_, .f32⟩
  | 115 => ⟨S8192x256, .f32⟩
  | 116 => ⟨S8192x256, .f32⟩
  | 117 => ⟨S_, .f32⟩
  | 118 => ⟨S8192x256, .f32⟩
  | 119 => ⟨S8192x256, .f32⟩
  | 120 => ⟨S8192x256, .f32⟩
  | 121 => ⟨S8192x256, .f32⟩
  | 122 => ⟨S8192x256, .f32⟩
  | 123 => ⟨S_, .f32⟩
  | 124 => ⟨S8192x256, .f32⟩
  | 125 => ⟨S8192x256, .f32⟩
  | 126 => ⟨S_, .f32⟩
  | 127 => ⟨S8192x256, .f32⟩
  | _ => ⟨S8192x512, .f32⟩

abbrev hbmTy0_11 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S_, .f32⟩
  | 5 => ⟨S8192x256, .f32⟩
  | 6 => ⟨S8192x256, .f32⟩
  | 7 => ⟨S8192x256, .f32⟩
  | 8 => ⟨S8192x256, .f32⟩
  | 9 => ⟨S8192x256, .f32⟩
  | 10 => ⟨S256x768, .f32⟩
  | 11 => ⟨S8192x768, .f32⟩
  | 12 => ⟨S1x768, .f32⟩
  | 13 => ⟨S8192x768, .f32⟩
  | 14 => ⟨S8192x768, .f32⟩
  | 15 => ⟨S256x768, .f32⟩
  | 16 => ⟨S8192x768, .f32⟩
  | 17 => ⟨S1x768, .f32⟩
  | 18 => ⟨S8192x768, .f32⟩
  | 19 => ⟨S8192x768, .f32⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S8192x256, .f32⟩
  | 28 => ⟨S8192x256, .f32⟩
  | 29 => ⟨S_, .f32⟩
  | 30 => ⟨S8192x256, .f32⟩
  | 31 => ⟨S8192x256, .f32⟩
  | 32 => ⟨S_, .f32⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S_, .f32⟩
  | 39 => ⟨S8192x256, .f32⟩
  | 40 => ⟨S8192x256, .f32⟩
  | 41 => ⟨S_, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S256x768, .f32⟩
  | 54 => ⟨S8192x768, .f32⟩
  | 55 => ⟨S1x768, .f32⟩
  | 56 => ⟨S8192x768, .f32⟩
  | 57 => ⟨S8192x768, .f32⟩
  | 58 => ⟨S256x768, .f32⟩
  | 59 => ⟨S8192x768, .f32⟩
  | 60 => ⟨S1x768, .f32⟩
  | 61 => ⟨S8192x768, .f32⟩
  | 62 => ⟨S8192x768, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S8192x256, .f32⟩
  | 70 => ⟨S8192x256, .f32⟩
  | 71 => ⟨S8192x256, .f32⟩
  | 72 => ⟨S_, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S_, .f32⟩
  | 82 => ⟨S8192x256, .f32⟩
  | 83 => ⟨S8192x256, .f32⟩
  | 84 => ⟨S_, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S256x2, .f32⟩
  | 97 => ⟨S8192x2, .f32⟩
  | 98 => ⟨S1x2, .f32⟩
  | 99 => ⟨S8192x2, .f32⟩
  | 100 => ⟨S8192x2, .f32⟩
  | 101 => ⟨S8192x514, .f32⟩
  | 102 => ⟨S514x768, .f32⟩
  | 103 => ⟨S8192x768, .f32⟩
  | 104 => ⟨S1x768, .f32⟩
  | 105 => ⟨S8192x768, .f32⟩
  | 106 => ⟨S8192x768, .f32⟩
  | 107 => ⟨S256x768, .f32⟩
  | 108 => ⟨S8192x768, .f32⟩
  | 109 => ⟨S1x768, .f32⟩
  | 110 => ⟨S8192x768, .f32⟩
  | 111 => ⟨S8192x768, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S_, .f32⟩
  | 122 => ⟨S8192x256, .f32⟩
  | 123 => ⟨S8192x256, .f32⟩
  | 124 => ⟨S_, .f32⟩
  | 125 => ⟨S8192x256, .f32⟩
  | 126 => ⟨S8192x256, .f32⟩
  | 127 => ⟨S8192x256, .f32⟩
  | _ => ⟨S8192x512, .f32⟩

abbrev hbmTy0_12 (i : Nat) : BufTy := match i % 128 with
  | 0 => ⟨S8192x256, .f32⟩
  | 1 => ⟨S8192x256, .f32⟩
  | 2 => ⟨S_, .f32⟩
  | 3 => ⟨S8192x256, .f32⟩
  | 4 => ⟨S8192x256, .f32⟩
  | 5 => ⟨S_, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S8192x256, .f32⟩
  | 15 => ⟨S8192x256, .f32⟩
  | 16 => ⟨S8192x256, .f32⟩
  | 17 => ⟨S256x768, .f32⟩
  | 18 => ⟨S8192x768, .f32⟩
  | 19 => ⟨S1x768, .f32⟩
  | 20 => ⟨S8192x768, .f32⟩
  | 21 => ⟨S8192x768, .f32⟩
  | 22 => ⟨S256x768, .f32⟩
  | 23 => ⟨S8192x768, .f32⟩
  | 24 => ⟨S1x768, .f32⟩
  | 25 => ⟨S8192x768, .f32⟩
  | 26 => ⟨S8192x768, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S8192x256, .f32⟩
  | 36 => ⟨S_, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S_, .f32⟩
  | 46 => ⟨S8192x256, .f32⟩
  | 47 => ⟨S8192x256, .f32⟩
  | 48 => ⟨S_, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S_, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S256x768, .f32⟩
  | 61 => ⟨S8192x768, .f32⟩
  | 62 => ⟨S1x768, .f32⟩
  | 63 => ⟨S8192x768, .f32⟩
  | 64 => ⟨S8192x768, .f32⟩
  | 65 => ⟨S256x768, .f32⟩
  | 66 => ⟨S8192x768, .f32⟩
  | 67 => ⟨S1x768, .f32⟩
  | 68 => ⟨S8192x768, .f32⟩
  | 69 => ⟨S8192x768, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S8192x256, .f32⟩
  | 77 => ⟨S8192x256, .f32⟩
  | 78 => ⟨S8192x256, .f32⟩
  | 79 => ⟨S_, .f32⟩
  | 80 => ⟨S8192x256, .f32⟩
  | 81 => ⟨S8192x256, .f32⟩
  | 82 => ⟨S_, .f32⟩
  | 83 => ⟨S8192x256, .f32⟩
  | 84 => ⟨S8192x256, .f32⟩
  | 85 => ⟨S8192x256, .f32⟩
  | 86 => ⟨S8192x256, .f32⟩
  | 87 => ⟨S8192x256, .f32⟩
  | 88 => ⟨S_, .f32⟩
  | 89 => ⟨S8192x256, .f32⟩
  | 90 => ⟨S8192x256, .f32⟩
  | 91 => ⟨S_, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S256x2, .f32⟩
  | 104 => ⟨S8192x2, .f32⟩
  | 105 => ⟨S1x2, .f32⟩
  | 106 => ⟨S8192x2, .f32⟩
  | 107 => ⟨S8192x2, .f32⟩
  | 108 => ⟨S1x8192x2, .f32⟩
  | 109 => ⟨S1x8192x2, .f32⟩
  | 110 => ⟨S1x8192x2, .f32⟩
  | 111 => ⟨S1x8192x2, .f32⟩
  | 112 => ⟨S1x8192x2, .f32⟩
  | 113 => ⟨S1x8192x2, .f32⟩
  | 114 => ⟨S1x8192x2, .f32⟩
  | 115 => ⟨S1x8192x2, .f32⟩
  | 116 => ⟨S1x8192x2, .f32⟩
  | 117 => ⟨S1x8192x2, .f32⟩
  | 118 => ⟨S1x8192x2, .f32⟩
  | 119 => ⟨S1x8192x2, .f32⟩
  | 120 => ⟨S12x8192x2, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_cst_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_7 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_9 : Ref sig .tc := ⟨.hbm, 96, rfl⟩
abbrev main_v70 : Ref sig .tc := ⟨.hbm, 97, rfl⟩
abbrev main_v71 : Ref sig .tc := ⟨.hbm, 98, rfl⟩
abbrev main_cst_10 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_12 : Ref sig .tc := ⟨.hbm, 130, rfl⟩
abbrev main_v101 : Ref sig .tc := ⟨.hbm, 131, rfl⟩
abbrev main_v102 : Ref sig .tc := ⟨.hbm, 132, rfl⟩
abbrev main_cst_13 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_14 : Ref sig .tc := ⟨.hbm, 139, rfl⟩
abbrev main_v108 : Ref sig .tc := ⟨.hbm, 140, rfl⟩
abbrev main_v109 : Ref sig .tc := ⟨.hbm, 141, rfl⟩
abbrev main_cst_15 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_16 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_17 : Ref sig .tc := ⟨.hbm, 179, rfl⟩
abbrev main_v145 : Ref sig .tc := ⟨.hbm, 180, rfl⟩
abbrev main_v146 : Ref sig .tc := ⟨.hbm, 181, rfl⟩
abbrev main_cst_18 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_19 : Ref sig .tc := ⟨.hbm, 188, rfl⟩
abbrev main_v152 : Ref sig .tc := ⟨.hbm, 189, rfl⟩
abbrev main_v153 : Ref sig .tc := ⟨.hbm, 190, rfl⟩
abbrev main_cst_20 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_cst_21 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_22 : Ref sig .tc := ⟨.hbm, 222, rfl⟩
abbrev main_v183 : Ref sig .tc := ⟨.hbm, 223, rfl⟩
abbrev main_v184 : Ref sig .tc := ⟨.hbm, 224, rfl⟩
abbrev main_cst_23 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_cst_24 : Ref sig .tc := ⟨.hbm, 231, rfl⟩
abbrev main_v190 : Ref sig .tc := ⟨.hbm, 232, rfl⟩
abbrev main_v191 : Ref sig .tc := ⟨.hbm, 233, rfl⟩
abbrev main_cst_25 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_cst_26 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_cst_27 : Ref sig .tc := ⟨.hbm, 265, rfl⟩
abbrev main_v221 : Ref sig .tc := ⟨.hbm, 266, rfl⟩
abbrev main_v222 : Ref sig .tc := ⟨.hbm, 267, rfl⟩
abbrev main_cst_28 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_cst_29 : Ref sig .tc := ⟨.hbm, 274, rfl⟩
abbrev main_v228 : Ref sig .tc := ⟨.hbm, 275, rfl⟩
abbrev main_v229 : Ref sig .tc := ⟨.hbm, 276, rfl⟩
abbrev main_cst_30 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_cst_31 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_cst_32 : Ref sig .tc := ⟨.hbm, 314, rfl⟩
abbrev main_v265 : Ref sig .tc := ⟨.hbm, 315, rfl⟩
abbrev main_v266 : Ref sig .tc := ⟨.hbm, 316, rfl⟩
abbrev main_cst_33 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_cst_34 : Ref sig .tc := ⟨.hbm, 323, rfl⟩
abbrev main_v272 : Ref sig .tc := ⟨.hbm, 324, rfl⟩
abbrev main_v273 : Ref sig .tc := ⟨.hbm, 325, rfl⟩
abbrev main_cst_35 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_cst_36 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_cst_37 : Ref sig .tc := ⟨.hbm, 357, rfl⟩
abbrev main_v303 : Ref sig .tc := ⟨.hbm, 358, rfl⟩
abbrev main_v304 : Ref sig .tc := ⟨.hbm, 359, rfl⟩
abbrev main_cst_38 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_cst_39 : Ref sig .tc := ⟨.hbm, 366, rfl⟩
abbrev main_v310 : Ref sig .tc := ⟨.hbm, 367, rfl⟩
abbrev main_v311 : Ref sig .tc := ⟨.hbm, 368, rfl⟩
abbrev main_cst_40 : Ref sig .tc := ⟨.hbm, 369, rfl⟩
abbrev main_v312 : Ref sig .tc := ⟨.hbm, 370, rfl⟩
abbrev main_v313 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_cst_41 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_v324 : Ref sig .tc := ⟨.hbm, 383, rfl⟩
abbrev main_v325 : Ref sig .tc := ⟨.hbm, 384, rfl⟩
abbrev main_v326 : Ref sig .tc := ⟨.hbm, 385, rfl⟩
abbrev main_v327 : Ref sig .tc := ⟨.hbm, 386, rfl⟩
abbrev main_v328 : Ref sig .tc := ⟨.hbm, 387, rfl⟩
abbrev main_v329 : Ref sig .tc := ⟨.hbm, 388, rfl⟩
abbrev main_v330 : Ref sig .tc := ⟨.hbm, 389, rfl⟩
abbrev main_v331 : Ref sig .tc := ⟨.hbm, 390, rfl⟩
abbrev main_v332 : Ref sig .tc := ⟨.hbm, 391, rfl⟩
abbrev main_v333 : Ref sig .tc := ⟨.hbm, 392, rfl⟩
abbrev main_v334 : Ref sig .tc := ⟨.hbm, 393, rfl⟩
abbrev main_v335 : Ref sig .tc := ⟨.hbm, 394, rfl⟩
abbrev main_v336 : Ref sig .tc := ⟨.hbm, 395, rfl⟩
abbrev main_v337 : Ref sig .tc := ⟨.hbm, 396, rfl⟩
abbrev main_v338 : Ref sig .tc := ⟨.hbm, 397, rfl⟩
abbrev main_v339 : Ref sig .tc := ⟨.hbm, 398, rfl⟩
abbrev main_v340 : Ref sig .tc := ⟨.hbm, 399, rfl⟩
abbrev main_cst_42 : Ref sig .tc := ⟨.hbm, 400, rfl⟩
abbrev main_v341 : Ref sig .tc := ⟨.hbm, 401, rfl⟩
abbrev main_v342 : Ref sig .tc := ⟨.hbm, 402, rfl⟩
abbrev main_cst_43 : Ref sig .tc := ⟨.hbm, 403, rfl⟩
abbrev main_v343 : Ref sig .tc := ⟨.hbm, 404, rfl⟩
abbrev main_v344 : Ref sig .tc := ⟨.hbm, 405, rfl⟩
abbrev main_v345 : Ref sig .tc := ⟨.hbm, 406, rfl⟩
abbrev main_v346 : Ref sig .tc := ⟨.hbm, 407, rfl⟩
abbrev main_v347 : Ref sig .tc := ⟨.hbm, 408, rfl⟩
abbrev main_cst_44 : Ref sig .tc := ⟨.hbm, 409, rfl⟩
abbrev main_v348 : Ref sig .tc := ⟨.hbm, 410, rfl⟩
abbrev main_v349 : Ref sig .tc := ⟨.hbm, 411, rfl⟩
abbrev main_cst_45 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_cst_46 : Ref sig .tc := ⟨.hbm, 418, rfl⟩
abbrev main_v355 : Ref sig .tc := ⟨.hbm, 419, rfl⟩
abbrev main_v356 : Ref sig .tc := ⟨.hbm, 420, rfl⟩
abbrev main_v357 : Ref sig .tc := ⟨.hbm, 421, rfl⟩
abbrev main_v358 : Ref sig .tc := ⟨.hbm, 422, rfl⟩
abbrev main_v359 : Ref sig .tc := ⟨.hbm, 423, rfl⟩
abbrev main_v360 : Ref sig .tc := ⟨.hbm, 424, rfl⟩
abbrev main_v361 : Ref sig .tc := ⟨.hbm, 425, rfl⟩
abbrev main_v362 : Ref sig .tc := ⟨.hbm, 426, rfl⟩
abbrev main_v363 : Ref sig .tc := ⟨.hbm, 427, rfl⟩
abbrev main_v364 : Ref sig .tc := ⟨.hbm, 428, rfl⟩
abbrev main_v365 : Ref sig .tc := ⟨.hbm, 429, rfl⟩
abbrev main_v366 : Ref sig .tc := ⟨.hbm, 430, rfl⟩
abbrev main_v367 : Ref sig .tc := ⟨.hbm, 431, rfl⟩
abbrev main_v368 : Ref sig .tc := ⟨.hbm, 432, rfl⟩
abbrev main_v369 : Ref sig .tc := ⟨.hbm, 433, rfl⟩
abbrev main_v370 : Ref sig .tc := ⟨.hbm, 434, rfl⟩
abbrev main_v371 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_v375 : Ref sig .tc := ⟨.hbm, 439, rfl⟩
abbrev main_v376 : Ref sig .tc := ⟨.hbm, 440, rfl⟩
abbrev main_v377 : Ref sig .tc := ⟨.hbm, 441, rfl⟩
abbrev main_v378 : Ref sig .tc := ⟨.hbm, 442, rfl⟩
abbrev main_v379 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_cst_47 : Ref sig .tc := ⟨.hbm, 449, rfl⟩
abbrev main_v385 : Ref sig .tc := ⟨.hbm, 450, rfl⟩
abbrev main_v386 : Ref sig .tc := ⟨.hbm, 451, rfl⟩
abbrev main_cst_48 : Ref sig .tc := ⟨.hbm, 452, rfl⟩
abbrev main_v387 : Ref sig .tc := ⟨.hbm, 453, rfl⟩
abbrev main_v388 : Ref sig .tc := ⟨.hbm, 454, rfl⟩
abbrev main_v389 : Ref sig .tc := ⟨.hbm, 455, rfl⟩
abbrev main_v390 : Ref sig .tc := ⟨.hbm, 456, rfl⟩
abbrev main_v391 : Ref sig .tc := ⟨.hbm, 457, rfl⟩
abbrev main_cst_49 : Ref sig .tc := ⟨.hbm, 458, rfl⟩
abbrev main_v392 : Ref sig .tc := ⟨.hbm, 459, rfl⟩
abbrev main_v393 : Ref sig .tc := ⟨.hbm, 460, rfl⟩
abbrev main_cst_50 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_v397 : Ref sig .tc := ⟨.hbm, 465, rfl⟩
abbrev main_v398 : Ref sig .tc := ⟨.hbm, 466, rfl⟩
abbrev main_cst_51 : Ref sig .tc := ⟨.hbm, 467, rfl⟩
abbrev main_v399 : Ref sig .tc := ⟨.hbm, 468, rfl⟩
abbrev main_v400 : Ref sig .tc := ⟨.hbm, 469, rfl⟩
abbrev main_v401 : Ref sig .tc := ⟨.hbm, 470, rfl⟩
abbrev main_v402 : Ref sig .tc := ⟨.hbm, 471, rfl⟩
abbrev main_v403 : Ref sig .tc := ⟨.hbm, 472, rfl⟩
abbrev main_v404 : Ref sig .tc := ⟨.hbm, 473, rfl⟩
abbrev main_v405 : Ref sig .tc := ⟨.hbm, 474, rfl⟩
abbrev main_v406 : Ref sig .tc := ⟨.hbm, 475, rfl⟩
abbrev main_v407 : Ref sig .tc := ⟨.hbm, 476, rfl⟩
abbrev main_v408 : Ref sig .tc := ⟨.hbm, 477, rfl⟩
abbrev main_v409 : Ref sig .tc := ⟨.hbm, 478, rfl⟩
abbrev main_v410 : Ref sig .tc := ⟨.hbm, 479, rfl⟩
abbrev main_v411 : Ref sig .tc := ⟨.hbm, 480, rfl⟩
abbrev main_v412 : Ref sig .tc := ⟨.hbm, 481, rfl⟩
abbrev main_v413 : Ref sig .tc := ⟨.hbm, 482, rfl⟩
abbrev main_v414 : Ref sig .tc := ⟨.hbm, 483, rfl⟩
abbrev main_v415 : Ref sig .tc := ⟨.hbm, 484, rfl⟩
abbrev main_v416 : Ref sig .tc := ⟨.hbm, 485, rfl⟩
abbrev main_v417 : Ref sig .tc := ⟨.hbm, 486, rfl⟩
abbrev main_v418 : Ref sig .tc := ⟨.hbm, 487, rfl⟩
abbrev main_v419 : Ref sig .tc := ⟨.hbm, 488, rfl⟩
abbrev main_v420 : Ref sig .tc := ⟨.hbm, 489, rfl⟩
abbrev main_v421 : Ref sig .tc := ⟨.hbm, 490, rfl⟩
abbrev main_v422 : Ref sig .tc := ⟨.hbm, 491, rfl⟩
abbrev main_cst_52 : Ref sig .tc := ⟨.hbm, 492, rfl⟩
abbrev main_v423 : Ref sig .tc := ⟨.hbm, 493, rfl⟩
abbrev main_v424 : Ref sig .tc := ⟨.hbm, 494, rfl⟩
abbrev main_cst_53 : Ref sig .tc := ⟨.hbm, 495, rfl⟩
abbrev main_v425 : Ref sig .tc := ⟨.hbm, 496, rfl⟩
abbrev main_v426 : Ref sig .tc := ⟨.hbm, 497, rfl⟩
abbrev main_v427 : Ref sig .tc := ⟨.hbm, 498, rfl⟩
abbrev main_v428 : Ref sig .tc := ⟨.hbm, 499, rfl⟩
abbrev main_v429 : Ref sig .tc := ⟨.hbm, 500, rfl⟩
abbrev main_cst_54 : Ref sig .tc := ⟨.hbm, 501, rfl⟩
abbrev main_v430 : Ref sig .tc := ⟨.hbm, 502, rfl⟩
abbrev main_v431 : Ref sig .tc := ⟨.hbm, 503, rfl⟩
abbrev main_cst_55 : Ref sig .tc := ⟨.hbm, 504, rfl⟩
abbrev main_v432 : Ref sig .tc := ⟨.hbm, 505, rfl⟩
abbrev main_v433 : Ref sig .tc := ⟨.hbm, 506, rfl⟩
abbrev main_v434 : Ref sig .tc := ⟨.hbm, 507, rfl⟩
abbrev main_v435 : Ref sig .tc := ⟨.hbm, 508, rfl⟩
abbrev main_v436 : Ref sig .tc := ⟨.hbm, 509, rfl⟩
abbrev main_cst_56 : Ref sig .tc := ⟨.hbm, 510, rfl⟩
abbrev main_v437 : Ref sig .tc := ⟨.hbm, 511, rfl⟩
abbrev main_v438 : Ref sig .tc := ⟨.hbm, 512, rfl⟩
abbrev main_v439 : Ref sig .tc := ⟨.hbm, 513, rfl⟩
abbrev main_v440 : Ref sig .tc := ⟨.hbm, 514, rfl⟩
abbrev main_v441 : Ref sig .tc := ⟨.hbm, 515, rfl⟩
abbrev main_v442 : Ref sig .tc := ⟨.hbm, 516, rfl⟩
abbrev main_v443 : Ref sig .tc := ⟨.hbm, 517, rfl⟩
abbrev main_v444 : Ref sig .tc := ⟨.hbm, 518, rfl⟩
abbrev main_v445 : Ref sig .tc := ⟨.hbm, 519, rfl⟩
abbrev main_v446 : Ref sig .tc := ⟨.hbm, 520, rfl⟩
abbrev main_v447 : Ref sig .tc := ⟨.hbm, 521, rfl⟩
abbrev main_v448 : Ref sig .tc := ⟨.hbm, 522, rfl⟩
abbrev main_v449 : Ref sig .tc := ⟨.hbm, 523, rfl⟩
abbrev main_v450 : Ref sig .tc := ⟨.hbm, 524, rfl⟩
abbrev main_v451 : Ref sig .tc := ⟨.hbm, 525, rfl⟩
abbrev main_v452 : Ref sig .tc := ⟨.hbm, 526, rfl⟩
abbrev main_v453 : Ref sig .tc := ⟨.hbm, 527, rfl⟩
abbrev main_v454 : Ref sig .tc := ⟨.hbm, 528, rfl⟩
abbrev main_v455 : Ref sig .tc := ⟨.hbm, 529, rfl⟩
abbrev main_v456 : Ref sig .tc := ⟨.hbm, 530, rfl⟩
abbrev main_v457 : Ref sig .tc := ⟨.hbm, 531, rfl⟩
abbrev main_v458 : Ref sig .tc := ⟨.hbm, 532, rfl⟩
abbrev main_v459 : Ref sig .tc := ⟨.hbm, 533, rfl⟩
abbrev main_v460 : Ref sig .tc := ⟨.hbm, 534, rfl⟩
abbrev main_cst_57 : Ref sig .tc := ⟨.hbm, 535, rfl⟩
abbrev main_v461 : Ref sig .tc := ⟨.hbm, 536, rfl⟩
abbrev main_v462 : Ref sig .tc := ⟨.hbm, 537, rfl⟩
abbrev main_cst_58 : Ref sig .tc := ⟨.hbm, 538, rfl⟩
abbrev main_v463 : Ref sig .tc := ⟨.hbm, 539, rfl⟩
abbrev main_v464 : Ref sig .tc := ⟨.hbm, 540, rfl⟩
abbrev main_v465 : Ref sig .tc := ⟨.hbm, 541, rfl⟩
abbrev main_v466 : Ref sig .tc := ⟨.hbm, 542, rfl⟩
abbrev main_v467 : Ref sig .tc := ⟨.hbm, 543, rfl⟩
abbrev main_cst_59 : Ref sig .tc := ⟨.hbm, 544, rfl⟩
abbrev main_v468 : Ref sig .tc := ⟨.hbm, 545, rfl⟩
abbrev main_v469 : Ref sig .tc := ⟨.hbm, 546, rfl⟩
abbrev main_cst_60 : Ref sig .tc := ⟨.hbm, 547, rfl⟩
abbrev main_v470 : Ref sig .tc := ⟨.hbm, 548, rfl⟩
abbrev main_v471 : Ref sig .tc := ⟨.hbm, 549, rfl⟩
abbrev main_v472 : Ref sig .tc := ⟨.hbm, 550, rfl⟩
abbrev main_v473 : Ref sig .tc := ⟨.hbm, 551, rfl⟩
abbrev main_v474 : Ref sig .tc := ⟨.hbm, 552, rfl⟩
abbrev main_cst_61 : Ref sig .tc := ⟨.hbm, 553, rfl⟩
abbrev main_v475 : Ref sig .tc := ⟨.hbm, 554, rfl⟩
abbrev main_v476 : Ref sig .tc := ⟨.hbm, 555, rfl⟩
abbrev main_v477 : Ref sig .tc := ⟨.hbm, 556, rfl⟩
abbrev main_v478 : Ref sig .tc := ⟨.hbm, 557, rfl⟩
abbrev main_v479 : Ref sig .tc := ⟨.hbm, 558, rfl⟩
abbrev main_v480 : Ref sig .tc := ⟨.hbm, 559, rfl⟩
abbrev main_v481 : Ref sig .tc := ⟨.hbm, 560, rfl⟩
abbrev main_v482 : Ref sig .tc := ⟨.hbm, 561, rfl⟩
abbrev main_v483 : Ref sig .tc := ⟨.hbm, 562, rfl⟩
abbrev main_v484 : Ref sig .tc := ⟨.hbm, 563, rfl⟩
abbrev main_v485 : Ref sig .tc := ⟨.hbm, 564, rfl⟩
abbrev main_v486 : Ref sig .tc := ⟨.hbm, 565, rfl⟩
abbrev main_v487 : Ref sig .tc := ⟨.hbm, 566, rfl⟩
abbrev main_v488 : Ref sig .tc := ⟨.hbm, 567, rfl⟩
abbrev main_v489 : Ref sig .tc := ⟨.hbm, 568, rfl⟩
abbrev main_v490 : Ref sig .tc := ⟨.hbm, 569, rfl⟩
abbrev main_v491 : Ref sig .tc := ⟨.hbm, 570, rfl⟩
abbrev main_v492 : Ref sig .tc := ⟨.hbm, 571, rfl⟩
abbrev main_v493 : Ref sig .tc := ⟨.hbm, 572, rfl⟩
abbrev main_v494 : Ref sig .tc := ⟨.hbm, 573, rfl⟩
abbrev main_v495 : Ref sig .tc := ⟨.hbm, 574, rfl⟩
abbrev main_v496 : Ref sig .tc := ⟨.hbm, 575, rfl⟩
abbrev main_v497 : Ref sig .tc := ⟨.hbm, 576, rfl⟩
abbrev main_v498 : Ref sig .tc := ⟨.hbm, 577, rfl⟩
abbrev main_v499 : Ref sig .tc := ⟨.hbm, 578, rfl⟩
abbrev main_v500 : Ref sig .tc := ⟨.hbm, 579, rfl⟩
abbrev main_v501 : Ref sig .tc := ⟨.hbm, 580, rfl⟩
abbrev main_v502 : Ref sig .tc := ⟨.hbm, 581, rfl⟩
abbrev main_v503 : Ref sig .tc := ⟨.hbm, 582, rfl⟩
abbrev main_v504 : Ref sig .tc := ⟨.hbm, 583, rfl⟩
abbrev main_cst_62 : Ref sig .tc := ⟨.hbm, 584, rfl⟩
abbrev main_v505 : Ref sig .tc := ⟨.hbm, 585, rfl⟩
abbrev main_v506 : Ref sig .tc := ⟨.hbm, 586, rfl⟩
abbrev main_cst_63 : Ref sig .tc := ⟨.hbm, 587, rfl⟩
abbrev main_v507 : Ref sig .tc := ⟨.hbm, 588, rfl⟩
abbrev main_v508 : Ref sig .tc := ⟨.hbm, 589, rfl⟩
abbrev main_v509 : Ref sig .tc := ⟨.hbm, 590, rfl⟩
abbrev main_v510 : Ref sig .tc := ⟨.hbm, 591, rfl⟩
abbrev main_v511 : Ref sig .tc := ⟨.hbm, 592, rfl⟩
abbrev main_cst_64 : Ref sig .tc := ⟨.hbm, 593, rfl⟩
abbrev main_v512 : Ref sig .tc := ⟨.hbm, 594, rfl⟩
abbrev main_v513 : Ref sig .tc := ⟨.hbm, 595, rfl⟩
abbrev main_cst_65 : Ref sig .tc := ⟨.hbm, 596, rfl⟩
abbrev main_v514 : Ref sig .tc := ⟨.hbm, 597, rfl⟩
abbrev main_v515 : Ref sig .tc := ⟨.hbm, 598, rfl⟩
abbrev main_v516 : Ref sig .tc := ⟨.hbm, 599, rfl⟩
abbrev main_v517 : Ref sig .tc := ⟨.hbm, 600, rfl⟩
abbrev main_v518 : Ref sig .tc := ⟨.hbm, 601, rfl⟩
abbrev main_cst_66 : Ref sig .tc := ⟨.hbm, 602, rfl⟩
abbrev main_v519 : Ref sig .tc := ⟨.hbm, 603, rfl⟩
abbrev main_v520 : Ref sig .tc := ⟨.hbm, 604, rfl⟩
abbrev main_v521 : Ref sig .tc := ⟨.hbm, 605, rfl⟩
abbrev main_v522 : Ref sig .tc := ⟨.hbm, 606, rfl⟩
abbrev main_v523 : Ref sig .tc := ⟨.hbm, 607, rfl⟩
abbrev main_v524 : Ref sig .tc := ⟨.hbm, 608, rfl⟩
abbrev main_v525 : Ref sig .tc := ⟨.hbm, 609, rfl⟩
abbrev main_v526 : Ref sig .tc := ⟨.hbm, 610, rfl⟩
abbrev main_v527 : Ref sig .tc := ⟨.hbm, 611, rfl⟩
abbrev main_v528 : Ref sig .tc := ⟨.hbm, 612, rfl⟩
abbrev main_v529 : Ref sig .tc := ⟨.hbm, 613, rfl⟩
abbrev main_v530 : Ref sig .tc := ⟨.hbm, 614, rfl⟩
abbrev main_v531 : Ref sig .tc := ⟨.hbm, 615, rfl⟩
abbrev main_v532 : Ref sig .tc := ⟨.hbm, 616, rfl⟩
abbrev main_v533 : Ref sig .tc := ⟨.hbm, 617, rfl⟩
abbrev main_v534 : Ref sig .tc := ⟨.hbm, 618, rfl⟩
abbrev main_v535 : Ref sig .tc := ⟨.hbm, 619, rfl⟩
abbrev main_v536 : Ref sig .tc := ⟨.hbm, 620, rfl⟩
abbrev main_v537 : Ref sig .tc := ⟨.hbm, 621, rfl⟩
abbrev main_v538 : Ref sig .tc := ⟨.hbm, 622, rfl⟩
abbrev main_v539 : Ref sig .tc := ⟨.hbm, 623, rfl⟩
abbrev main_v540 : Ref sig .tc := ⟨.hbm, 624, rfl⟩
abbrev main_v541 : Ref sig .tc := ⟨.hbm, 625, rfl⟩
abbrev main_v542 : Ref sig .tc := ⟨.hbm, 626, rfl⟩
abbrev main_cst_67 : Ref sig .tc := ⟨.hbm, 627, rfl⟩
abbrev main_v543 : Ref sig .tc := ⟨.hbm, 628, rfl⟩
abbrev main_v544 : Ref sig .tc := ⟨.hbm, 629, rfl⟩
abbrev main_cst_68 : Ref sig .tc := ⟨.hbm, 630, rfl⟩
abbrev main_v545 : Ref sig .tc := ⟨.hbm, 631, rfl⟩
abbrev main_v546 : Ref sig .tc := ⟨.hbm, 632, rfl⟩
abbrev main_v547 : Ref sig .tc := ⟨.hbm, 633, rfl⟩
abbrev main_v548 : Ref sig .tc := ⟨.hbm, 634, rfl⟩
abbrev main_v549 : Ref sig .tc := ⟨.hbm, 635, rfl⟩
abbrev main_cst_69 : Ref sig .tc := ⟨.hbm, 636, rfl⟩
abbrev main_v550 : Ref sig .tc := ⟨.hbm, 637, rfl⟩
abbrev main_v551 : Ref sig .tc := ⟨.hbm, 638, rfl⟩
abbrev main_cst_70 : Ref sig .tc := ⟨.hbm, 639, rfl⟩
abbrev main_v552 : Ref sig .tc := ⟨.hbm, 640, rfl⟩
abbrev main_v553 : Ref sig .tc := ⟨.hbm, 641, rfl⟩
abbrev main_v554 : Ref sig .tc := ⟨.hbm, 642, rfl⟩
abbrev main_v555 : Ref sig .tc := ⟨.hbm, 643, rfl⟩
abbrev main_v556 : Ref sig .tc := ⟨.hbm, 644, rfl⟩
abbrev main_cst_71 : Ref sig .tc := ⟨.hbm, 645, rfl⟩
abbrev main_v557 : Ref sig .tc := ⟨.hbm, 646, rfl⟩
abbrev main_v558 : Ref sig .tc := ⟨.hbm, 647, rfl⟩
abbrev main_v559 : Ref sig .tc := ⟨.hbm, 648, rfl⟩
abbrev main_v560 : Ref sig .tc := ⟨.hbm, 649, rfl⟩
abbrev main_v561 : Ref sig .tc := ⟨.hbm, 650, rfl⟩
abbrev main_v562 : Ref sig .tc := ⟨.hbm, 651, rfl⟩
abbrev main_v563 : Ref sig .tc := ⟨.hbm, 652, rfl⟩
abbrev main_v564 : Ref sig .tc := ⟨.hbm, 653, rfl⟩
abbrev main_v565 : Ref sig .tc := ⟨.hbm, 654, rfl⟩
abbrev main_v566 : Ref sig .tc := ⟨.hbm, 655, rfl⟩
abbrev main_v567 : Ref sig .tc := ⟨.hbm, 656, rfl⟩
abbrev main_v568 : Ref sig .tc := ⟨.hbm, 657, rfl⟩
abbrev main_v569 : Ref sig .tc := ⟨.hbm, 658, rfl⟩
abbrev main_v570 : Ref sig .tc := ⟨.hbm, 659, rfl⟩
abbrev main_v571 : Ref sig .tc := ⟨.hbm, 660, rfl⟩
abbrev main_v572 : Ref sig .tc := ⟨.hbm, 661, rfl⟩
abbrev main_v573 : Ref sig .tc := ⟨.hbm, 662, rfl⟩
abbrev main_v574 : Ref sig .tc := ⟨.hbm, 663, rfl⟩
abbrev main_v575 : Ref sig .tc := ⟨.hbm, 664, rfl⟩
abbrev main_v576 : Ref sig .tc := ⟨.hbm, 665, rfl⟩
abbrev main_v577 : Ref sig .tc := ⟨.hbm, 666, rfl⟩
abbrev main_v578 : Ref sig .tc := ⟨.hbm, 667, rfl⟩
abbrev main_v579 : Ref sig .tc := ⟨.hbm, 668, rfl⟩
abbrev main_v580 : Ref sig .tc := ⟨.hbm, 669, rfl⟩
abbrev main_cst_72 : Ref sig .tc := ⟨.hbm, 670, rfl⟩
abbrev main_v581 : Ref sig .tc := ⟨.hbm, 671, rfl⟩
abbrev main_v582 : Ref sig .tc := ⟨.hbm, 672, rfl⟩
abbrev main_cst_73 : Ref sig .tc := ⟨.hbm, 673, rfl⟩
abbrev main_v583 : Ref sig .tc := ⟨.hbm, 674, rfl⟩
abbrev main_v584 : Ref sig .tc := ⟨.hbm, 675, rfl⟩
abbrev main_v585 : Ref sig .tc := ⟨.hbm, 676, rfl⟩
abbrev main_v586 : Ref sig .tc := ⟨.hbm, 677, rfl⟩
abbrev main_v587 : Ref sig .tc := ⟨.hbm, 678, rfl⟩
abbrev main_cst_74 : Ref sig .tc := ⟨.hbm, 679, rfl⟩
abbrev main_v588 : Ref sig .tc := ⟨.hbm, 680, rfl⟩
abbrev main_v589 : Ref sig .tc := ⟨.hbm, 681, rfl⟩
abbrev main_cst_75 : Ref sig .tc := ⟨.hbm, 682, rfl⟩
abbrev main_v590 : Ref sig .tc := ⟨.hbm, 683, rfl⟩
abbrev main_v591 : Ref sig .tc := ⟨.hbm, 684, rfl⟩
abbrev main_v592 : Ref sig .tc := ⟨.hbm, 685, rfl⟩
abbrev main_v593 : Ref sig .tc := ⟨.hbm, 686, rfl⟩
abbrev main_v594 : Ref sig .tc := ⟨.hbm, 687, rfl⟩
abbrev main_cst_76 : Ref sig .tc := ⟨.hbm, 688, rfl⟩
abbrev main_v595 : Ref sig .tc := ⟨.hbm, 689, rfl⟩
abbrev main_v596 : Ref sig .tc := ⟨.hbm, 690, rfl⟩
abbrev main_v597 : Ref sig .tc := ⟨.hbm, 691, rfl⟩
abbrev main_v598 : Ref sig .tc := ⟨.hbm, 692, rfl⟩
abbrev main_v599 : Ref sig .tc := ⟨.hbm, 693, rfl⟩
abbrev main_v600 : Ref sig .tc := ⟨.hbm, 694, rfl⟩
abbrev main_v601 : Ref sig .tc := ⟨.hbm, 695, rfl⟩
abbrev main_v602 : Ref sig .tc := ⟨.hbm, 696, rfl⟩
abbrev main_v603 : Ref sig .tc := ⟨.hbm, 697, rfl⟩
abbrev main_v604 : Ref sig .tc := ⟨.hbm, 698, rfl⟩
abbrev main_v605 : Ref sig .tc := ⟨.hbm, 699, rfl⟩
abbrev main_v606 : Ref sig .tc := ⟨.hbm, 700, rfl⟩
abbrev main_v607 : Ref sig .tc := ⟨.hbm, 701, rfl⟩
abbrev main_v608 : Ref sig .tc := ⟨.hbm, 702, rfl⟩
abbrev main_v609 : Ref sig .tc := ⟨.hbm, 703, rfl⟩
abbrev main_v610 : Ref sig .tc := ⟨.hbm, 704, rfl⟩
abbrev main_v611 : Ref sig .tc := ⟨.hbm, 705, rfl⟩
abbrev main_v612 : Ref sig .tc := ⟨.hbm, 706, rfl⟩
abbrev main_v613 : Ref sig .tc := ⟨.hbm, 707, rfl⟩
abbrev main_v614 : Ref sig .tc := ⟨.hbm, 708, rfl⟩
abbrev main_v615 : Ref sig .tc := ⟨.hbm, 709, rfl⟩
abbrev main_v616 : Ref sig .tc := ⟨.hbm, 710, rfl⟩
abbrev main_v617 : Ref sig .tc := ⟨.hbm, 711, rfl⟩
abbrev main_v618 : Ref sig .tc := ⟨.hbm, 712, rfl⟩
abbrev main_v619 : Ref sig .tc := ⟨.hbm, 713, rfl⟩
abbrev main_v620 : Ref sig .tc := ⟨.hbm, 714, rfl⟩
abbrev main_v621 : Ref sig .tc := ⟨.hbm, 715, rfl⟩
abbrev main_v622 : Ref sig .tc := ⟨.hbm, 716, rfl⟩
abbrev main_v623 : Ref sig .tc := ⟨.hbm, 717, rfl⟩
abbrev main_v624 : Ref sig .tc := ⟨.hbm, 718, rfl⟩
abbrev main_cst_77 : Ref sig .tc := ⟨.hbm, 719, rfl⟩
abbrev main_v625 : Ref sig .tc := ⟨.hbm, 720, rfl⟩
abbrev main_v626 : Ref sig .tc := ⟨.hbm, 721, rfl⟩
abbrev main_cst_78 : Ref sig .tc := ⟨.hbm, 722, rfl⟩
abbrev main_v627 : Ref sig .tc := ⟨.hbm, 723, rfl⟩
abbrev main_v628 : Ref sig .tc := ⟨.hbm, 724, rfl⟩
abbrev main_v629 : Ref sig .tc := ⟨.hbm, 725, rfl⟩
abbrev main_v630 : Ref sig .tc := ⟨.hbm, 726, rfl⟩
abbrev main_v631 : Ref sig .tc := ⟨.hbm, 727, rfl⟩
abbrev main_cst_79 : Ref sig .tc := ⟨.hbm, 728, rfl⟩
abbrev main_v632 : Ref sig .tc := ⟨.hbm, 729, rfl⟩
abbrev main_v633 : Ref sig .tc := ⟨.hbm, 730, rfl⟩
abbrev main_cst_80 : Ref sig .tc := ⟨.hbm, 731, rfl⟩
abbrev main_v634 : Ref sig .tc := ⟨.hbm, 732, rfl⟩
abbrev main_v635 : Ref sig .tc := ⟨.hbm, 733, rfl⟩
abbrev main_v636 : Ref sig .tc := ⟨.hbm, 734, rfl⟩
abbrev main_v637 : Ref sig .tc := ⟨.hbm, 735, rfl⟩
abbrev main_v638 : Ref sig .tc := ⟨.hbm, 736, rfl⟩
abbrev main_cst_81 : Ref sig .tc := ⟨.hbm, 737, rfl⟩
abbrev main_v639 : Ref sig .tc := ⟨.hbm, 738, rfl⟩
abbrev main_v640 : Ref sig .tc := ⟨.hbm, 739, rfl⟩
abbrev main_v641 : Ref sig .tc := ⟨.hbm, 740, rfl⟩
abbrev main_v642 : Ref sig .tc := ⟨.hbm, 741, rfl⟩
abbrev main_v643 : Ref sig .tc := ⟨.hbm, 742, rfl⟩
abbrev main_v644 : Ref sig .tc := ⟨.hbm, 743, rfl⟩
abbrev main_v645 : Ref sig .tc := ⟨.hbm, 744, rfl⟩
abbrev main_v646 : Ref sig .tc := ⟨.hbm, 745, rfl⟩
abbrev main_v647 : Ref sig .tc := ⟨.hbm, 746, rfl⟩
abbrev main_v648 : Ref sig .tc := ⟨.hbm, 747, rfl⟩
abbrev main_v649 : Ref sig .tc := ⟨.hbm, 748, rfl⟩
abbrev main_v650 : Ref sig .tc := ⟨.hbm, 749, rfl⟩
abbrev main_v651 : Ref sig .tc := ⟨.hbm, 750, rfl⟩
abbrev main_v652 : Ref sig .tc := ⟨.hbm, 751, rfl⟩
abbrev main_v653 : Ref sig .tc := ⟨.hbm, 752, rfl⟩
abbrev main_v654 : Ref sig .tc := ⟨.hbm, 753, rfl⟩
abbrev main_v655 : Ref sig .tc := ⟨.hbm, 754, rfl⟩
abbrev main_v656 : Ref sig .tc := ⟨.hbm, 755, rfl⟩
abbrev main_v657 : Ref sig .tc := ⟨.hbm, 756, rfl⟩
abbrev main_v658 : Ref sig .tc := ⟨.hbm, 757, rfl⟩
abbrev main_v659 : Ref sig .tc := ⟨.hbm, 758, rfl⟩
abbrev main_v660 : Ref sig .tc := ⟨.hbm, 759, rfl⟩
abbrev main_v661 : Ref sig .tc := ⟨.hbm, 760, rfl⟩
abbrev main_v662 : Ref sig .tc := ⟨.hbm, 761, rfl⟩
abbrev main_cst_82 : Ref sig .tc := ⟨.hbm, 762, rfl⟩
abbrev main_v663 : Ref sig .tc := ⟨.hbm, 763, rfl⟩
abbrev main_v664 : Ref sig .tc := ⟨.hbm, 764, rfl⟩
abbrev main_cst_83 : Ref sig .tc := ⟨.hbm, 765, rfl⟩
abbrev main_v665 : Ref sig .tc := ⟨.hbm, 766, rfl⟩
abbrev main_v666 : Ref sig .tc := ⟨.hbm, 767, rfl⟩
abbrev main_v667 : Ref sig .tc := ⟨.hbm, 768, rfl⟩
abbrev main_v668 : Ref sig .tc := ⟨.hbm, 769, rfl⟩
abbrev main_v669 : Ref sig .tc := ⟨.hbm, 770, rfl⟩
abbrev main_cst_84 : Ref sig .tc := ⟨.hbm, 771, rfl⟩
abbrev main_v670 : Ref sig .tc := ⟨.hbm, 772, rfl⟩
abbrev main_v671 : Ref sig .tc := ⟨.hbm, 773, rfl⟩
abbrev main_cst_85 : Ref sig .tc := ⟨.hbm, 774, rfl⟩
abbrev main_v672 : Ref sig .tc := ⟨.hbm, 775, rfl⟩
abbrev main_v673 : Ref sig .tc := ⟨.hbm, 776, rfl⟩
abbrev main_v674 : Ref sig .tc := ⟨.hbm, 777, rfl⟩
abbrev main_v675 : Ref sig .tc := ⟨.hbm, 778, rfl⟩
abbrev main_v676 : Ref sig .tc := ⟨.hbm, 779, rfl⟩
abbrev main_cst_86 : Ref sig .tc := ⟨.hbm, 780, rfl⟩
abbrev main_v677 : Ref sig .tc := ⟨.hbm, 781, rfl⟩
abbrev main_v678 : Ref sig .tc := ⟨.hbm, 782, rfl⟩
abbrev main_v679 : Ref sig .tc := ⟨.hbm, 783, rfl⟩
abbrev main_v680 : Ref sig .tc := ⟨.hbm, 784, rfl⟩
abbrev main_v681 : Ref sig .tc := ⟨.hbm, 785, rfl⟩
abbrev main_v682 : Ref sig .tc := ⟨.hbm, 786, rfl⟩
abbrev main_v683 : Ref sig .tc := ⟨.hbm, 787, rfl⟩
abbrev main_v684 : Ref sig .tc := ⟨.hbm, 788, rfl⟩
abbrev main_v685 : Ref sig .tc := ⟨.hbm, 789, rfl⟩
abbrev main_v686 : Ref sig .tc := ⟨.hbm, 790, rfl⟩
abbrev main_v687 : Ref sig .tc := ⟨.hbm, 791, rfl⟩
abbrev main_v688 : Ref sig .tc := ⟨.hbm, 792, rfl⟩
abbrev main_v689 : Ref sig .tc := ⟨.hbm, 793, rfl⟩
abbrev main_v690 : Ref sig .tc := ⟨.hbm, 794, rfl⟩
abbrev main_v691 : Ref sig .tc := ⟨.hbm, 795, rfl⟩
abbrev main_v692 : Ref sig .tc := ⟨.hbm, 796, rfl⟩
abbrev main_v693 : Ref sig .tc := ⟨.hbm, 797, rfl⟩
abbrev main_v694 : Ref sig .tc := ⟨.hbm, 798, rfl⟩
abbrev main_v695 : Ref sig .tc := ⟨.hbm, 799, rfl⟩
abbrev main_v696 : Ref sig .tc := ⟨.hbm, 800, rfl⟩
abbrev main_v697 : Ref sig .tc := ⟨.hbm, 801, rfl⟩
abbrev main_v698 : Ref sig .tc := ⟨.hbm, 802, rfl⟩
abbrev main_v699 : Ref sig .tc := ⟨.hbm, 803, rfl⟩
abbrev main_v700 : Ref sig .tc := ⟨.hbm, 804, rfl⟩
abbrev main_cst_87 : Ref sig .tc := ⟨.hbm, 805, rfl⟩
abbrev main_v701 : Ref sig .tc := ⟨.hbm, 806, rfl⟩
abbrev main_v702 : Ref sig .tc := ⟨.hbm, 807, rfl⟩
abbrev main_cst_88 : Ref sig .tc := ⟨.hbm, 808, rfl⟩
abbrev main_v703 : Ref sig .tc := ⟨.hbm, 809, rfl⟩
abbrev main_v704 : Ref sig .tc := ⟨.hbm, 810, rfl⟩
abbrev main_v705 : Ref sig .tc := ⟨.hbm, 811, rfl⟩
abbrev main_v706 : Ref sig .tc := ⟨.hbm, 812, rfl⟩
abbrev main_v707 : Ref sig .tc := ⟨.hbm, 813, rfl⟩
abbrev main_cst_89 : Ref sig .tc := ⟨.hbm, 814, rfl⟩
abbrev main_v708 : Ref sig .tc := ⟨.hbm, 815, rfl⟩
abbrev main_v709 : Ref sig .tc := ⟨.hbm, 816, rfl⟩
abbrev main_cst_90 : Ref sig .tc := ⟨.hbm, 817, rfl⟩
abbrev main_v710 : Ref sig .tc := ⟨.hbm, 818, rfl⟩
abbrev main_v711 : Ref sig .tc := ⟨.hbm, 819, rfl⟩
abbrev main_v712 : Ref sig .tc := ⟨.hbm, 820, rfl⟩
abbrev main_v713 : Ref sig .tc := ⟨.hbm, 821, rfl⟩
abbrev main_v714 : Ref sig .tc := ⟨.hbm, 822, rfl⟩
abbrev main_cst_91 : Ref sig .tc := ⟨.hbm, 823, rfl⟩
abbrev main_v715 : Ref sig .tc := ⟨.hbm, 824, rfl⟩
abbrev main_v716 : Ref sig .tc := ⟨.hbm, 825, rfl⟩
abbrev main_v717 : Ref sig .tc := ⟨.hbm, 826, rfl⟩
abbrev main_v718 : Ref sig .tc := ⟨.hbm, 827, rfl⟩
abbrev main_v719 : Ref sig .tc := ⟨.hbm, 828, rfl⟩
abbrev main_v720 : Ref sig .tc := ⟨.hbm, 829, rfl⟩
abbrev main_v721 : Ref sig .tc := ⟨.hbm, 830, rfl⟩
abbrev main_v722 : Ref sig .tc := ⟨.hbm, 831, rfl⟩
abbrev main_v723 : Ref sig .tc := ⟨.hbm, 832, rfl⟩
abbrev main_v724 : Ref sig .tc := ⟨.hbm, 833, rfl⟩
abbrev main_v725 : Ref sig .tc := ⟨.hbm, 834, rfl⟩
abbrev main_v726 : Ref sig .tc := ⟨.hbm, 835, rfl⟩
abbrev main_v727 : Ref sig .tc := ⟨.hbm, 836, rfl⟩
abbrev main_v728 : Ref sig .tc := ⟨.hbm, 837, rfl⟩
abbrev main_v729 : Ref sig .tc := ⟨.hbm, 838, rfl⟩
abbrev main_v730 : Ref sig .tc := ⟨.hbm, 839, rfl⟩
abbrev main_v731 : Ref sig .tc := ⟨.hbm, 840, rfl⟩
abbrev main_v732 : Ref sig .tc := ⟨.hbm, 841, rfl⟩
abbrev main_v733 : Ref sig .tc := ⟨.hbm, 842, rfl⟩
abbrev main_v734 : Ref sig .tc := ⟨.hbm, 843, rfl⟩
abbrev main_v735 : Ref sig .tc := ⟨.hbm, 844, rfl⟩
abbrev main_v736 : Ref sig .tc := ⟨.hbm, 845, rfl⟩
abbrev main_v737 : Ref sig .tc := ⟨.hbm, 846, rfl⟩
abbrev main_v738 : Ref sig .tc := ⟨.hbm, 847, rfl⟩
abbrev main_v739 : Ref sig .tc := ⟨.hbm, 848, rfl⟩
abbrev main_v740 : Ref sig .tc := ⟨.hbm, 849, rfl⟩
abbrev main_v741 : Ref sig .tc := ⟨.hbm, 850, rfl⟩
abbrev main_v742 : Ref sig .tc := ⟨.hbm, 851, rfl⟩
abbrev main_v743 : Ref sig .tc := ⟨.hbm, 852, rfl⟩
abbrev main_v744 : Ref sig .tc := ⟨.hbm, 853, rfl⟩
abbrev main_cst_92 : Ref sig .tc := ⟨.hbm, 854, rfl⟩
abbrev main_v745 : Ref sig .tc := ⟨.hbm, 855, rfl⟩
abbrev main_v746 : Ref sig .tc := ⟨.hbm, 856, rfl⟩
abbrev main_cst_93 : Ref sig .tc := ⟨.hbm, 857, rfl⟩
abbrev main_v747 : Ref sig .tc := ⟨.hbm, 858, rfl⟩
abbrev main_v748 : Ref sig .tc := ⟨.hbm, 859, rfl⟩
abbrev main_v749 : Ref sig .tc := ⟨.hbm, 860, rfl⟩
abbrev main_v750 : Ref sig .tc := ⟨.hbm, 861, rfl⟩
abbrev main_v751 : Ref sig .tc := ⟨.hbm, 862, rfl⟩
abbrev main_cst_94 : Ref sig .tc := ⟨.hbm, 863, rfl⟩
abbrev main_v752 : Ref sig .tc := ⟨.hbm, 864, rfl⟩
abbrev main_v753 : Ref sig .tc := ⟨.hbm, 865, rfl⟩
abbrev main_cst_95 : Ref sig .tc := ⟨.hbm, 866, rfl⟩
abbrev main_v754 : Ref sig .tc := ⟨.hbm, 867, rfl⟩
abbrev main_v755 : Ref sig .tc := ⟨.hbm, 868, rfl⟩
abbrev main_v756 : Ref sig .tc := ⟨.hbm, 869, rfl⟩
abbrev main_v757 : Ref sig .tc := ⟨.hbm, 870, rfl⟩
abbrev main_v758 : Ref sig .tc := ⟨.hbm, 871, rfl⟩
abbrev main_cst_96 : Ref sig .tc := ⟨.hbm, 872, rfl⟩
abbrev main_v759 : Ref sig .tc := ⟨.hbm, 873, rfl⟩
abbrev main_v760 : Ref sig .tc := ⟨.hbm, 874, rfl⟩
abbrev main_v761 : Ref sig .tc := ⟨.hbm, 875, rfl⟩
abbrev main_v762 : Ref sig .tc := ⟨.hbm, 876, rfl⟩
abbrev main_v763 : Ref sig .tc := ⟨.hbm, 877, rfl⟩
abbrev main_v764 : Ref sig .tc := ⟨.hbm, 878, rfl⟩
abbrev main_v765 : Ref sig .tc := ⟨.hbm, 879, rfl⟩
abbrev main_v766 : Ref sig .tc := ⟨.hbm, 880, rfl⟩
abbrev main_v767 : Ref sig .tc := ⟨.hbm, 881, rfl⟩
abbrev main_v768 : Ref sig .tc := ⟨.hbm, 882, rfl⟩
abbrev main_v769 : Ref sig .tc := ⟨.hbm, 883, rfl⟩
abbrev main_v770 : Ref sig .tc := ⟨.hbm, 884, rfl⟩
abbrev main_v771 : Ref sig .tc := ⟨.hbm, 885, rfl⟩
abbrev main_v772 : Ref sig .tc := ⟨.hbm, 886, rfl⟩
abbrev main_v773 : Ref sig .tc := ⟨.hbm, 887, rfl⟩
abbrev main_v774 : Ref sig .tc := ⟨.hbm, 888, rfl⟩
abbrev main_v775 : Ref sig .tc := ⟨.hbm, 889, rfl⟩
abbrev main_v776 : Ref sig .tc := ⟨.hbm, 890, rfl⟩
abbrev main_v777 : Ref sig .tc := ⟨.hbm, 891, rfl⟩
abbrev main_v778 : Ref sig .tc := ⟨.hbm, 892, rfl⟩
abbrev main_v779 : Ref sig .tc := ⟨.hbm, 893, rfl⟩
abbrev main_v780 : Ref sig .tc := ⟨.hbm, 894, rfl⟩
abbrev main_v781 : Ref sig .tc := ⟨.hbm, 895, rfl⟩
abbrev main_v782 : Ref sig .tc := ⟨.hbm, 896, rfl⟩
abbrev main_cst_97 : Ref sig .tc := ⟨.hbm, 897, rfl⟩
abbrev main_v783 : Ref sig .tc := ⟨.hbm, 898, rfl⟩
abbrev main_v784 : Ref sig .tc := ⟨.hbm, 899, rfl⟩
abbrev main_cst_98 : Ref sig .tc := ⟨.hbm, 900, rfl⟩
abbrev main_v785 : Ref sig .tc := ⟨.hbm, 901, rfl⟩
abbrev main_v786 : Ref sig .tc := ⟨.hbm, 902, rfl⟩
abbrev main_v787 : Ref sig .tc := ⟨.hbm, 903, rfl⟩
abbrev main_v788 : Ref sig .tc := ⟨.hbm, 904, rfl⟩
abbrev main_v789 : Ref sig .tc := ⟨.hbm, 905, rfl⟩
abbrev main_cst_99 : Ref sig .tc := ⟨.hbm, 906, rfl⟩
abbrev main_v790 : Ref sig .tc := ⟨.hbm, 907, rfl⟩
abbrev main_v791 : Ref sig .tc := ⟨.hbm, 908, rfl⟩
abbrev main_cst_100 : Ref sig .tc := ⟨.hbm, 909, rfl⟩
abbrev main_v792 : Ref sig .tc := ⟨.hbm, 910, rfl⟩
abbrev main_v793 : Ref sig .tc := ⟨.hbm, 911, rfl⟩
abbrev main_v794 : Ref sig .tc := ⟨.hbm, 912, rfl⟩
abbrev main_v795 : Ref sig .tc := ⟨.hbm, 913, rfl⟩
abbrev main_v796 : Ref sig .tc := ⟨.hbm, 914, rfl⟩
abbrev main_cst_101 : Ref sig .tc := ⟨.hbm, 915, rfl⟩
abbrev main_v797 : Ref sig .tc := ⟨.hbm, 916, rfl⟩
abbrev main_v798 : Ref sig .tc := ⟨.hbm, 917, rfl⟩
abbrev main_v799 : Ref sig .tc := ⟨.hbm, 918, rfl⟩
abbrev main_v800 : Ref sig .tc := ⟨.hbm, 919, rfl⟩
abbrev main_v801 : Ref sig .tc := ⟨.hbm, 920, rfl⟩
abbrev main_v802 : Ref sig .tc := ⟨.hbm, 921, rfl⟩
abbrev main_v803 : Ref sig .tc := ⟨.hbm, 922, rfl⟩
abbrev main_v804 : Ref sig .tc := ⟨.hbm, 923, rfl⟩
abbrev main_v805 : Ref sig .tc := ⟨.hbm, 924, rfl⟩
abbrev main_v806 : Ref sig .tc := ⟨.hbm, 925, rfl⟩
abbrev main_v807 : Ref sig .tc := ⟨.hbm, 926, rfl⟩
abbrev main_v808 : Ref sig .tc := ⟨.hbm, 927, rfl⟩
abbrev main_v809 : Ref sig .tc := ⟨.hbm, 928, rfl⟩
abbrev main_v810 : Ref sig .tc := ⟨.hbm, 929, rfl⟩
abbrev main_v811 : Ref sig .tc := ⟨.hbm, 930, rfl⟩
abbrev main_v812 : Ref sig .tc := ⟨.hbm, 931, rfl⟩
abbrev main_v813 : Ref sig .tc := ⟨.hbm, 932, rfl⟩
abbrev main_v814 : Ref sig .tc := ⟨.hbm, 933, rfl⟩
abbrev main_v815 : Ref sig .tc := ⟨.hbm, 934, rfl⟩
abbrev main_v816 : Ref sig .tc := ⟨.hbm, 935, rfl⟩
abbrev main_v817 : Ref sig .tc := ⟨.hbm, 936, rfl⟩
abbrev main_v818 : Ref sig .tc := ⟨.hbm, 937, rfl⟩
abbrev main_v819 : Ref sig .tc := ⟨.hbm, 938, rfl⟩
abbrev main_v820 : Ref sig .tc := ⟨.hbm, 939, rfl⟩
abbrev main_cst_102 : Ref sig .tc := ⟨.hbm, 940, rfl⟩
abbrev main_v821 : Ref sig .tc := ⟨.hbm, 941, rfl⟩
abbrev main_v822 : Ref sig .tc := ⟨.hbm, 942, rfl⟩
abbrev main_cst_103 : Ref sig .tc := ⟨.hbm, 943, rfl⟩
abbrev main_v823 : Ref sig .tc := ⟨.hbm, 944, rfl⟩
abbrev main_v824 : Ref sig .tc := ⟨.hbm, 945, rfl⟩
abbrev main_v825 : Ref sig .tc := ⟨.hbm, 946, rfl⟩
abbrev main_v826 : Ref sig .tc := ⟨.hbm, 947, rfl⟩
abbrev main_v827 : Ref sig .tc := ⟨.hbm, 948, rfl⟩
abbrev main_cst_104 : Ref sig .tc := ⟨.hbm, 949, rfl⟩
abbrev main_v828 : Ref sig .tc := ⟨.hbm, 950, rfl⟩
abbrev main_v829 : Ref sig .tc := ⟨.hbm, 951, rfl⟩
abbrev main_cst_105 : Ref sig .tc := ⟨.hbm, 952, rfl⟩
abbrev main_v830 : Ref sig .tc := ⟨.hbm, 953, rfl⟩
abbrev main_v831 : Ref sig .tc := ⟨.hbm, 954, rfl⟩
abbrev main_v832 : Ref sig .tc := ⟨.hbm, 955, rfl⟩
abbrev main_v833 : Ref sig .tc := ⟨.hbm, 956, rfl⟩
abbrev main_v834 : Ref sig .tc := ⟨.hbm, 957, rfl⟩
abbrev main_cst_106 : Ref sig .tc := ⟨.hbm, 958, rfl⟩
abbrev main_v835 : Ref sig .tc := ⟨.hbm, 959, rfl⟩
abbrev main_v836 : Ref sig .tc := ⟨.hbm, 960, rfl⟩
abbrev main_v837 : Ref sig .tc := ⟨.hbm, 961, rfl⟩
abbrev main_v838 : Ref sig .tc := ⟨.hbm, 962, rfl⟩
abbrev main_v839 : Ref sig .tc := ⟨.hbm, 963, rfl⟩
abbrev main_v840 : Ref sig .tc := ⟨.hbm, 964, rfl⟩
abbrev main_v841 : Ref sig .tc := ⟨.hbm, 965, rfl⟩
abbrev main_v842 : Ref sig .tc := ⟨.hbm, 966, rfl⟩
abbrev main_v843 : Ref sig .tc := ⟨.hbm, 967, rfl⟩
abbrev main_v844 : Ref sig .tc := ⟨.hbm, 968, rfl⟩
abbrev main_v845 : Ref sig .tc := ⟨.hbm, 969, rfl⟩
abbrev main_v846 : Ref sig .tc := ⟨.hbm, 970, rfl⟩
abbrev main_v847 : Ref sig .tc := ⟨.hbm, 971, rfl⟩
abbrev main_v848 : Ref sig .tc := ⟨.hbm, 972, rfl⟩
abbrev main_v849 : Ref sig .tc := ⟨.hbm, 973, rfl⟩
abbrev main_v850 : Ref sig .tc := ⟨.hbm, 974, rfl⟩
abbrev main_v851 : Ref sig .tc := ⟨.hbm, 975, rfl⟩
abbrev main_v852 : Ref sig .tc := ⟨.hbm, 976, rfl⟩
abbrev main_v853 : Ref sig .tc := ⟨.hbm, 977, rfl⟩
abbrev main_v854 : Ref sig .tc := ⟨.hbm, 978, rfl⟩
abbrev main_v855 : Ref sig .tc := ⟨.hbm, 979, rfl⟩
abbrev main_v856 : Ref sig .tc := ⟨.hbm, 980, rfl⟩
abbrev main_v857 : Ref sig .tc := ⟨.hbm, 981, rfl⟩
abbrev main_v858 : Ref sig .tc := ⟨.hbm, 982, rfl⟩
abbrev main_v859 : Ref sig .tc := ⟨.hbm, 983, rfl⟩
abbrev main_v860 : Ref sig .tc := ⟨.hbm, 984, rfl⟩
abbrev main_v861 : Ref sig .tc := ⟨.hbm, 985, rfl⟩
abbrev main_v862 : Ref sig .tc := ⟨.hbm, 986, rfl⟩
abbrev main_v863 : Ref sig .tc := ⟨.hbm, 987, rfl⟩
abbrev main_v864 : Ref sig .tc := ⟨.hbm, 988, rfl⟩
abbrev main_cst_107 : Ref sig .tc := ⟨.hbm, 989, rfl⟩
abbrev main_v865 : Ref sig .tc := ⟨.hbm, 990, rfl⟩
abbrev main_v866 : Ref sig .tc := ⟨.hbm, 991, rfl⟩
abbrev main_cst_108 : Ref sig .tc := ⟨.hbm, 992, rfl⟩
abbrev main_v867 : Ref sig .tc := ⟨.hbm, 993, rfl⟩
abbrev main_v868 : Ref sig .tc := ⟨.hbm, 994, rfl⟩
abbrev main_v869 : Ref sig .tc := ⟨.hbm, 995, rfl⟩
abbrev main_v870 : Ref sig .tc := ⟨.hbm, 996, rfl⟩
abbrev main_v871 : Ref sig .tc := ⟨.hbm, 997, rfl⟩
abbrev main_cst_109 : Ref sig .tc := ⟨.hbm, 998, rfl⟩
abbrev main_v872 : Ref sig .tc := ⟨.hbm, 999, rfl⟩
abbrev main_v873 : Ref sig .tc := ⟨.hbm, 1000, rfl⟩
abbrev main_cst_110 : Ref sig .tc := ⟨.hbm, 1001, rfl⟩
abbrev main_v874 : Ref sig .tc := ⟨.hbm, 1002, rfl⟩
abbrev main_v875 : Ref sig .tc := ⟨.hbm, 1003, rfl⟩
abbrev main_v876 : Ref sig .tc := ⟨.hbm, 1004, rfl⟩
abbrev main_v877 : Ref sig .tc := ⟨.hbm, 1005, rfl⟩
abbrev main_v878 : Ref sig .tc := ⟨.hbm, 1006, rfl⟩
abbrev main_cst_111 : Ref sig .tc := ⟨.hbm, 1007, rfl⟩
abbrev main_v879 : Ref sig .tc := ⟨.hbm, 1008, rfl⟩
abbrev main_v880 : Ref sig .tc := ⟨.hbm, 1009, rfl⟩
abbrev main_v881 : Ref sig .tc := ⟨.hbm, 1010, rfl⟩
abbrev main_v882 : Ref sig .tc := ⟨.hbm, 1011, rfl⟩
abbrev main_v883 : Ref sig .tc := ⟨.hbm, 1012, rfl⟩
abbrev main_v884 : Ref sig .tc := ⟨.hbm, 1013, rfl⟩
abbrev main_v885 : Ref sig .tc := ⟨.hbm, 1014, rfl⟩
abbrev main_v886 : Ref sig .tc := ⟨.hbm, 1015, rfl⟩
abbrev main_v887 : Ref sig .tc := ⟨.hbm, 1016, rfl⟩
abbrev main_v888 : Ref sig .tc := ⟨.hbm, 1017, rfl⟩
abbrev main_v889 : Ref sig .tc := ⟨.hbm, 1018, rfl⟩
abbrev main_v890 : Ref sig .tc := ⟨.hbm, 1019, rfl⟩
abbrev main_v891 : Ref sig .tc := ⟨.hbm, 1020, rfl⟩
abbrev main_v892 : Ref sig .tc := ⟨.hbm, 1021, rfl⟩
abbrev main_v893 : Ref sig .tc := ⟨.hbm, 1022, rfl⟩
abbrev main_v894 : Ref sig .tc := ⟨.hbm, 1023, rfl⟩
abbrev main_v895 : Ref sig .tc := ⟨.hbm, 1024, rfl⟩
abbrev main_v896 : Ref sig .tc := ⟨.hbm, 1025, rfl⟩
abbrev main_v897 : Ref sig .tc := ⟨.hbm, 1026, rfl⟩
abbrev main_v898 : Ref sig .tc := ⟨.hbm, 1027, rfl⟩
abbrev main_v899 : Ref sig .tc := ⟨.hbm, 1028, rfl⟩
abbrev main_v900 : Ref sig .tc := ⟨.hbm, 1029, rfl⟩
abbrev main_v901 : Ref sig .tc := ⟨.hbm, 1030, rfl⟩
abbrev main_v902 : Ref sig .tc := ⟨.hbm, 1031, rfl⟩
abbrev main_cst_112 : Ref sig .tc := ⟨.hbm, 1032, rfl⟩
abbrev main_v903 : Ref sig .tc := ⟨.hbm, 1033, rfl⟩
abbrev main_v904 : Ref sig .tc := ⟨.hbm, 1034, rfl⟩
abbrev main_cst_113 : Ref sig .tc := ⟨.hbm, 1035, rfl⟩
abbrev main_v905 : Ref sig .tc := ⟨.hbm, 1036, rfl⟩
abbrev main_v906 : Ref sig .tc := ⟨.hbm, 1037, rfl⟩
abbrev main_v907 : Ref sig .tc := ⟨.hbm, 1038, rfl⟩
abbrev main_v908 : Ref sig .tc := ⟨.hbm, 1039, rfl⟩
abbrev main_v909 : Ref sig .tc := ⟨.hbm, 1040, rfl⟩
abbrev main_cst_114 : Ref sig .tc := ⟨.hbm, 1041, rfl⟩
abbrev main_v910 : Ref sig .tc := ⟨.hbm, 1042, rfl⟩
abbrev main_v911 : Ref sig .tc := ⟨.hbm, 1043, rfl⟩
abbrev main_cst_115 : Ref sig .tc := ⟨.hbm, 1044, rfl⟩
abbrev main_v912 : Ref sig .tc := ⟨.hbm, 1045, rfl⟩
abbrev main_v913 : Ref sig .tc := ⟨.hbm, 1046, rfl⟩
abbrev main_v914 : Ref sig .tc := ⟨.hbm, 1047, rfl⟩
abbrev main_v915 : Ref sig .tc := ⟨.hbm, 1048, rfl⟩
abbrev main_v916 : Ref sig .tc := ⟨.hbm, 1049, rfl⟩
abbrev main_cst_116 : Ref sig .tc := ⟨.hbm, 1050, rfl⟩
abbrev main_v917 : Ref sig .tc := ⟨.hbm, 1051, rfl⟩
abbrev main_v918 : Ref sig .tc := ⟨.hbm, 1052, rfl⟩
abbrev main_v919 : Ref sig .tc := ⟨.hbm, 1053, rfl⟩
abbrev main_v920 : Ref sig .tc := ⟨.hbm, 1054, rfl⟩
abbrev main_v921 : Ref sig .tc := ⟨.hbm, 1055, rfl⟩
abbrev main_v922 : Ref sig .tc := ⟨.hbm, 1056, rfl⟩
abbrev main_v923 : Ref sig .tc := ⟨.hbm, 1057, rfl⟩
abbrev main_v924 : Ref sig .tc := ⟨.hbm, 1058, rfl⟩
abbrev main_v925 : Ref sig .tc := ⟨.hbm, 1059, rfl⟩
abbrev main_v926 : Ref sig .tc := ⟨.hbm, 1060, rfl⟩
abbrev main_v927 : Ref sig .tc := ⟨.hbm, 1061, rfl⟩
abbrev main_v928 : Ref sig .tc := ⟨.hbm, 1062, rfl⟩
abbrev main_v929 : Ref sig .tc := ⟨.hbm, 1063, rfl⟩
abbrev main_v930 : Ref sig .tc := ⟨.hbm, 1064, rfl⟩
abbrev main_v931 : Ref sig .tc := ⟨.hbm, 1065, rfl⟩
abbrev main_v932 : Ref sig .tc := ⟨.hbm, 1066, rfl⟩
abbrev main_v933 : Ref sig .tc := ⟨.hbm, 1067, rfl⟩
abbrev main_v934 : Ref sig .tc := ⟨.hbm, 1068, rfl⟩
abbrev main_v935 : Ref sig .tc := ⟨.hbm, 1069, rfl⟩
abbrev main_v936 : Ref sig .tc := ⟨.hbm, 1070, rfl⟩
abbrev main_v937 : Ref sig .tc := ⟨.hbm, 1071, rfl⟩
abbrev main_v938 : Ref sig .tc := ⟨.hbm, 1072, rfl⟩
abbrev main_v939 : Ref sig .tc := ⟨.hbm, 1073, rfl⟩
abbrev main_v940 : Ref sig .tc := ⟨.hbm, 1074, rfl⟩
abbrev main_cst_117 : Ref sig .tc := ⟨.hbm, 1075, rfl⟩
abbrev main_v941 : Ref sig .tc := ⟨.hbm, 1076, rfl⟩
abbrev main_v942 : Ref sig .tc := ⟨.hbm, 1077, rfl⟩
abbrev main_cst_118 : Ref sig .tc := ⟨.hbm, 1078, rfl⟩
abbrev main_v943 : Ref sig .tc := ⟨.hbm, 1079, rfl⟩
abbrev main_v944 : Ref sig .tc := ⟨.hbm, 1080, rfl⟩
abbrev main_v945 : Ref sig .tc := ⟨.hbm, 1081, rfl⟩
abbrev main_v946 : Ref sig .tc := ⟨.hbm, 1082, rfl⟩
abbrev main_v947 : Ref sig .tc := ⟨.hbm, 1083, rfl⟩
abbrev main_cst_119 : Ref sig .tc := ⟨.hbm, 1084, rfl⟩
abbrev main_v948 : Ref sig .tc := ⟨.hbm, 1085, rfl⟩
abbrev main_v949 : Ref sig .tc := ⟨.hbm, 1086, rfl⟩
abbrev main_cst_120 : Ref sig .tc := ⟨.hbm, 1087, rfl⟩
abbrev main_v950 : Ref sig .tc := ⟨.hbm, 1088, rfl⟩
abbrev main_v951 : Ref sig .tc := ⟨.hbm, 1089, rfl⟩
abbrev main_v952 : Ref sig .tc := ⟨.hbm, 1090, rfl⟩
abbrev main_v953 : Ref sig .tc := ⟨.hbm, 1091, rfl⟩
abbrev main_v954 : Ref sig .tc := ⟨.hbm, 1092, rfl⟩
abbrev main_cst_121 : Ref sig .tc := ⟨.hbm, 1093, rfl⟩
abbrev main_v955 : Ref sig .tc := ⟨.hbm, 1094, rfl⟩
abbrev main_v956 : Ref sig .tc := ⟨.hbm, 1095, rfl⟩
abbrev main_v957 : Ref sig .tc := ⟨.hbm, 1096, rfl⟩
abbrev main_v958 : Ref sig .tc := ⟨.hbm, 1097, rfl⟩
abbrev main_v959 : Ref sig .tc := ⟨.hbm, 1098, rfl⟩
abbrev main_v960 : Ref sig .tc := ⟨.hbm, 1099, rfl⟩
abbrev main_v961 : Ref sig .tc := ⟨.hbm, 1100, rfl⟩
abbrev main_v962 : Ref sig .tc := ⟨.hbm, 1101, rfl⟩
abbrev main_v963 : Ref sig .tc := ⟨.hbm, 1102, rfl⟩
abbrev main_v964 : Ref sig .tc := ⟨.hbm, 1103, rfl⟩
abbrev main_v965 : Ref sig .tc := ⟨.hbm, 1104, rfl⟩
abbrev main_v966 : Ref sig .tc := ⟨.hbm, 1105, rfl⟩
abbrev main_v967 : Ref sig .tc := ⟨.hbm, 1106, rfl⟩
abbrev main_v968 : Ref sig .tc := ⟨.hbm, 1107, rfl⟩
abbrev main_v969 : Ref sig .tc := ⟨.hbm, 1108, rfl⟩
abbrev main_v970 : Ref sig .tc := ⟨.hbm, 1109, rfl⟩
abbrev main_v971 : Ref sig .tc := ⟨.hbm, 1110, rfl⟩
abbrev main_v972 : Ref sig .tc := ⟨.hbm, 1111, rfl⟩
abbrev main_v973 : Ref sig .tc := ⟨.hbm, 1112, rfl⟩
abbrev main_v974 : Ref sig .tc := ⟨.hbm, 1113, rfl⟩
abbrev main_v975 : Ref sig .tc := ⟨.hbm, 1114, rfl⟩
abbrev main_v976 : Ref sig .tc := ⟨.hbm, 1115, rfl⟩
abbrev main_v977 : Ref sig .tc := ⟨.hbm, 1116, rfl⟩
abbrev main_v978 : Ref sig .tc := ⟨.hbm, 1117, rfl⟩
abbrev main_v979 : Ref sig .tc := ⟨.hbm, 1118, rfl⟩
abbrev main_v980 : Ref sig .tc := ⟨.hbm, 1119, rfl⟩
abbrev main_v981 : Ref sig .tc := ⟨.hbm, 1120, rfl⟩
abbrev main_v982 : Ref sig .tc := ⟨.hbm, 1121, rfl⟩
abbrev main_v983 : Ref sig .tc := ⟨.hbm, 1122, rfl⟩
abbrev main_v984 : Ref sig .tc := ⟨.hbm, 1123, rfl⟩
abbrev main_cst_122 : Ref sig .tc := ⟨.hbm, 1124, rfl⟩
abbrev main_v985 : Ref sig .tc := ⟨.hbm, 1125, rfl⟩
abbrev main_v986 : Ref sig .tc := ⟨.hbm, 1126, rfl⟩
abbrev main_cst_123 : Ref sig .tc := ⟨.hbm, 1127, rfl⟩
abbrev main_v987 : Ref sig .tc := ⟨.hbm, 1128, rfl⟩
abbrev main_v988 : Ref sig .tc := ⟨.hbm, 1129, rfl⟩
abbrev main_v989 : Ref sig .tc := ⟨.hbm, 1130, rfl⟩
abbrev main_v990 : Ref sig .tc := ⟨.hbm, 1131, rfl⟩
abbrev main_v991 : Ref sig .tc := ⟨.hbm, 1132, rfl⟩
abbrev main_cst_124 : Ref sig .tc := ⟨.hbm, 1133, rfl⟩
abbrev main_v992 : Ref sig .tc := ⟨.hbm, 1134, rfl⟩
abbrev main_v993 : Ref sig .tc := ⟨.hbm, 1135, rfl⟩
abbrev main_cst_125 : Ref sig .tc := ⟨.hbm, 1136, rfl⟩
abbrev main_v994 : Ref sig .tc := ⟨.hbm, 1137, rfl⟩
abbrev main_v995 : Ref sig .tc := ⟨.hbm, 1138, rfl⟩
abbrev main_v996 : Ref sig .tc := ⟨.hbm, 1139, rfl⟩
abbrev main_v997 : Ref sig .tc := ⟨.hbm, 1140, rfl⟩
abbrev main_v998 : Ref sig .tc := ⟨.hbm, 1141, rfl⟩
abbrev main_cst_126 : Ref sig .tc := ⟨.hbm, 1142, rfl⟩
abbrev main_v999 : Ref sig .tc := ⟨.hbm, 1143, rfl⟩
abbrev main_v1000 : Ref sig .tc := ⟨.hbm, 1144, rfl⟩
abbrev main_v1001 : Ref sig .tc := ⟨.hbm, 1145, rfl⟩
abbrev main_v1002 : Ref sig .tc := ⟨.hbm, 1146, rfl⟩
abbrev main_v1003 : Ref sig .tc := ⟨.hbm, 1147, rfl⟩
abbrev main_v1004 : Ref sig .tc := ⟨.hbm, 1148, rfl⟩
abbrev main_v1005 : Ref sig .tc := ⟨.hbm, 1149, rfl⟩
abbrev main_v1006 : Ref sig .tc := ⟨.hbm, 1150, rfl⟩
abbrev main_v1007 : Ref sig .tc := ⟨.hbm, 1151, rfl⟩
abbrev main_v1008 : Ref sig .tc := ⟨.hbm, 1152, rfl⟩
abbrev main_v1009 : Ref sig .tc := ⟨.hbm, 1153, rfl⟩
abbrev main_v1010 : Ref sig .tc := ⟨.hbm, 1154, rfl⟩
abbrev main_v1011 : Ref sig .tc := ⟨.hbm, 1155, rfl⟩
abbrev main_v1012 : Ref sig .tc := ⟨.hbm, 1156, rfl⟩
abbrev main_v1013 : Ref sig .tc := ⟨.hbm, 1157, rfl⟩
abbrev main_v1014 : Ref sig .tc := ⟨.hbm, 1158, rfl⟩
abbrev main_v1015 : Ref sig .tc := ⟨.hbm, 1159, rfl⟩
abbrev main_v1016 : Ref sig .tc := ⟨.hbm, 1160, rfl⟩
abbrev main_v1017 : Ref sig .tc := ⟨.hbm, 1161, rfl⟩
abbrev main_v1018 : Ref sig .tc := ⟨.hbm, 1162, rfl⟩
abbrev main_v1019 : Ref sig .tc := ⟨.hbm, 1163, rfl⟩
abbrev main_v1020 : Ref sig .tc := ⟨.hbm, 1164, rfl⟩
abbrev main_v1021 : Ref sig .tc := ⟨.hbm, 1165, rfl⟩
abbrev main_v1022 : Ref sig .tc := ⟨.hbm, 1166, rfl⟩
abbrev main_cst_127 : Ref sig .tc := ⟨.hbm, 1167, rfl⟩
abbrev main_v1023 : Ref sig .tc := ⟨.hbm, 1168, rfl⟩
abbrev main_v1024 : Ref sig .tc := ⟨.hbm, 1169, rfl⟩
abbrev main_cst_128 : Ref sig .tc := ⟨.hbm, 1170, rfl⟩
abbrev main_v1025 : Ref sig .tc := ⟨.hbm, 1171, rfl⟩
abbrev main_v1026 : Ref sig .tc := ⟨.hbm, 1172, rfl⟩
abbrev main_v1027 : Ref sig .tc := ⟨.hbm, 1173, rfl⟩
abbrev main_v1028 : Ref sig .tc := ⟨.hbm, 1174, rfl⟩
abbrev main_v1029 : Ref sig .tc := ⟨.hbm, 1175, rfl⟩
abbrev main_cst_129 : Ref sig .tc := ⟨.hbm, 1176, rfl⟩
abbrev main_v1030 : Ref sig .tc := ⟨.hbm, 1177, rfl⟩
abbrev main_v1031 : Ref sig .tc := ⟨.hbm, 1178, rfl⟩
abbrev main_cst_130 : Ref sig .tc := ⟨.hbm, 1179, rfl⟩
abbrev main_v1032 : Ref sig .tc := ⟨.hbm, 1180, rfl⟩
abbrev main_v1033 : Ref sig .tc := ⟨.hbm, 1181, rfl⟩
abbrev main_v1034 : Ref sig .tc := ⟨.hbm, 1182, rfl⟩
abbrev main_v1035 : Ref sig .tc := ⟨.hbm, 1183, rfl⟩
abbrev main_v1036 : Ref sig .tc := ⟨.hbm, 1184, rfl⟩
abbrev main_cst_131 : Ref sig .tc := ⟨.hbm, 1185, rfl⟩
abbrev main_v1037 : Ref sig .tc := ⟨.hbm, 1186, rfl⟩
abbrev main_v1038 : Ref sig .tc := ⟨.hbm, 1187, rfl⟩
abbrev main_v1039 : Ref sig .tc := ⟨.hbm, 1188, rfl⟩
abbrev main_v1040 : Ref sig .tc := ⟨.hbm, 1189, rfl⟩
abbrev main_v1041 : Ref sig .tc := ⟨.hbm, 1190, rfl⟩
abbrev main_v1042 : Ref sig .tc := ⟨.hbm, 1191, rfl⟩
abbrev main_v1043 : Ref sig .tc := ⟨.hbm, 1192, rfl⟩
abbrev main_v1044 : Ref sig .tc := ⟨.hbm, 1193, rfl⟩
abbrev main_v1045 : Ref sig .tc := ⟨.hbm, 1194, rfl⟩
abbrev main_v1046 : Ref sig .tc := ⟨.hbm, 1195, rfl⟩
abbrev main_v1047 : Ref sig .tc := ⟨.hbm, 1196, rfl⟩
abbrev main_v1048 : Ref sig .tc := ⟨.hbm, 1197, rfl⟩
abbrev main_v1049 : Ref sig .tc := ⟨.hbm, 1198, rfl⟩
abbrev main_v1050 : Ref sig .tc := ⟨.hbm, 1199, rfl⟩
abbrev main_v1051 : Ref sig .tc := ⟨.hbm, 1200, rfl⟩
abbrev main_v1052 : Ref sig .tc := ⟨.hbm, 1201, rfl⟩
abbrev main_v1053 : Ref sig .tc := ⟨.hbm, 1202, rfl⟩
abbrev main_v1054 : Ref sig .tc := ⟨.hbm, 1203, rfl⟩
abbrev main_v1055 : Ref sig .tc := ⟨.hbm, 1204, rfl⟩
abbrev main_v1056 : Ref sig .tc := ⟨.hbm, 1205, rfl⟩
abbrev main_v1057 : Ref sig .tc := ⟨.hbm, 1206, rfl⟩
abbrev main_v1058 : Ref sig .tc := ⟨.hbm, 1207, rfl⟩
abbrev main_v1059 : Ref sig .tc := ⟨.hbm, 1208, rfl⟩
abbrev main_v1060 : Ref sig .tc := ⟨.hbm, 1209, rfl⟩
abbrev main_cst_132 : Ref sig .tc := ⟨.hbm, 1210, rfl⟩
abbrev main_v1061 : Ref sig .tc := ⟨.hbm, 1211, rfl⟩
abbrev main_v1062 : Ref sig .tc := ⟨.hbm, 1212, rfl⟩
abbrev main_cst_133 : Ref sig .tc := ⟨.hbm, 1213, rfl⟩
abbrev main_v1063 : Ref sig .tc := ⟨.hbm, 1214, rfl⟩
abbrev main_v1064 : Ref sig .tc := ⟨.hbm, 1215, rfl⟩
abbrev main_v1065 : Ref sig .tc := ⟨.hbm, 1216, rfl⟩
abbrev main_v1066 : Ref sig .tc := ⟨.hbm, 1217, rfl⟩
abbrev main_v1067 : Ref sig .tc := ⟨.hbm, 1218, rfl⟩
abbrev main_cst_134 : Ref sig .tc := ⟨.hbm, 1219, rfl⟩
abbrev main_v1068 : Ref sig .tc := ⟨.hbm, 1220, rfl⟩
abbrev main_v1069 : Ref sig .tc := ⟨.hbm, 1221, rfl⟩
abbrev main_cst_135 : Ref sig .tc := ⟨.hbm, 1222, rfl⟩
abbrev main_v1070 : Ref sig .tc := ⟨.hbm, 1223, rfl⟩
abbrev main_v1071 : Ref sig .tc := ⟨.hbm, 1224, rfl⟩
abbrev main_v1072 : Ref sig .tc := ⟨.hbm, 1225, rfl⟩
abbrev main_v1073 : Ref sig .tc := ⟨.hbm, 1226, rfl⟩
abbrev main_v1074 : Ref sig .tc := ⟨.hbm, 1227, rfl⟩
abbrev main_cst_136 : Ref sig .tc := ⟨.hbm, 1228, rfl⟩
abbrev main_v1075 : Ref sig .tc := ⟨.hbm, 1229, rfl⟩
abbrev main_v1076 : Ref sig .tc := ⟨.hbm, 1230, rfl⟩
abbrev main_v1077 : Ref sig .tc := ⟨.hbm, 1231, rfl⟩
abbrev main_v1078 : Ref sig .tc := ⟨.hbm, 1232, rfl⟩
abbrev main_v1079 : Ref sig .tc := ⟨.hbm, 1233, rfl⟩
abbrev main_v1080 : Ref sig .tc := ⟨.hbm, 1234, rfl⟩
abbrev main_v1081 : Ref sig .tc := ⟨.hbm, 1235, rfl⟩
abbrev main_v1082 : Ref sig .tc := ⟨.hbm, 1236, rfl⟩
abbrev main_v1083 : Ref sig .tc := ⟨.hbm, 1237, rfl⟩
abbrev main_v1084 : Ref sig .tc := ⟨.hbm, 1238, rfl⟩
abbrev main_v1085 : Ref sig .tc := ⟨.hbm, 1239, rfl⟩
abbrev main_v1086 : Ref sig .tc := ⟨.hbm, 1240, rfl⟩
abbrev main_v1087 : Ref sig .tc := ⟨.hbm, 1241, rfl⟩
abbrev main_v1088 : Ref sig .tc := ⟨.hbm, 1242, rfl⟩
abbrev main_v1089 : Ref sig .tc := ⟨.hbm, 1243, rfl⟩
abbrev main_v1090 : Ref sig .tc := ⟨.hbm, 1244, rfl⟩
abbrev main_v1091 : Ref sig .tc := ⟨.hbm, 1245, rfl⟩
abbrev main_v1092 : Ref sig .tc := ⟨.hbm, 1246, rfl⟩
abbrev main_v1093 : Ref sig .tc := ⟨.hbm, 1247, rfl⟩
abbrev main_v1094 : Ref sig .tc := ⟨.hbm, 1248, rfl⟩
abbrev main_v1095 : Ref sig .tc := ⟨.hbm, 1249, rfl⟩
abbrev main_v1096 : Ref sig .tc := ⟨.hbm, 1250, rfl⟩
abbrev main_v1097 : Ref sig .tc := ⟨.hbm, 1251, rfl⟩
abbrev main_v1098 : Ref sig .tc := ⟨.hbm, 1252, rfl⟩
abbrev main_v1099 : Ref sig .tc := ⟨.hbm, 1253, rfl⟩
abbrev main_v1100 : Ref sig .tc := ⟨.hbm, 1254, rfl⟩
abbrev main_v1101 : Ref sig .tc := ⟨.hbm, 1255, rfl⟩
abbrev main_v1102 : Ref sig .tc := ⟨.hbm, 1256, rfl⟩
abbrev main_v1103 : Ref sig .tc := ⟨.hbm, 1257, rfl⟩
abbrev main_v1104 : Ref sig .tc := ⟨.hbm, 1258, rfl⟩
abbrev main_cst_137 : Ref sig .tc := ⟨.hbm, 1259, rfl⟩
abbrev main_v1105 : Ref sig .tc := ⟨.hbm, 1260, rfl⟩
abbrev main_v1106 : Ref sig .tc := ⟨.hbm, 1261, rfl⟩
abbrev main_cst_138 : Ref sig .tc := ⟨.hbm, 1262, rfl⟩
abbrev main_v1107 : Ref sig .tc := ⟨.hbm, 1263, rfl⟩
abbrev main_v1108 : Ref sig .tc := ⟨.hbm, 1264, rfl⟩
abbrev main_v1109 : Ref sig .tc := ⟨.hbm, 1265, rfl⟩
abbrev main_v1110 : Ref sig .tc := ⟨.hbm, 1266, rfl⟩
abbrev main_v1111 : Ref sig .tc := ⟨.hbm, 1267, rfl⟩
abbrev main_cst_139 : Ref sig .tc := ⟨.hbm, 1268, rfl⟩
abbrev main_v1112 : Ref sig .tc := ⟨.hbm, 1269, rfl⟩
abbrev main_v1113 : Ref sig .tc := ⟨.hbm, 1270, rfl⟩
abbrev main_cst_140 : Ref sig .tc := ⟨.hbm, 1271, rfl⟩
abbrev main_v1114 : Ref sig .tc := ⟨.hbm, 1272, rfl⟩
abbrev main_v1115 : Ref sig .tc := ⟨.hbm, 1273, rfl⟩
abbrev main_v1116 : Ref sig .tc := ⟨.hbm, 1274, rfl⟩
abbrev main_v1117 : Ref sig .tc := ⟨.hbm, 1275, rfl⟩
abbrev main_v1118 : Ref sig .tc := ⟨.hbm, 1276, rfl⟩
abbrev main_cst_141 : Ref sig .tc := ⟨.hbm, 1277, rfl⟩
abbrev main_v1119 : Ref sig .tc := ⟨.hbm, 1278, rfl⟩
abbrev main_v1120 : Ref sig .tc := ⟨.hbm, 1279, rfl⟩
abbrev main_v1121 : Ref sig .tc := ⟨.hbm, 1280, rfl⟩
abbrev main_v1122 : Ref sig .tc := ⟨.hbm, 1281, rfl⟩
abbrev main_v1123 : Ref sig .tc := ⟨.hbm, 1282, rfl⟩
abbrev main_v1124 : Ref sig .tc := ⟨.hbm, 1283, rfl⟩
abbrev main_v1125 : Ref sig .tc := ⟨.hbm, 1284, rfl⟩
abbrev main_v1126 : Ref sig .tc := ⟨.hbm, 1285, rfl⟩
abbrev main_v1127 : Ref sig .tc := ⟨.hbm, 1286, rfl⟩
abbrev main_v1128 : Ref sig .tc := ⟨.hbm, 1287, rfl⟩
abbrev main_v1129 : Ref sig .tc := ⟨.hbm, 1288, rfl⟩
abbrev main_v1130 : Ref sig .tc := ⟨.hbm, 1289, rfl⟩
abbrev main_v1131 : Ref sig .tc := ⟨.hbm, 1290, rfl⟩
abbrev main_v1132 : Ref sig .tc := ⟨.hbm, 1291, rfl⟩
abbrev main_v1133 : Ref sig .tc := ⟨.hbm, 1292, rfl⟩
abbrev main_v1134 : Ref sig .tc := ⟨.hbm, 1293, rfl⟩
abbrev main_v1135 : Ref sig .tc := ⟨.hbm, 1294, rfl⟩
abbrev main_v1136 : Ref sig .tc := ⟨.hbm, 1295, rfl⟩
abbrev main_v1137 : Ref sig .tc := ⟨.hbm, 1296, rfl⟩
abbrev main_v1138 : Ref sig .tc := ⟨.hbm, 1297, rfl⟩
abbrev main_v1139 : Ref sig .tc := ⟨.hbm, 1298, rfl⟩
abbrev main_v1140 : Ref sig .tc := ⟨.hbm, 1299, rfl⟩
abbrev main_v1141 : Ref sig .tc := ⟨.hbm, 1300, rfl⟩
abbrev main_v1142 : Ref sig .tc := ⟨.hbm, 1301, rfl⟩
abbrev main_cst_142 : Ref sig .tc := ⟨.hbm, 1302, rfl⟩
abbrev main_v1143 : Ref sig .tc := ⟨.hbm, 1303, rfl⟩
abbrev main_v1144 : Ref sig .tc := ⟨.hbm, 1304, rfl⟩
abbrev main_cst_143 : Ref sig .tc := ⟨.hbm, 1305, rfl⟩
abbrev main_v1145 : Ref sig .tc := ⟨.hbm, 1306, rfl⟩
abbrev main_v1146 : Ref sig .tc := ⟨.hbm, 1307, rfl⟩
abbrev main_v1147 : Ref sig .tc := ⟨.hbm, 1308, rfl⟩
abbrev main_v1148 : Ref sig .tc := ⟨.hbm, 1309, rfl⟩
abbrev main_v1149 : Ref sig .tc := ⟨.hbm, 1310, rfl⟩
abbrev main_cst_144 : Ref sig .tc := ⟨.hbm, 1311, rfl⟩
abbrev main_v1150 : Ref sig .tc := ⟨.hbm, 1312, rfl⟩
abbrev main_v1151 : Ref sig .tc := ⟨.hbm, 1313, rfl⟩
abbrev main_cst_145 : Ref sig .tc := ⟨.hbm, 1314, rfl⟩
abbrev main_v1152 : Ref sig .tc := ⟨.hbm, 1315, rfl⟩
abbrev main_v1153 : Ref sig .tc := ⟨.hbm, 1316, rfl⟩
abbrev main_v1154 : Ref sig .tc := ⟨.hbm, 1317, rfl⟩
abbrev main_v1155 : Ref sig .tc := ⟨.hbm, 1318, rfl⟩
abbrev main_v1156 : Ref sig .tc := ⟨.hbm, 1319, rfl⟩
abbrev main_cst_146 : Ref sig .tc := ⟨.hbm, 1320, rfl⟩
abbrev main_v1157 : Ref sig .tc := ⟨.hbm, 1321, rfl⟩
abbrev main_v1158 : Ref sig .tc := ⟨.hbm, 1322, rfl⟩
abbrev main_v1159 : Ref sig .tc := ⟨.hbm, 1323, rfl⟩
abbrev main_v1160 : Ref sig .tc := ⟨.hbm, 1324, rfl⟩
abbrev main_v1161 : Ref sig .tc := ⟨.hbm, 1325, rfl⟩
abbrev main_v1162 : Ref sig .tc := ⟨.hbm, 1326, rfl⟩
abbrev main_v1163 : Ref sig .tc := ⟨.hbm, 1327, rfl⟩
abbrev main_v1164 : Ref sig .tc := ⟨.hbm, 1328, rfl⟩
abbrev main_v1165 : Ref sig .tc := ⟨.hbm, 1329, rfl⟩
abbrev main_v1166 : Ref sig .tc := ⟨.hbm, 1330, rfl⟩
abbrev main_v1167 : Ref sig .tc := ⟨.hbm, 1331, rfl⟩
abbrev main_v1168 : Ref sig .tc := ⟨.hbm, 1332, rfl⟩
abbrev main_v1169 : Ref sig .tc := ⟨.hbm, 1333, rfl⟩
abbrev main_v1170 : Ref sig .tc := ⟨.hbm, 1334, rfl⟩
abbrev main_v1171 : Ref sig .tc := ⟨.hbm, 1335, rfl⟩
abbrev main_v1172 : Ref sig .tc := ⟨.hbm, 1336, rfl⟩
abbrev main_v1173 : Ref sig .tc := ⟨.hbm, 1337, rfl⟩
abbrev main_v1174 : Ref sig .tc := ⟨.hbm, 1338, rfl⟩
abbrev main_v1175 : Ref sig .tc := ⟨.hbm, 1339, rfl⟩
abbrev main_v1176 : Ref sig .tc := ⟨.hbm, 1340, rfl⟩
abbrev main_v1177 : Ref sig .tc := ⟨.hbm, 1341, rfl⟩
abbrev main_v1178 : Ref sig .tc := ⟨.hbm, 1342, rfl⟩
abbrev main_v1179 : Ref sig .tc := ⟨.hbm, 1343, rfl⟩
abbrev main_v1180 : Ref sig .tc := ⟨.hbm, 1344, rfl⟩
abbrev main_cst_147 : Ref sig .tc := ⟨.hbm, 1345, rfl⟩
abbrev main_v1181 : Ref sig .tc := ⟨.hbm, 1346, rfl⟩
abbrev main_v1182 : Ref sig .tc := ⟨.hbm, 1347, rfl⟩
abbrev main_cst_148 : Ref sig .tc := ⟨.hbm, 1348, rfl⟩
abbrev main_v1183 : Ref sig .tc := ⟨.hbm, 1349, rfl⟩
abbrev main_v1184 : Ref sig .tc := ⟨.hbm, 1350, rfl⟩
abbrev main_v1185 : Ref sig .tc := ⟨.hbm, 1351, rfl⟩
abbrev main_v1186 : Ref sig .tc := ⟨.hbm, 1352, rfl⟩
abbrev main_v1187 : Ref sig .tc := ⟨.hbm, 1353, rfl⟩
abbrev main_cst_149 : Ref sig .tc := ⟨.hbm, 1354, rfl⟩
abbrev main_v1188 : Ref sig .tc := ⟨.hbm, 1355, rfl⟩
abbrev main_v1189 : Ref sig .tc := ⟨.hbm, 1356, rfl⟩
abbrev main_cst_150 : Ref sig .tc := ⟨.hbm, 1357, rfl⟩
abbrev main_v1190 : Ref sig .tc := ⟨.hbm, 1358, rfl⟩
abbrev main_v1191 : Ref sig .tc := ⟨.hbm, 1359, rfl⟩
abbrev main_v1192 : Ref sig .tc := ⟨.hbm, 1360, rfl⟩
abbrev main_v1193 : Ref sig .tc := ⟨.hbm, 1361, rfl⟩
abbrev main_v1194 : Ref sig .tc := ⟨.hbm, 1362, rfl⟩
abbrev main_cst_151 : Ref sig .tc := ⟨.hbm, 1363, rfl⟩
abbrev main_v1195 : Ref sig .tc := ⟨.hbm, 1364, rfl⟩
abbrev main_v1196 : Ref sig .tc := ⟨.hbm, 1365, rfl⟩
abbrev main_v1197 : Ref sig .tc := ⟨.hbm, 1366, rfl⟩
abbrev main_v1198 : Ref sig .tc := ⟨.hbm, 1367, rfl⟩
abbrev main_v1199 : Ref sig .tc := ⟨.hbm, 1368, rfl⟩
abbrev main_v1200 : Ref sig .tc := ⟨.hbm, 1369, rfl⟩
abbrev main_v1201 : Ref sig .tc := ⟨.hbm, 1370, rfl⟩
abbrev main_v1202 : Ref sig .tc := ⟨.hbm, 1371, rfl⟩
abbrev main_v1203 : Ref sig .tc := ⟨.hbm, 1372, rfl⟩
abbrev main_v1204 : Ref sig .tc := ⟨.hbm, 1373, rfl⟩
abbrev main_v1205 : Ref sig .tc := ⟨.hbm, 1374, rfl⟩
abbrev main_v1206 : Ref sig .tc := ⟨.hbm, 1375, rfl⟩
abbrev main_v1207 : Ref sig .tc := ⟨.hbm, 1376, rfl⟩
abbrev main_v1208 : Ref sig .tc := ⟨.hbm, 1377, rfl⟩
abbrev main_v1209 : Ref sig .tc := ⟨.hbm, 1378, rfl⟩
abbrev main_v1210 : Ref sig .tc := ⟨.hbm, 1379, rfl⟩
abbrev main_v1211 : Ref sig .tc := ⟨.hbm, 1380, rfl⟩
abbrev main_v1212 : Ref sig .tc := ⟨.hbm, 1381, rfl⟩
abbrev main_v1213 : Ref sig .tc := ⟨.hbm, 1382, rfl⟩
abbrev main_v1214 : Ref sig .tc := ⟨.hbm, 1383, rfl⟩
abbrev main_v1215 : Ref sig .tc := ⟨.hbm, 1384, rfl⟩
abbrev main_v1216 : Ref sig .tc := ⟨.hbm, 1385, rfl⟩
abbrev main_v1217 : Ref sig .tc := ⟨.hbm, 1386, rfl⟩
abbrev main_v1218 : Ref sig .tc := ⟨.hbm, 1387, rfl⟩
abbrev main_v1219 : Ref sig .tc := ⟨.hbm, 1388, rfl⟩
abbrev main_v1220 : Ref sig .tc := ⟨.hbm, 1389, rfl⟩
abbrev main_v1221 : Ref sig .tc := ⟨.hbm, 1390, rfl⟩
abbrev main_v1222 : Ref sig .tc := ⟨.hbm, 1391, rfl⟩
abbrev main_v1223 : Ref sig .tc := ⟨.hbm, 1392, rfl⟩
abbrev main_v1224 : Ref sig .tc := ⟨.hbm, 1393, rfl⟩
abbrev main_cst_152 : Ref sig .tc := ⟨.hbm, 1394, rfl⟩
abbrev main_v1225 : Ref sig .tc := ⟨.hbm, 1395, rfl⟩
abbrev main_v1226 : Ref sig .tc := ⟨.hbm, 1396, rfl⟩
abbrev main_cst_153 : Ref sig .tc := ⟨.hbm, 1397, rfl⟩
abbrev main_v1227 : Ref sig .tc := ⟨.hbm, 1398, rfl⟩
abbrev main_v1228 : Ref sig .tc := ⟨.hbm, 1399, rfl⟩
abbrev main_v1229 : Ref sig .tc := ⟨.hbm, 1400, rfl⟩
abbrev main_v1230 : Ref sig .tc := ⟨.hbm, 1401, rfl⟩
abbrev main_v1231 : Ref sig .tc := ⟨.hbm, 1402, rfl⟩
abbrev main_cst_154 : Ref sig .tc := ⟨.hbm, 1403, rfl⟩
abbrev main_v1232 : Ref sig .tc := ⟨.hbm, 1404, rfl⟩
abbrev main_v1233 : Ref sig .tc := ⟨.hbm, 1405, rfl⟩
abbrev main_cst_155 : Ref sig .tc := ⟨.hbm, 1406, rfl⟩
abbrev main_v1234 : Ref sig .tc := ⟨.hbm, 1407, rfl⟩
abbrev main_v1235 : Ref sig .tc := ⟨.hbm, 1408, rfl⟩
abbrev main_v1236 : Ref sig .tc := ⟨.hbm, 1409, rfl⟩
abbrev main_v1237 : Ref sig .tc := ⟨.hbm, 1410, rfl⟩
abbrev main_v1238 : Ref sig .tc := ⟨.hbm, 1411, rfl⟩
abbrev main_cst_156 : Ref sig .tc := ⟨.hbm, 1412, rfl⟩
abbrev main_v1239 : Ref sig .tc := ⟨.hbm, 1413, rfl⟩
abbrev main_v1240 : Ref sig .tc := ⟨.hbm, 1414, rfl⟩
abbrev main_v1241 : Ref sig .tc := ⟨.hbm, 1415, rfl⟩
abbrev main_v1242 : Ref sig .tc := ⟨.hbm, 1416, rfl⟩
abbrev main_v1243 : Ref sig .tc := ⟨.hbm, 1417, rfl⟩
abbrev main_v1244 : Ref sig .tc := ⟨.hbm, 1418, rfl⟩
abbrev main_v1245 : Ref sig .tc := ⟨.hbm, 1419, rfl⟩
abbrev main_v1246 : Ref sig .tc := ⟨.hbm, 1420, rfl⟩
abbrev main_v1247 : Ref sig .tc := ⟨.hbm, 1421, rfl⟩
abbrev main_v1248 : Ref sig .tc := ⟨.hbm, 1422, rfl⟩
abbrev main_v1249 : Ref sig .tc := ⟨.hbm, 1423, rfl⟩
abbrev main_v1250 : Ref sig .tc := ⟨.hbm, 1424, rfl⟩
abbrev main_v1251 : Ref sig .tc := ⟨.hbm, 1425, rfl⟩
abbrev main_v1252 : Ref sig .tc := ⟨.hbm, 1426, rfl⟩
abbrev main_v1253 : Ref sig .tc := ⟨.hbm, 1427, rfl⟩
abbrev main_v1254 : Ref sig .tc := ⟨.hbm, 1428, rfl⟩
abbrev main_v1255 : Ref sig .tc := ⟨.hbm, 1429, rfl⟩
abbrev main_v1256 : Ref sig .tc := ⟨.hbm, 1430, rfl⟩
abbrev main_v1257 : Ref sig .tc := ⟨.hbm, 1431, rfl⟩
abbrev main_v1258 : Ref sig .tc := ⟨.hbm, 1432, rfl⟩
abbrev main_v1259 : Ref sig .tc := ⟨.hbm, 1433, rfl⟩
abbrev main_v1260 : Ref sig .tc := ⟨.hbm, 1434, rfl⟩
abbrev main_v1261 : Ref sig .tc := ⟨.hbm, 1435, rfl⟩
abbrev main_v1262 : Ref sig .tc := ⟨.hbm, 1436, rfl⟩
abbrev main_cst_157 : Ref sig .tc := ⟨.hbm, 1437, rfl⟩
abbrev main_v1263 : Ref sig .tc := ⟨.hbm, 1438, rfl⟩
abbrev main_v1264 : Ref sig .tc := ⟨.hbm, 1439, rfl⟩
abbrev main_cst_158 : Ref sig .tc := ⟨.hbm, 1440, rfl⟩
abbrev main_v1265 : Ref sig .tc := ⟨.hbm, 1441, rfl⟩
abbrev main_v1266 : Ref sig .tc := ⟨.hbm, 1442, rfl⟩
abbrev main_v1267 : Ref sig .tc := ⟨.hbm, 1443, rfl⟩
abbrev main_v1268 : Ref sig .tc := ⟨.hbm, 1444, rfl⟩
abbrev main_v1269 : Ref sig .tc := ⟨.hbm, 1445, rfl⟩
abbrev main_cst_159 : Ref sig .tc := ⟨.hbm, 1446, rfl⟩
abbrev main_v1270 : Ref sig .tc := ⟨.hbm, 1447, rfl⟩
abbrev main_v1271 : Ref sig .tc := ⟨.hbm, 1448, rfl⟩
abbrev main_cst_160 : Ref sig .tc := ⟨.hbm, 1449, rfl⟩
abbrev main_v1272 : Ref sig .tc := ⟨.hbm, 1450, rfl⟩
abbrev main_v1273 : Ref sig .tc := ⟨.hbm, 1451, rfl⟩
abbrev main_v1274 : Ref sig .tc := ⟨.hbm, 1452, rfl⟩
abbrev main_v1275 : Ref sig .tc := ⟨.hbm, 1453, rfl⟩
abbrev main_v1276 : Ref sig .tc := ⟨.hbm, 1454, rfl⟩
abbrev main_cst_161 : Ref sig .tc := ⟨.hbm, 1455, rfl⟩
abbrev main_v1277 : Ref sig .tc := ⟨.hbm, 1456, rfl⟩
abbrev main_v1278 : Ref sig .tc := ⟨.hbm, 1457, rfl⟩
abbrev main_v1279 : Ref sig .tc := ⟨.hbm, 1458, rfl⟩
abbrev main_v1280 : Ref sig .tc := ⟨.hbm, 1459, rfl⟩
abbrev main_v1281 : Ref sig .tc := ⟨.hbm, 1460, rfl⟩
abbrev main_v1282 : Ref sig .tc := ⟨.hbm, 1461, rfl⟩
abbrev main_v1283 : Ref sig .tc := ⟨.hbm, 1462, rfl⟩
abbrev main_v1284 : Ref sig .tc := ⟨.hbm, 1463, rfl⟩
abbrev main_v1285 : Ref sig .tc := ⟨.hbm, 1464, rfl⟩
abbrev main_v1286 : Ref sig .tc := ⟨.hbm, 1465, rfl⟩
abbrev main_v1287 : Ref sig .tc := ⟨.hbm, 1466, rfl⟩
abbrev main_v1288 : Ref sig .tc := ⟨.hbm, 1467, rfl⟩
abbrev main_v1289 : Ref sig .tc := ⟨.hbm, 1468, rfl⟩
abbrev main_v1290 : Ref sig .tc := ⟨.hbm, 1469, rfl⟩
abbrev main_v1291 : Ref sig .tc := ⟨.hbm, 1470, rfl⟩
abbrev main_v1292 : Ref sig .tc := ⟨.hbm, 1471, rfl⟩
abbrev main_v1293 : Ref sig .tc := ⟨.hbm, 1472, rfl⟩
abbrev main_v1294 : Ref sig .tc := ⟨.hbm, 1473, rfl⟩
abbrev main_v1295 : Ref sig .tc := ⟨.hbm, 1474, rfl⟩
abbrev main_v1296 : Ref sig .tc := ⟨.hbm, 1475, rfl⟩
abbrev main_v1297 : Ref sig .tc := ⟨.hbm, 1476, rfl⟩
abbrev main_v1298 : Ref sig .tc := ⟨.hbm, 1477, rfl⟩
abbrev main_v1299 : Ref sig .tc := ⟨.hbm, 1478, rfl⟩
abbrev main_v1300 : Ref sig .tc := ⟨.hbm, 1479, rfl⟩
abbrev main_cst_162 : Ref sig .tc := ⟨.hbm, 1480, rfl⟩
abbrev main_v1301 : Ref sig .tc := ⟨.hbm, 1481, rfl⟩
abbrev main_v1302 : Ref sig .tc := ⟨.hbm, 1482, rfl⟩
abbrev main_cst_163 : Ref sig .tc := ⟨.hbm, 1483, rfl⟩
abbrev main_v1303 : Ref sig .tc := ⟨.hbm, 1484, rfl⟩
abbrev main_v1304 : Ref sig .tc := ⟨.hbm, 1485, rfl⟩
abbrev main_v1305 : Ref sig .tc := ⟨.hbm, 1486, rfl⟩
abbrev main_v1306 : Ref sig .tc := ⟨.hbm, 1487, rfl⟩
abbrev main_v1307 : Ref sig .tc := ⟨.hbm, 1488, rfl⟩
abbrev main_cst_164 : Ref sig .tc := ⟨.hbm, 1489, rfl⟩
abbrev main_v1308 : Ref sig .tc := ⟨.hbm, 1490, rfl⟩
abbrev main_v1309 : Ref sig .tc := ⟨.hbm, 1491, rfl⟩
abbrev main_cst_165 : Ref sig .tc := ⟨.hbm, 1492, rfl⟩
abbrev main_v1310 : Ref sig .tc := ⟨.hbm, 1493, rfl⟩
abbrev main_v1311 : Ref sig .tc := ⟨.hbm, 1494, rfl⟩
abbrev main_v1312 : Ref sig .tc := ⟨.hbm, 1495, rfl⟩
abbrev main_v1313 : Ref sig .tc := ⟨.hbm, 1496, rfl⟩
abbrev main_v1314 : Ref sig .tc := ⟨.hbm, 1497, rfl⟩
abbrev main_cst_166 : Ref sig .tc := ⟨.hbm, 1498, rfl⟩
abbrev main_v1315 : Ref sig .tc := ⟨.hbm, 1499, rfl⟩
abbrev main_v1316 : Ref sig .tc := ⟨.hbm, 1500, rfl⟩
abbrev main_v1317 : Ref sig .tc := ⟨.hbm, 1501, rfl⟩
abbrev main_v1318 : Ref sig .tc := ⟨.hbm, 1502, rfl⟩
abbrev main_v1319 : Ref sig .tc := ⟨.hbm, 1503, rfl⟩
abbrev main_v1320 : Ref sig .tc := ⟨.hbm, 1504, rfl⟩
abbrev main_v1321 : Ref sig .tc := ⟨.hbm, 1505, rfl⟩
abbrev main_v1322 : Ref sig .tc := ⟨.hbm, 1506, rfl⟩
abbrev main_v1323 : Ref sig .tc := ⟨.hbm, 1507, rfl⟩
abbrev main_v1324 : Ref sig .tc := ⟨.hbm, 1508, rfl⟩
abbrev main_v1325 : Ref sig .tc := ⟨.hbm, 1509, rfl⟩
abbrev main_v1326 : Ref sig .tc := ⟨.hbm, 1510, rfl⟩
abbrev main_v1327 : Ref sig .tc := ⟨.hbm, 1511, rfl⟩
abbrev main_v1328 : Ref sig .tc := ⟨.hbm, 1512, rfl⟩
abbrev main_v1329 : Ref sig .tc := ⟨.hbm, 1513, rfl⟩
abbrev main_v1330 : Ref sig .tc := ⟨.hbm, 1514, rfl⟩
abbrev main_v1331 : Ref sig .tc := ⟨.hbm, 1515, rfl⟩
abbrev main_v1332 : Ref sig .tc := ⟨.hbm, 1516, rfl⟩
abbrev main_v1333 : Ref sig .tc := ⟨.hbm, 1517, rfl⟩
abbrev main_v1334 : Ref sig .tc := ⟨.hbm, 1518, rfl⟩
abbrev main_v1335 : Ref sig .tc := ⟨.hbm, 1519, rfl⟩
abbrev main_v1336 : Ref sig .tc := ⟨.hbm, 1520, rfl⟩
abbrev main_v1337 : Ref sig .tc := ⟨.hbm, 1521, rfl⟩
abbrev main_v1338 : Ref sig .tc := ⟨.hbm, 1522, rfl⟩
abbrev main_v1339 : Ref sig .tc := ⟨.hbm, 1523, rfl⟩
abbrev main_v1340 : Ref sig .tc := ⟨.hbm, 1524, rfl⟩
abbrev main_v1341 : Ref sig .tc := ⟨.hbm, 1525, rfl⟩
abbrev main_v1342 : Ref sig .tc := ⟨.hbm, 1526, rfl⟩
abbrev main_v1343 : Ref sig .tc := ⟨.hbm, 1527, rfl⟩
abbrev main_v1344 : Ref sig .tc := ⟨.hbm, 1528, rfl⟩
abbrev main_cst_167 : Ref sig .tc := ⟨.hbm, 1529, rfl⟩
abbrev main_v1345 : Ref sig .tc := ⟨.hbm, 1530, rfl⟩
abbrev main_v1346 : Ref sig .tc := ⟨.hbm, 1531, rfl⟩
abbrev main_cst_168 : Ref sig .tc := ⟨.hbm, 1532, rfl⟩
abbrev main_v1347 : Ref sig .tc := ⟨.hbm, 1533, rfl⟩
abbrev main_v1348 : Ref sig .tc := ⟨.hbm, 1534, rfl⟩
abbrev main_v1349 : Ref sig .tc := ⟨.hbm, 1535, rfl⟩
abbrev main_v1350 : Ref sig .tc := ⟨.hbm, 1536, rfl⟩
abbrev main_v1351 : Ref sig .tc := ⟨.hbm, 1537, rfl⟩
abbrev main_cst_169 : Ref sig .tc := ⟨.hbm, 1538, rfl⟩
abbrev main_v1352 : Ref sig .tc := ⟨.hbm, 1539, rfl⟩
abbrev main_v1353 : Ref sig .tc := ⟨.hbm, 1540, rfl⟩
abbrev main_cst_170 : Ref sig .tc := ⟨.hbm, 1541, rfl⟩
abbrev main_v1354 : Ref sig .tc := ⟨.hbm, 1542, rfl⟩
abbrev main_v1355 : Ref sig .tc := ⟨.hbm, 1543, rfl⟩
abbrev main_v1356 : Ref sig .tc := ⟨.hbm, 1544, rfl⟩
abbrev main_v1357 : Ref sig .tc := ⟨.hbm, 1545, rfl⟩
abbrev main_v1358 : Ref sig .tc := ⟨.hbm, 1546, rfl⟩
abbrev main_cst_171 : Ref sig .tc := ⟨.hbm, 1547, rfl⟩
abbrev main_v1359 : Ref sig .tc := ⟨.hbm, 1548, rfl⟩
abbrev main_v1360 : Ref sig .tc := ⟨.hbm, 1549, rfl⟩
abbrev main_v1361 : Ref sig .tc := ⟨.hbm, 1550, rfl⟩
abbrev main_v1362 : Ref sig .tc := ⟨.hbm, 1551, rfl⟩
abbrev main_v1363 : Ref sig .tc := ⟨.hbm, 1552, rfl⟩
abbrev main_v1364 : Ref sig .tc := ⟨.hbm, 1553, rfl⟩
abbrev main_v1365 : Ref sig .tc := ⟨.hbm, 1554, rfl⟩
abbrev main_v1366 : Ref sig .tc := ⟨.hbm, 1555, rfl⟩
abbrev main_v1367 : Ref sig .tc := ⟨.hbm, 1556, rfl⟩
abbrev main_v1368 : Ref sig .tc := ⟨.hbm, 1557, rfl⟩
abbrev main_v1369 : Ref sig .tc := ⟨.hbm, 1558, rfl⟩
abbrev main_v1370 : Ref sig .tc := ⟨.hbm, 1559, rfl⟩
abbrev main_v1371 : Ref sig .tc := ⟨.hbm, 1560, rfl⟩
abbrev main_v1372 : Ref sig .tc := ⟨.hbm, 1561, rfl⟩
abbrev main_v1373 : Ref sig .tc := ⟨.hbm, 1562, rfl⟩
abbrev main_v1374 : Ref sig .tc := ⟨.hbm, 1563, rfl⟩
abbrev main_v1375 : Ref sig .tc := ⟨.hbm, 1564, rfl⟩
abbrev main_v1376 : Ref sig .tc := ⟨.hbm, 1565, rfl⟩
abbrev main_v1377 : Ref sig .tc := ⟨.hbm, 1566, rfl⟩
abbrev main_v1378 : Ref sig .tc := ⟨.hbm, 1567, rfl⟩
abbrev main_v1379 : Ref sig .tc := ⟨.hbm, 1568, rfl⟩
abbrev main_v1380 : Ref sig .tc := ⟨.hbm, 1569, rfl⟩
abbrev main_v1381 : Ref sig .tc := ⟨.hbm, 1570, rfl⟩
abbrev main_v1382 : Ref sig .tc := ⟨.hbm, 1571, rfl⟩
abbrev main_cst_172 : Ref sig .tc := ⟨.hbm, 1572, rfl⟩
abbrev main_v1383 : Ref sig .tc := ⟨.hbm, 1573, rfl⟩
abbrev main_v1384 : Ref sig .tc := ⟨.hbm, 1574, rfl⟩
abbrev main_cst_173 : Ref sig .tc := ⟨.hbm, 1575, rfl⟩
abbrev main_v1385 : Ref sig .tc := ⟨.hbm, 1576, rfl⟩
abbrev main_v1386 : Ref sig .tc := ⟨.hbm, 1577, rfl⟩
abbrev main_v1387 : Ref sig .tc := ⟨.hbm, 1578, rfl⟩
abbrev main_v1388 : Ref sig .tc := ⟨.hbm, 1579, rfl⟩
abbrev main_v1389 : Ref sig .tc := ⟨.hbm, 1580, rfl⟩
abbrev main_cst_174 : Ref sig .tc := ⟨.hbm, 1581, rfl⟩
abbrev main_v1390 : Ref sig .tc := ⟨.hbm, 1582, rfl⟩
abbrev main_v1391 : Ref sig .tc := ⟨.hbm, 1583, rfl⟩
abbrev main_cst_175 : Ref sig .tc := ⟨.hbm, 1584, rfl⟩
abbrev main_v1392 : Ref sig .tc := ⟨.hbm, 1585, rfl⟩
abbrev main_v1393 : Ref sig .tc := ⟨.hbm, 1586, rfl⟩
abbrev main_v1394 : Ref sig .tc := ⟨.hbm, 1587, rfl⟩
abbrev main_v1395 : Ref sig .tc := ⟨.hbm, 1588, rfl⟩
abbrev main_v1396 : Ref sig .tc := ⟨.hbm, 1589, rfl⟩
abbrev main_cst_176 : Ref sig .tc := ⟨.hbm, 1590, rfl⟩
abbrev main_v1397 : Ref sig .tc := ⟨.hbm, 1591, rfl⟩
abbrev main_v1398 : Ref sig .tc := ⟨.hbm, 1592, rfl⟩
abbrev main_v1399 : Ref sig .tc := ⟨.hbm, 1593, rfl⟩
abbrev main_v1400 : Ref sig .tc := ⟨.hbm, 1594, rfl⟩
abbrev main_v1401 : Ref sig .tc := ⟨.hbm, 1595, rfl⟩
abbrev main_v1402 : Ref sig .tc := ⟨.hbm, 1596, rfl⟩
abbrev main_v1403 : Ref sig .tc := ⟨.hbm, 1597, rfl⟩
abbrev main_v1404 : Ref sig .tc := ⟨.hbm, 1598, rfl⟩
abbrev main_v1405 : Ref sig .tc := ⟨.hbm, 1599, rfl⟩
abbrev main_v1406 : Ref sig .tc := ⟨.hbm, 1600, rfl⟩
abbrev main_v1407 : Ref sig .tc := ⟨.hbm, 1601, rfl⟩
abbrev main_v1408 : Ref sig .tc := ⟨.hbm, 1602, rfl⟩
abbrev main_v1409 : Ref sig .tc := ⟨.hbm, 1603, rfl⟩
abbrev main_v1410 : Ref sig .tc := ⟨.hbm, 1604, rfl⟩
abbrev main_v1411 : Ref sig .tc := ⟨.hbm, 1605, rfl⟩
abbrev main_v1412 : Ref sig .tc := ⟨.hbm, 1606, rfl⟩
abbrev main_v1413 : Ref sig .tc := ⟨.hbm, 1607, rfl⟩
abbrev main_v1414 : Ref sig .tc := ⟨.hbm, 1608, rfl⟩
abbrev main_v1415 : Ref sig .tc := ⟨.hbm, 1609, rfl⟩
abbrev main_v1416 : Ref sig .tc := ⟨.hbm, 1610, rfl⟩
abbrev main_v1417 : Ref sig .tc := ⟨.hbm, 1611, rfl⟩
abbrev main_v1418 : Ref sig .tc := ⟨.hbm, 1612, rfl⟩
abbrev main_v1419 : Ref sig .tc := ⟨.hbm, 1613, rfl⟩
abbrev main_v1420 : Ref sig .tc := ⟨.hbm, 1614, rfl⟩
abbrev main_cst_177 : Ref sig .tc := ⟨.hbm, 1615, rfl⟩
abbrev main_v1421 : Ref sig .tc := ⟨.hbm, 1616, rfl⟩
abbrev main_v1422 : Ref sig .tc := ⟨.hbm, 1617, rfl⟩
abbrev main_cst_178 : Ref sig .tc := ⟨.hbm, 1618, rfl⟩
abbrev main_v1423 : Ref sig .tc := ⟨.hbm, 1619, rfl⟩
abbrev main_v1424 : Ref sig .tc := ⟨.hbm, 1620, rfl⟩
abbrev main_v1425 : Ref sig .tc := ⟨.hbm, 1621, rfl⟩
abbrev main_v1426 : Ref sig .tc := ⟨.hbm, 1622, rfl⟩
abbrev main_v1427 : Ref sig .tc := ⟨.hbm, 1623, rfl⟩
abbrev main_cst_179 : Ref sig .tc := ⟨.hbm, 1624, rfl⟩
abbrev main_v1428 : Ref sig .tc := ⟨.hbm, 1625, rfl⟩
abbrev main_v1429 : Ref sig .tc := ⟨.hbm, 1626, rfl⟩
abbrev main_cst_180 : Ref sig .tc := ⟨.hbm, 1627, rfl⟩
abbrev main_v1430 : Ref sig .tc := ⟨.hbm, 1628, rfl⟩
abbrev main_v1431 : Ref sig .tc := ⟨.hbm, 1629, rfl⟩
abbrev main_v1432 : Ref sig .tc := ⟨.hbm, 1630, rfl⟩
abbrev main_v1433 : Ref sig .tc := ⟨.hbm, 1631, rfl⟩
abbrev main_v1434 : Ref sig .tc := ⟨.hbm, 1632, rfl⟩
abbrev main_cst_181 : Ref sig .tc := ⟨.hbm, 1633, rfl⟩
abbrev main_v1435 : Ref sig .tc := ⟨.hbm, 1634, rfl⟩
abbrev main_v1436 : Ref sig .tc := ⟨.hbm, 1635, rfl⟩
abbrev main_v1437 : Ref sig .tc := ⟨.hbm, 1636, rfl⟩
abbrev main_v1438 : Ref sig .tc := ⟨.hbm, 1637, rfl⟩
abbrev main_v1439 : Ref sig .tc := ⟨.hbm, 1638, rfl⟩
abbrev main_v1440 : Ref sig .tc := ⟨.hbm, 1639, rfl⟩
abbrev main_v1441 : Ref sig .tc := ⟨.hbm, 1640, rfl⟩
abbrev main_v1442 : Ref sig .tc := ⟨.hbm, 1641, rfl⟩
abbrev main_v1443 : Ref sig .tc := ⟨.hbm, 1642, rfl⟩
abbrev main_v1444 : Ref sig .tc := ⟨.hbm, 1643, rfl⟩
abbrev main_v1445 : Ref sig .tc := ⟨.hbm, 1644, rfl⟩
abbrev main_v1446 : Ref sig .tc := ⟨.hbm, 1645, rfl⟩
abbrev main_v1447 : Ref sig .tc := ⟨.hbm, 1646, rfl⟩
abbrev main_v1448 : Ref sig .tc := ⟨.hbm, 1647, rfl⟩
abbrev main_v1449 : Ref sig .tc := ⟨.hbm, 1648, rfl⟩
abbrev main_v1450 : Ref sig .tc := ⟨.hbm, 1649, rfl⟩
abbrev main_v1451 : Ref sig .tc := ⟨.hbm, 1650, rfl⟩
abbrev main_v1452 : Ref sig .tc := ⟨.hbm, 1651, rfl⟩
abbrev main_v1453 : Ref sig .tc := ⟨.hbm, 1652, rfl⟩
abbrev main_v1454 : Ref sig .tc := ⟨.hbm, 1653, rfl⟩
abbrev main_v1455 : Ref sig .tc := ⟨.hbm, 1654, rfl⟩
abbrev main_v1456 : Ref sig .tc := ⟨.hbm, 1655, rfl⟩
abbrev main_v1457 : Ref sig .tc := ⟨.hbm, 1656, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  slices_S8x8192x2_S1x8192x2_7_0_0 : S8x8192x2.Slices ![7, 0, 0] S1x8192x2
  shapeCasts_S1x8192x2_S8192x2 : S1x8192x2.ShapeCasts S8192x2
  concatenates_S8192x512_S8192x2_S8192x514_d1 : Shape.Concatenates [S8192x512, S8192x2] S8192x514 1
  transposes_S768x514_S514x768_1_0 : S768x514.Transposes [1, 0] S514x768
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  transposes_S768x256_S256x768_1_0 : S768x256.Transposes [1, 0] S256x768
  slices_S8192x768_S8192x256_0_0 : S8192x768.Slices ![0, 0] S8192x256
  slices_S8192x768_S8192x256_0_256 : S8192x768.Slices ![0, 256] S8192x256
  slices_S8192x768_S8192x256_0_512 : S8192x768.Slices ![0, 512] S8192x256
  transposes_S2x256_S256x2_1_0 : S2x256.Transposes [1, 0] S256x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  bcast_S8192x2_S1x8192x2_1_2 : S8192x2.BroadcastsInDim S1x8192x2 (![1, 2] : Fin 2 → Fin S1x8192x2.rank)
  concatenates_S1x8192x2_S1x8192x2_S1x8192x2_S1x8192x2_S1x8192x2_S1x8192x2_S1x8192x2_S1x8192x2_S1x8192x2_S1x8192x2_S1x8192x2_S1x8192x2_S12x8192x2_d0 : Shape.Concatenates [S1x8192x2, S1x8192x2, S1x8192x2, S1x8192x2, S1x8192x2, S1x8192x2, S1x8192x2, S1x8192x2, S1x8192x2, S1x8192x2, S1x8192x2, S1x8192x2] S12x8192x2 0
  dot_S8192x514_S514x768_S8192x768_1_0_0_1_n_n_wf : DotDims.WF S8192x514 S514x768 S8192x768 [1] [0] [0] [1] [] []
  dot_S8192x256_S256x768_S8192x768_1_0_0_1_n_n_wf : DotDims.WF S8192x256 S256x768 S8192x768 [1] [0] [0] [1] [] []
  dot_S8192x256_S256x2_S8192x2_1_0_0_1_n_n_wf : DotDims.WF S8192x256 S256x2 S8192x2 [1] [0] [0] [1] [] []

variable [Facts₀]

def dot_S8192x514_S514x768_S8192x768_1_0_0_1_n_n : DotDims S8192x514 S514x768 S8192x768 where
  lhsContracting := [1]
  rhsContracting := [0]
  lhsNonContracting := [0]
  rhsNonContracting := [1]
  lhsBatch := []
  rhsBatch := []
  wf := dot_S8192x514_S514x768_S8192x768_1_0_0_1_n_n_wf
def dot_S8192x256_S256x768_S8192x768_1_0_0_1_n_n : DotDims S8192x256 S256x768 S8192x768 where
  lhsContracting := [1]
  rhsContracting := [0]
  lhsNonContracting := [0]
  rhsNonContracting := [1]
  lhsBatch := []
  rhsBatch := []
  wf := dot_S8192x256_S256x768_S8192x768_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf

class Facts : Prop extends Facts₀ where

variable [Facts]
-- ==== Proof.GruRow.lean ====
/-
  The recurrence for ONE batch row, on the extended reals: the common meaning of both programs.

  A row carries a position `pos ∈ E²` and three hidden states `h₀ h₁ h₂ ∈ E²⁵⁶`.  A GRU cell with weights
  `Wih` (768 × K), `Whh` (768 × 256) and biases maps an input `x ∈ E^K` and a state `h` to
      gi = Wih x + bih,   gh = Whh h + bhh,
      r = σ(gi₀ + gh₀),   z = σ(gi₁ + gh₁),   n = tanh(gi₂ + r * gh₂),   h' = (1 - z) * n + z * h
  over the three 256-wide thirds.  The first cell's input is the 512 context entries followed by the 2 position
  entries; each later cell's input is the cell below's new state; the head is `fcw h₂' + fcb`, which is both the
  step's prediction and the next step's position.

  The one algebraic fact needed between the two programs is here too: a sum over the 514 joined entries is the
  sum over the 512 context entries plus the two position terms (`lin_cat`) — associativity and commutativity of
  addition only, so it holds on all extended reals, infinities included.
-/
import Idealize.ShloMosaic.PureOps.Ideal
import Idealize.ShloMosaic.Lib.IdealHost

noncomputable section

namespace Cert.GruRow

open Idealize.ShloMosaic

abbrev E := EReal

/-- The float `1.0` and `0.0` as both programs spell them. -/
abbrev one : E := Ideal.ofBits .f32 0x3F800000#32
abbrev zero : E := Ideal.ofBits .f32 0x00000000#32

/-- `W x + b`: entry `j` is `(∑ₖ xₖ · W j k) + b j`. -/
def lin {K : Nat} (W : Fin 768 → Fin K → E) (b : Fin 768 → E) (x : Fin K → E) : Fin 768 → E :=
  fun j => (∑ k, x k * W j k) + b j

/-- The three 256-wide thirds of a 768-vector. -/
def third0 (i : Fin 256) : Fin 768 := ⟨i.val, by omega⟩
def third1 (i : Fin 256) : Fin 768 := ⟨i.val + 256, by omega⟩
def third2 (i : Fin 256) : Fin 768 := ⟨i.val + 512, by omega⟩

/-- The gate combination. -/
def gates (gi gh : Fin 768 → E) (h : Fin 256 → E) : Fin 256 → E := fun i =>
  (one - Ideal.logistic (gi (third1 i) + gh (third1 i)))
      * Ideal.tanh (gi (third2 i) + Ideal.logistic (gi (third0 i) + gh (third0 i)) * gh (third2 i))
    + Ideal.logistic (gi (third1 i) + gh (third1 i)) * h i

/-- One GRU cell. -/
def cell {K : Nat} (Wih : Fin 768 → Fin K → E) (Whh : Fin 768 → Fin 256 → E) (bih bhh : Fin 768 → E)
    (x : Fin K → E) (h : Fin 256 → E) : Fin 256 → E :=
  gates (lin Wih bih x) (lin Whh bhh h) h

/-- The context entries followed by the position entries. -/
def cat (raw : Fin 512 → E) (pos : Fin 2 → E) : Fin 514 → E := fun k =>
  if h : k.val < 512 then raw ⟨k.val, h⟩ else pos ⟨k.val - 512, by omega⟩

/-- The weights, as functions of their coordinates. -/
structure Params where
  wih0 : Fin 768 → Fin 514 → E
  whh0 : Fin 768 → Fin 256 → E
  bih0 : Fin 768 → E
  bhh0 : Fin 768 → E
  wih1 : Fin 768 → Fin 256 → E
  whh1 : Fin 768 → Fin 256 → E
  bih1 : Fin 768 → E
  bhh1 : Fin 768 → E
  wih2 : Fin 768 → Fin 256 → E
  whh2 : Fin 768 → Fin 256 → E
  bih2 : Fin 768 → E
  bhh2 : Fin 768 → E
  fcw : Fin 2 → Fin 256 → E
  fcb : Fin 2 → E

/-- What a row carries from step to step. -/
structure St where
  pos : Fin 2 → E
  h0 : Fin 256 → E
  h1 : Fin 256 → E
  h2 : Fin 256 → E

def new0 (P : Params) (raw : Fin 512 → E) (s : St) : Fin 256 → E :=
  cell P.wih0 P.whh0 P.bih0 P.bhh0 (cat raw s.pos) s.h0
def new1 (P : Params) (raw : Fin 512 → E) (s : St) : Fin 256 → E :=
  cell P.wih1 P.whh1 P.bih1 P.bhh1 (new0 P raw s) s.h1
def new2 (P : Params) (raw : Fin 512 → E) (s : St) : Fin 256 → E :=
  cell P.wih2 P.whh2 P.bih2 P.bhh2 (new1 P raw s) s.h2

/-- The head: `fcw h + fcb`. -/
def head (P : Params) (h : Fin 256 → E) : Fin 2 → E := fun j => (∑ k, h k * P.fcw j k) + P.fcb j

/-- One step. -/
def step (P : Params) (raw : Fin 512 → E) (s : St) : St where
  pos := head P (new2 P raw s)
  h0 := new0 P raw s
  h1 := new1 P raw s
  h2 := new2 P raw s

/-- The state before the first step: the last observed position, all hidden states zero. -/
def init (pos0 : Fin 2 → E) : St where
  pos := pos0
  h0 := fun _ => zero
  h1 := fun _ => zero
  h2 := fun _ => zero

/-- The state after `n` steps. -/
def after (P : Params) (raw : Fin 512 → E) (pos0 : Fin 2 → E) : Nat → St
  | 0 => init pos0
  | n + 1 => step P raw (after P raw pos0 n)

/-- The prediction of step `s` (counted from 0): the position after `s + 1` steps. -/
def pred (P : Params) (raw : Fin 512 → E) (pos0 : Fin 2 → E) (s : Fin 12) : Fin 2 → E :=
  (after P raw pos0 (s.val + 1)).pos

/-- The first layer's input pre-activation as the kernel forms it: the context sum, plus the two position
    terms, plus the bias. -/
def linSplit (W : Fin 768 → Fin 514 → E) (b : Fin 768 → E) (raw : Fin 512 → E) (pos : Fin 2 → E) : Fin 768 → E :=
  fun j => ((∑ k : Fin 512, raw k * W j ⟨k.val, by omega⟩)
      + (pos 0 * W j ⟨512, by omega⟩ + pos 1 * W j ⟨513, by omega⟩)) + b j

/-- Splitting the joined sum: 514 = 512 + 2. -/
theorem lin_cat (W : Fin 768 → Fin 514 → E) (b : Fin 768 → E) (raw : Fin 512 → E) (pos : Fin 2 → E) :
    lin W b (cat raw pos) = linSplit W b raw pos := by
  funext j
  have h : ∑ k : Fin 514, cat raw pos k * W j k
      = (∑ k : Fin 512, cat raw pos (Fin.castAdd 2 k) * W j (Fin.castAdd 2 k))
        + ∑ k : Fin 2, cat raw pos (Fin.natAdd 512 k) * W j (Fin.natAdd 512 k) :=
    Fin.sum_univ_add (M := E) (a := 512) (b := 2) (fun k => cat raw pos k * W j k)
  have h1 : ∀ k : Fin 512, cat raw pos (Fin.castAdd 2 k) * W j (Fin.castAdd 2 k) = raw k * W j ⟨k.val, by omega⟩ := by
    intro k
    have hk : (Fin.castAdd 2 k).val < 512 := k.isLt
    simp only [cat, hk, dite_true]
    rfl
  have h2 : cat raw pos (Fin.natAdd 512 (0 : Fin 2)) * W j (Fin.natAdd 512 (0 : Fin 2)) = pos 0 * W j ⟨512, by omega⟩ := rfl
  have h3 : cat raw pos (Fin.natAdd 512 (1 : Fin 2)) * W j (Fin.natAdd 512 (1 : Fin 2)) = pos 1 * W j ⟨513, by omega⟩ := rfl
  show (∑ k : Fin 514, cat raw pos k * W j k) + b j = _
  unfold linSplit
  rw [h, Fin.sum_univ_two, Finset.sum_congr rfl (fun k _ => h1 k), h2, h3]

end Cert.GruRow

end
-- ==== Proof.GruArrays.lean ====
/-
  The row recurrence applied to every row of whole arrays: the common value of both programs' results.  Entry
  `(s, b, j)` of the 12 × 8192 × 2 result is coordinate `j` of the prediction at step `s` of the row recurrence
  started from context row `b` and from the last observed position (time 7) of row `b`, with the weights the entries
  of the weight arrays.
-/
import proofs.«178381_j59072980189901_2_alg».proof.Proof.GruRow
import Idealize.ShloMosaic.Lib.ValueIdx

noncomputable section

namespace Cert.GruRow

open Idealize.ShloMosaic Idealize.ShloMosaic.ValueIdx

/-- Arrays of extended reals of rank one, two and three. -/
abbrev A1 (a : Nat) := (⟨1, ![a]⟩ : Shape).Idx → E
abbrev A2 (a b : Nat) := (⟨2, ![a, b]⟩ : Shape).Idx → E
abbrev A3 (a b c : Nat) := (⟨3, ![a, b, c]⟩ : Shape).Idx → E

/-- The weights as coordinate functions of the fourteen weight arrays. -/
def paramsOf (wih0 : A2 768 514) (whh0 : A2 768 256) (bih0 bhh0 : A1 768)
    (wih1 whh1 : A2 768 256) (bih1 bhh1 : A1 768) (wih2 whh2 : A2 768 256) (bih2 bhh2 : A1 768)
    (fcw : A2 2 256) (fcb : A1 2) : Params where
  wih0 j k := wih0 (ix2 j k)
  whh0 j k := whh0 (ix2 j k)
  bih0 j := bih0 (ix1 j)
  bhh0 j := bhh0 (ix1 j)
  wih1 j k := wih1 (ix2 j k)
  whh1 j k := whh1 (ix2 j k)
  bih1 j := bih1 (ix1 j)
  bhh1 j := bhh1 (ix1 j)
  wih2 j k := wih2 (ix2 j k)
  whh2 j k := whh2 (ix2 j k)
  bih2 j := bih2 (ix1 j)
  bhh2 j := bhh2 (ix1 j)
  fcw j k := fcw (ix2 j k)
  fcb j := fcb (ix1 j)

/-- The whole result as a function of the sixteen argument arrays. -/
def whole (raw : A2 8192 512) (obs : A3 8 8192 2) (wih0 : A2 768 514) (whh0 : A2 768 256) (bih0 bhh0 : A1 768)
    (wih1 whh1 : A2 768 256) (bih1 bhh1 : A1 768) (wih2 whh2 : A2 768 256) (bih2 bhh2 : A1 768)
    (fcw : A2 2 256) (fcb : A1 2) : A3 12 8192 2 := fun i =>
  pred (paramsOf wih0 whh0 bih0 bhh0 wih1 whh1 bih1 bhh1 wih2 whh2 bih2 bhh2 fcw fcb)
    (fun k => raw (ix2 (i 1) k)) (fun k => obs (ix3 (7 : Fin 8) (i 1) k)) (i 0) (i 2)

end Cert.GruRow

end
-- ==== Proof.GruBlock.lean ====
/-
  The kernel's arithmetic on ONE block of 2048 batch rows, written as whole-block operations: three stacked GRU
  cells (gates r, z, n; new state (1 - z) * n + z * h) driven for twelve steps, the position fed back.  The
  first layer's input product is split: the context part `raw · Wctxᵀ` is computed once, and each step adds the
  two position columns times the two remaining weight rows.  The head is two lane sums, one per output column.
  Everything is generic in the float instance; the state carried between steps is kept in the form the body stores
  it (under an identity shape cast).
-/
import proofs.«178381_j59072980189901_2_alg».proof.KernelIdeal

noncomputable section

namespace Cert.KernelIdeal.GruBlock

open Idealize.ShloMosaic Idealize.SL.Sem Cert.KernelIdeal

variable [Facts]
open Facts₀ Facts

variable {F : FTy → Type} [FloatOps F]

/-- A bias vector laid along every row of the block. -/
def biasRows (b : Vec F S768 .f32) : FVec F S2048x768 .f32 :=
  broadcastTo S2048x768 (shapeCast S1x768 b shapeCasts_S768_S1x768) broadcasts_S1x768_S2048x768

/-- `h · W + b` for a 256-wide state block and a 256 × 768 (already transposed) weight matrix. -/
def hidLin (h : FVec F S2048x256 .f32) (W : FVec F S256x768 .bf16) (b : Vec F S768 .f32) : FVec F S2048x768 .f32 :=
  addf (matmul dot_S2048x256_S256x768_S2048x768_1_0_0_1_n_n none (truncf .bf16 h bitsLt_bf16_f32) W
    (constant S2048x768 .f32 0x00000000#32)) (biasRows b)

/-- The GRU gate combination: with `r = σ(gi₀ + gh₀)`, `z = σ(gi₁ + gh₁)`, `n = tanh(gi₂ + r * gh₂)` over the three
    256-wide thirds of the two pre-activations, the new state is `(1 - z) * n + z * h`. -/
def gates (gi gh : FVec F S2048x768 .f32) (h : FVec F S2048x256 .f32) : FVec F S2048x256 .f32 :=
  addf
    (mulf
      (subf (broadcast S2048x256 (Scalar.ofBits .f32 0x3F800000#32))
        (logistic (addf (extractStridedSlice S2048x256 ![0, 256] gi slices_S2048x768_o0_256_S2048x256)
          (extractStridedSlice S2048x256 ![0, 256] gh slices_S2048x768_o0_256_S2048x256))))
      (tanh (addf (extractStridedSlice S2048x256 ![0, 512] gi slices_S2048x768_o0_512_S2048x256)
        (mulf
          (logistic (addf (extractStridedSlice S2048x256 ![0, 0] gi slices_S2048x768_o0_0_S2048x256)
            (extractStridedSlice S2048x256 ![0, 0] gh slices_S2048x768_o0_0_S2048x256)))
          (extractStridedSlice S2048x256 ![0, 512] gh slices_S2048x768_o0_512_S2048x256)))))
    (mulf
      (logistic (addf (extractStridedSlice S2048x256 ![0, 256] gi slices_S2048x768_o0_256_S2048x256)
        (extractStridedSlice S2048x256 ![0, 256] gh slices_S2048x768_o0_256_S2048x256)))
      h)

/-- The first layer's input pre-activation: the context product, plus the two position columns times the two
    position rows of the weights, plus the bias. -/
def posLin (ctx : FVec F S2048x768 .f32) (pos : FVec F S2048x2 .f32) (wpos : FVec F S2x768 .f32) (b : Vec F S768 .f32) :
    FVec F S2048x768 .f32 :=
  addf
    (addf ctx
      (addf
        (mulf
          (broadcastTo S2048x768 (extractStridedSlice S2048x1 ![0, 0] pos slices_S2048x2_o0_0_S2048x1) broadcasts_S2048x1_S2048x768)
          (broadcastTo S2048x768 (extractStridedSlice S1x768 ![0, 0] wpos slices_S2x768_o0_0_S1x768) broadcasts_S1x768_S2048x768))
        (mulf
          (broadcastTo S2048x768 (extractStridedSlice S2048x1 ![0, 1] pos slices_S2048x2_o0_1_S2048x1) broadcasts_S2048x1_S2048x768)
          (broadcastTo S2048x768 (extractStridedSlice S1x768 ![1, 0] wpos slices_S2x768_o1_0_S1x768) broadcasts_S1x768_S2048x768))))
    (biasRows b)

/-- One output column of the head: the lane sum of `h * w` over the 256 hidden units, plus one bias entry. -/
def headCol (h : FVec F S2048x256 .f32) (w : FVec F S1x256 .f32) (b : F .f32) : FVec F S2048x1 .f32 :=
  addf
    (shapeCast S2048x1
      (multiReduction .add [1] S2048 (mulf h (broadcastTo S2048x256 w broadcasts_S1x256_S2048x256)) 0x00000000#32
        reduces_S2048x256_S2048 (.inl rfl) rfl) shapeCasts_S2048_S2048x1)
    (broadcast S2048x1 b)

/-- The head: the two output columns side by side. -/
def head (h : FVec F S2048x256 .f32) (fcw : Vec F S2x256 .f32) (fcb : Vec F S2 .f32) : FVec F S2048x2 .f32 :=
  concatenate S2048x2 1
    [⟨S2048x1, headCol h (extractStridedSlice S1x256 ![0, 0] fcw slices_S2x256_o0_0_S1x256)
        (extractAt ![0] (extractStridedSlice S1 ![0] fcb slices_S2_o0_S1) inpos_S1_p0)⟩,
     ⟨S2048x1, headCol h (extractStridedSlice S1x256 ![1, 0] fcw slices_S2x256_o1_0_S1x256)
        (extractAt ![0] (extractStridedSlice S1 ![1] fcb slices_S2_o1_S1) inpos_S1_p0)⟩]
    concatenates_S2048x1_S2048x1_S2048x2_d1

/-- The operands the body loads once: the block's context rows and starting positions, and the weights. -/
structure Ops (F : FTy → Type) [FloatOps F] where
  raw : Vec F S2048x512 .bf16
  pos0 : Vec F S2048x2 .f32
  wctx : Vec F S512x768 .bf16
  wpos : Vec F S2x768 .f32
  whh0 : Vec F S256x768 .bf16
  bih0 : Vec F S768 .f32
  bhh0 : Vec F S768 .f32
  wih1 : Vec F S256x768 .bf16
  whh1 : Vec F S256x768 .bf16
  bih1 : Vec F S768 .f32
  bhh1 : Vec F S768 .f32
  wih2 : Vec F S256x768 .bf16
  whh2 : Vec F S256x768 .bf16
  bih2 : Vec F S768 .f32
  bhh2 : Vec F S768 .f32
  fcw : Vec F S2x256 .f32
  fcb : Vec F S2 .f32

/-- The context product `raw · Wctxᵀ`, the same at every step. -/
def ctxLin (o : Ops F) : FVec F S2048x768 .f32 :=
  matmul dot_S2048x512_S512x768_S2048x768_1_0_0_1_n_n none
    (shapeCast S2048x512 o.raw shapeCasts_S2048x512_S2048x512) (shapeCast S512x768 o.wctx shapeCasts_S512x768_S512x768)
    (constant S2048x768 .f32 0x00000000#32)

/-- What one step carries to the next: the fed-back position and the three layers' states (as stored). -/
structure St (F : FTy → Type) [FloatOps F] where
  pos : FVec F S2048x2 .f32
  h0 : FVec F S2048x256 .f32
  h1 : FVec F S2048x256 .f32
  h2 : FVec F S2048x256 .f32

/-- The first layer's new state from the carried one. -/
def new0 (o : Ops F) (s : St F) : FVec F S2048x256 .f32 :=
  gates (posLin (ctxLin o) s.pos (shapeCast S2x768 o.wpos shapeCasts_S2x768_S2x768) o.bih0)
    (hidLin s.h0 (shapeCast S256x768 o.whh0 shapeCasts_S256x768_S256x768) o.bhh0) s.h0

/-- The second layer's new state: its input is the first layer's new state. -/
def new1 (o : Ops F) (s : St F) : FVec F S2048x256 .f32 :=
  gates (hidLin (new0 o s) (shapeCast S256x768 o.wih1 shapeCasts_S256x768_S256x768) o.bih1)
    (hidLin s.h1 (shapeCast S256x768 o.whh1 shapeCasts_S256x768_S256x768) o.bhh1) s.h1

/-- The third layer's new state: its input is the second layer's new state. -/
def new2 (o : Ops F) (s : St F) : FVec F S2048x256 .f32 :=
  gates (hidLin (new1 o s) (shapeCast S256x768 o.wih2 shapeCasts_S256x768_S256x768) o.bih2)
    (hidLin s.h2 (shapeCast S256x768 o.whh2 shapeCasts_S256x768_S256x768) o.bhh2) s.h2

/-- One step of the recurrence. -/
def step (o : Ops F) (s : St F) : St F where
  pos := head (new2 o s) o.fcw o.fcb
  h0 := shapeCast S2048x256 (new0 o s) shapeCasts_S2048x256_S2048x256
  h1 := shapeCast S2048x256 (new1 o s) shapeCasts_S2048x256_S2048x256
  h2 := shapeCast S2048x256 (new2 o s) shapeCasts_S2048x256_S2048x256

/-- The all-zero state block every grid point starts from. -/
def zeroState : FVec F S2048x256 .f32 :=
  shapeCast S2048x256 (broadcast S2048x256 (Scalar.ofBits .f32 0x00000000#32)) shapeCasts_S2048x256_S2048x256

/-- The state before the first step. -/
def init (o : Ops F) : St F where
  pos := shapeCast S2048x2 o.pos0 shapeCasts_S2048x2_S2048x2
  h0 := zeroState
  h1 := zeroState
  h2 := zeroState

/-- The state after `n` steps. -/
def after (o : Ops F) : Nat → St F
  | 0 => init o
  | n + 1 => step o (after o n)

/-- One step's prediction as a one-row slab of the output block. -/
def slab (p : FVec F S2048x2 .f32) : FVec F S1x2048x2 .f32 := shapeCast S1x2048x2 p shapeCasts_S2048x2_S1x2048x2

/-- The output block: the twelve predictions stacked along the leading axis. -/
def outBlock (o : Ops F) : FVec F S12x2048x2 .f32 :=
  concatenate S12x2048x2 0
    [⟨S1x2048x2, slab (after o 1).pos⟩, ⟨S1x2048x2, slab (after o 2).pos⟩, ⟨S1x2048x2, slab (after o 3).pos⟩,
     ⟨S1x2048x2, slab (after o 4).pos⟩, ⟨S1x2048x2, slab (after o 5).pos⟩, ⟨S1x2048x2, slab (after o 6).pos⟩,
     ⟨S1x2048x2, slab (after o 7).pos⟩, ⟨S1x2048x2, slab (after o 8).pos⟩, ⟨S1x2048x2, slab (after o 9).pos⟩,
     ⟨S1x2048x2, slab (after o 10).pos⟩, ⟨S1x2048x2, slab (after o 11).pos⟩, ⟨S1x2048x2, slab (after o 12).pos⟩]
    concatenates_S1x2048x2_S1x2048x2_S1x2048x2_S1x2048x2_S1x2048x2_S1x2048x2_S1x2048x2_S1x2048x2_S1x2048x2_S1x2048x2_S1x2048x2_S1x2048x2_S12x2048x2_d0

end Cert.KernelIdeal.GruBlock

end
-- ==== Proof.BlockPiece.lean ====
/-
  What the kernel's body leaves in the output window's buffer at a grid point is the block recurrence's output
  block of the operands it loaded: the body zeroes the three state buffers, loads its seventeen operands, and at each
  of the twelve steps reads each state buffer back exactly as the step before stored it; the one store to the output
  buffer writes the twelve stacked predictions.
-/
import proofs.«178381_j59072980189901_2_alg».proof.Proof.Gen.KernelIdeal.Frame
import proofs.«178381_j59072980189901_2_alg».proof.Proof.GruBlock
import Idealize.ShloMosaic.Lib.Pipeline.Value

set_option maxRecDepth 16384

noncomputable section

namespace Cert.KernelIdeal.BlockPiece

open Idealize.ShloMosaic Idealize.ShloMosaic.TcCoe Idealize.ShloMosaic.Tactic Idealize.SL.Sem Cert.KernelIdeal Cert.KernelIdeal.Gen

variable {F : FTy → Type} [FloatOps F]

/-- The offsets of a whole rank-1 rectangle are the zero function. -/
theorem zeros1 : (![0] : Fin 1 → Nat) = fun _ => 0 := funext fun a => by fin_cases a <;> rfl

/-- The offsets of a whole rank-2 rectangle are the zero function. -/
theorem zeros2 : (![0, 0] : Fin 2 → Nat) = fun _ => 0 := funext fun a => by fin_cases a <;> rfl

/-- The offsets of a whole rank-3 rectangle are the zero function. -/
theorem zeros3 : (![0, 0, 0] : Fin 3 → Nat) = fun _ => 0 := funext fun a => by fin_cases a <;> rfl

/-- The output buffer after the body, whatever the staging memrefs: the block recurrence of the loaded operands. -/
theorem out0_A_17_eq (c : Dev nD) (i : grid0.Coords) (arg1 : Memref sig .tc .vmem S2048x512 .bf16) (harg1 : arg1.IsWhole) (arg2 : Memref sig .tc .vmem S2048x2 .f32) (harg2 : arg2.IsWhole) (arg3 : Memref sig .tc .vmem S512x768 .bf16) (harg3 : arg3.IsWhole) (arg4 : Memref sig .tc .vmem S2x768 .f32) (harg4 : arg4.IsWhole) (arg5 : Memref sig .tc .vmem S256x768 .bf16) (harg5 : arg5.IsWhole) (arg6 : Memref sig .tc .vmem S768 .f32) (harg6 : arg6.IsWhole) (arg7 : Memref sig .tc .vmem S768 .f32) (harg7 : arg7.IsWhole) (arg8 : Memref sig .tc .vmem S256x768 .bf16) (harg8 : arg8.IsWhole) (arg9 : Memref sig .tc .vmem S256x768 .bf16) (harg9 : arg9.IsWhole) (arg10 : Memref sig .tc .vmem S768 .f32) (harg10 : arg10.IsWhole) (arg11 : Memref sig .tc .vmem S768 .f32) (harg11 : arg11.IsWhole) (arg12 : Memref sig .tc .vmem S256x768 .bf16) (harg12 : arg12.IsWhole) (arg13 : Memref sig .tc .vmem S256x768 .bf16) (harg13 : arg13.IsWhole) (arg14 : Memref sig .tc .vmem S768 .f32) (harg14 : arg14.IsWhole) (arg15 : Memref sig .tc .vmem S768 .f32) (harg15 : arg15.IsWhole) (arg16 : Memref sig .tc .vmem S2x256 .f32) (harg16 : arg16.IsWhole) (arg17 : Memref sig .tc .vmem S2 .f32) (harg17 : arg17.IsWhole) (arg18 : Memref sig .tc .vmem S12x2048x2 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2048x256 .f32) (harg21 : arg21.IsWhole)
   (x0 : Vec F S2048x512 .bf16) (x1 : Vec F S2048x2 .f32) (x2 : Vec F S512x768 .bf16) (x3 : Vec F S2x768 .f32) (x4 : Vec F S256x768 .bf16) (x5 : Vec F S768 .f32) (x6 : Vec F S768 .f32) (x7 : Vec F S256x768 .bf16) (x8 : Vec F S256x768 .bf16) (x9 : Vec F S768 .f32) (x10 : Vec F S768 .f32) (x11 : Vec F S256x768 .bf16) (x12 : Vec F S256x768 .bf16) (x13 : Vec F S768 .f32) (x14 : Vec F S768 .f32) (x15 : Vec F S2x256 .f32) (x16 : Vec F S2 .f32) :
    out0_A_17 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16
      = GruBlock.outBlock (F := F) ⟨x0, x1, x2, x3, x4, x5, x6, x7, x8, x9, x10, x11, x12, x13, x14, x15, x16⟩ := by
  -- The buffer is read back through the pieces the body's stores left in it.  There is one store to the output
  -- buffer, through the whole block at zero offsets, so what is read back is that store's payload.
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16)]
  unfold kernelRun0_A
  dsimp only
  sl_unfold_words
  rw [View.canon_unit_zero (S := S12x2048x2) zeros3]
  -- Inside the payload: a load of an operand through its whole rectangle reads the operand itself; a load of a state
  -- buffer through its whole rectangle reads the payload of the LAST store to that buffer, since that store went
  -- through the same rectangle and so overwrote whatever the earlier stores (the zeroing, the earlier steps) left.
  simp only [View.readAt_eq_ld, harg1.read_unread, harg2.read_unread, harg3.read_unread, harg4.read_unread,
    harg5.read_unread, harg6.read_unread, harg7.read_unread, harg8.read_unread, harg9.read_unread, harg10.read_unread,
    harg11.read_unread, harg12.read_unread, harg13.read_unread, harg14.read_unread, harg15.read_unread,
    harg16.read_unread, harg17.read_unread,
    View.ld_unit_zero (S := S2048x512) zeros2, View.ld_unit_zero (S := S2048x2) zeros2,
    View.ld_unit_zero (S := S512x768) zeros2, View.ld_unit_zero (S := S2x768) zeros2,
    View.ld_unit_zero (S := S256x768) zeros2, View.ld_unit_zero (S := S768) zeros1,
    View.ld_unit_zero (S := S2x256) zeros2, View.ld_unit_zero (S := S2) zeros1,
    View.readCov_cons_toLoadRect]
  -- What is left equates two closed compositions of the same whole-block operations on the seventeen operands: on the
  -- left the body's arithmetic, statement by statement, each step's reads of the state replaced by what the step
  -- before stored; on the right the recurrence unrolled twelve times.  Both unfold to the same term (the same
  -- operations in the same order with the same side conditions), so the equation holds by definition.
  sl_kernel_rfl

end Cert.KernelIdeal.BlockPiece

end
-- ==== Proof.BlockRows.lean ====
/-
  Reading the kernel's block recurrence one batch row at a time.  Every whole-block operation of the block
  recurrence acts on each of the 2048 rows separately: a matrix product's row is the sum over the contracted
  index, a bias row is the same in every row, the gates are entrywise on thirds of a row, the head's lane sum is a
  sum along the row.  So row `r` of the block after `n` steps is the row recurrence after `n` steps, started from
  row `r` of the block's operands, with the weights read off the (transposed) weight operands.
-/
import proofs.«178381_j59072980189901_2_alg».proof.Proof.GruBlock
import proofs.«178381_j59072980189901_2_alg».proof.Proof.GruRow
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.BlockRows

open Idealize.ShloMosaic Idealize.ShloMosaic.ValueIdx Cert.KernelIdeal Cert.KernelIdeal.GruBlock

variable [Facts]
open Facts₀ Facts

/-- The row recurrence's weights read off the block's operands: the weight operands are stored transposed, and the
    first layer's 514 input columns are the 512 rows of the context weights followed by the 2 rows of the position
    weights. -/
def params (o : Ops Ideal) : GruRow.Params where
  wih0 j k := if h : k.val < 512 then o.wctx (ix2 (⟨k.val, h⟩ : Fin 512) j) else o.wpos (ix2 (⟨k.val - 512, by omega⟩ : Fin 2) j)
  whh0 j k := o.whh0 (ix2 k j)
  bih0 j := o.bih0 (ix1 j)
  bhh0 j := o.bhh0 (ix1 j)
  wih1 j k := o.wih1 (ix2 k j)
  whh1 j k := o.whh1 (ix2 k j)
  bih1 j := o.bih1 (ix1 j)
  bhh1 j := o.bhh1 (ix1 j)
  wih2 j k := o.wih2 (ix2 k j)
  whh2 j k := o.whh2 (ix2 k j)
  bih2 j := o.bih2 (ix1 j)
  bhh2 j := o.bhh2 (ix1 j)
  fcw j k := o.fcw (ix2 j k)
  fcb j := o.fcb (ix1 j)

/-! ## The two matrix products at an entry

An operand index of a product with one contracted axis: the free axis reads the result index, the contracted axis
the contraction index.  One statement per operand axis, then the product into a zero accumulator as a plain sum. -/

theorem lhs256_0 (i : S2048x768.Idx) (q : dot_S2048x256_S256x768_S2048x768_1_0_0_1_n_n.contr.Idx) :
    (dot_S2048x256_S256x768_S2048x768_1_0_0_1_n_n.lhsIdx i q 0).val = (i 0).val := by
  unfold DotDims.lhsIdx
  rw [dif_neg (show ¬(0 : Fin S2048x256.rank) ∈ dot_S2048x256_S256x768_S2048x768_1_0_0_1_n_n.lhsBatch from List.not_mem_nil),
    dif_pos (show (0 : Fin S2048x256.rank) ∈ dot_S2048x256_S256x768_S2048x768_1_0_0_1_n_n.lhsNonContracting from List.mem_singleton.2 rfl)]
  rfl

theorem lhs256_1 (i : S2048x768.Idx) (q : dot_S2048x256_S256x768_S2048x768_1_0_0_1_n_n.contr.Idx) :
    (dot_S2048x256_S256x768_S2048x768_1_0_0_1_n_n.lhsIdx i q 1).val = (q ⟨0, Nat.lt_of_lt_of_eq Nat.one_pos rfl⟩).val :=
  dot_S2048x256_S256x768_S2048x768_1_0_0_1_n_n.lhsIdx_val_of_single rfl i q

theorem rhs256_0 (i : S2048x768.Idx) (q : dot_S2048x256_S256x768_S2048x768_1_0_0_1_n_n.contr.Idx) :
    (dot_S2048x256_S256x768_S2048x768_1_0_0_1_n_n.rhsIdx i q 0).val = (q ⟨0, Nat.lt_of_lt_of_eq Nat.one_pos rfl⟩).val :=
  dot_S2048x256_S256x768_S2048x768_1_0_0_1_n_n.rhsIdx_val_of_single rfl i q

theorem rhs256_1 (i : S2048x768.Idx) (q : dot_S2048x256_S256x768_S2048x768_1_0_0_1_n_n.contr.Idx) :
    (dot_S2048x256_S256x768_S2048x768_1_0_0_1_n_n.rhsIdx i q 1).val = (i 1).val := by
  unfold DotDims.rhsIdx
  rw [dif_neg (show ¬(1 : Fin S256x768.rank) ∈ dot_S2048x256_S256x768_S2048x768_1_0_0_1_n_n.rhsBatch from List.not_mem_nil),
    dif_pos (show (1 : Fin S256x768.rank) ∈ dot_S2048x256_S256x768_S2048x768_1_0_0_1_n_n.rhsNonContracting from List.mem_singleton.2 rfl)]
  rfl

/-- The 256-deep product into a zero accumulator, at entry `(r, j)`: the sum over the contracted index. -/
theorem matmul256_apply (x : FVec Ideal S2048x256 .bf16) (W : FVec Ideal S256x768 .bf16) (r : Fin 2048) (j : Fin 768) :
    matmul dot_S2048x256_S256x768_S2048x768_1_0_0_1_n_n none x W (constant S2048x768 .f32 0x00000000#32) (ix2 r j)
      = ∑ k : Fin 256, x (ix2 r k) * W (ix2 k j) := by
  simp only [matmul]
  rw [Ideal.matmul_constant_zero_apply,
    ← Equiv.sum_comp (ValueIdx.contrEquiv1 dot_S2048x256_S256x768_S2048x768_1_0_0_1_n_n 256 rfl rfl).symm]
  refine Finset.sum_congr rfl fun k _ => ?_
  have hk := ValueIdx.contrEquiv1_symm_val dot_S2048x256_S256x768_S2048x768_1_0_0_1_n_n 256 rfl rfl k
  have el : dot_S2048x256_S256x768_S2048x768_1_0_0_1_n_n.lhsIdx (ix2 r j)
      ((ValueIdx.contrEquiv1 dot_S2048x256_S256x768_S2048x768_1_0_0_1_n_n 256 rfl rfl).symm k) = ix2 r k :=
    funext fun a => Fin.ext (by
      match a with
      | ⟨0, _⟩ => exact lhs256_0 _ _
      | ⟨1, _⟩ => exact (lhs256_1 _ _).trans hk)
  have er : dot_S2048x256_S256x768_S2048x768_1_0_0_1_n_n.rhsIdx (ix2 r j)
      ((ValueIdx.contrEquiv1 dot_S2048x256_S256x768_S2048x768_1_0_0_1_n_n 256 rfl rfl).symm k) = ix2 k j :=
    funext fun a => Fin.ext (by
      match a with
      | ⟨0, _⟩ => exact (rhs256_0 _ _).trans hk
      | ⟨1, _⟩ => exact rhs256_1 _ _)
  rw [el, er]

theorem lhs512_0 (i : S2048x768.Idx) (q : dot_S2048x512_S512x768_S2048x768_1_0_0_1_n_n.contr.Idx) :
    (dot_S2048x512_S512x768_S2048x768_1_0_0_1_n_n.lhsIdx i q 0).val = (i 0).val := by
  unfold DotDims.lhsIdx
  rw [dif_neg (show ¬(0 : Fin S2048x512.rank) ∈ dot_S2048x512_S512x768_S2048x768_1_0_0_1_n_n.lhsBatch from List.not_mem_nil),
    dif_pos (show (0 : Fin S2048x512.rank) ∈ dot_S2048x512_S512x768_S2048x768_1_0_0_1_n_n.lhsNonContracting from List.mem_singleton.2 rfl)]
  rfl

theorem lhs512_1 (i : S2048x768.Idx) (q : dot_S2048x512_S512x768_S2048x768_1_0_0_1_n_n.contr.Idx) :
    (dot_S2048x512_S512x768_S2048x768_1_0_0_1_n_n.lhsIdx i q 1).val = (q ⟨0, Nat.lt_of_lt_of_eq Nat.one_pos rfl⟩).val :=
  dot_S2048x512_S512x768_S2048x768_1_0_0_1_n_n.lhsIdx_val_of_single rfl i q

theorem rhs512_0 (i : S2048x768.Idx) (q : dot_S2048x512_S512x768_S2048x768_1_0_0_1_n_n.contr.Idx) :
    (dot_S2048x512_S512x768_S2048x768_1_0_0_1_n_n.rhsIdx i q 0).val = (q ⟨0, Nat.lt_of_lt_of_eq Nat.one_pos rfl⟩).val :=
  dot_S2048x512_S512x768_S2048x768_1_0_0_1_n_n.rhsIdx_val_of_single rfl i q

theorem rhs512_1 (i : S2048x768.Idx) (q : dot_S2048x512_S512x768_S2048x768_1_0_0_1_n_n.contr.Idx) :
    (dot_S2048x512_S512x768_S2048x768_1_0_0_1_n_n.rhsIdx i q 1).val = (i 1).val := by
  unfold DotDims.rhsIdx
  rw [dif_neg (show ¬(1 : Fin S512x768.rank) ∈ dot_S2048x512_S512x768_S2048x768_1_0_0_1_n_n.rhsBatch from List.not_mem_nil),
    dif_pos (show (1 : Fin S512x768.rank) ∈ dot_S2048x512_S512x768_S2048x768_1_0_0_1_n_n.rhsNonContracting from List.mem_singleton.2 rfl)]
  rfl

/-- The 512-deep product into a zero accumulator, at entry `(r, j)`: the sum over the contracted index. -/
theorem matmul512_apply (x : FVec Ideal S2048x512 .bf16) (W : FVec Ideal S512x768 .bf16) (r : Fin 2048) (j : Fin 768) :
    matmul dot_S2048x512_S512x768_S2048x768_1_0_0_1_n_n none x W (constant S2048x768 .f32 0x00000000#32) (ix2 r j)
      = ∑ k : Fin 512, x (ix2 r k) * W (ix2 k j) := by
  simp only [matmul]
  rw [Ideal.matmul_constant_zero_apply,
    ← Equiv.sum_comp (ValueIdx.contrEquiv1 dot_S2048x512_S512x768_S2048x768_1_0_0_1_n_n 512 rfl rfl).symm]
  refine Finset.sum_congr rfl fun k _ => ?_
  have hk := ValueIdx.contrEquiv1_symm_val dot_S2048x512_S512x768_S2048x768_1_0_0_1_n_n 512 rfl rfl k
  have el : dot_S2048x512_S512x768_S2048x768_1_0_0_1_n_n.lhsIdx (ix2 r j)
      ((ValueIdx.contrEquiv1 dot_S2048x512_S512x768_S2048x768_1_0_0_1_n_n 512 rfl rfl).symm k) = ix2 r k :=
    funext fun a => Fin.ext (by
      match a with
      | ⟨0, _⟩ => exact lhs512_0 _ _
      | ⟨1, _⟩ => exact (lhs512_1 _ _).trans hk)
  have er : dot_S2048x512_S512x768_S2048x768_1_0_0_1_n_n.rhsIdx (ix2 r j)
      ((ValueIdx.contrEquiv1 dot_S2048x512_S512x768_S2048x768_1_0_0_1_n_n 512 rfl rfl).symm k) = ix2 k j :=
    funext fun a => Fin.ext (by
      match a with
      | ⟨0, _⟩ => exact (rhs512_0 _ _).trans hk
      | ⟨1, _⟩ => exact rhs512_1 _ _)
  rw [el, er]

/-! ## The block operations at an entry -/

/-- A bias row is the same in every row of the block. -/
theorem biasRows_apply (b : Vec Ideal S768 .f32) (r : Fin 2048) (j : Fin 768) :
    biasRows b (ix2 r j) = b (ix1 j) := by
  unfold biasRows
  rw [broadcastTo_1b_ab_apply, shapeCast_a_1a_apply]

/-- `h · W + b` at entry `(r, j)` is the row's linear map. -/
theorem hidLin_apply (h : FVec Ideal S2048x256 .f32) (W : FVec Ideal S256x768 .bf16) (b : Vec Ideal S768 .f32)
    (r : Fin 2048) (j : Fin 768) :
    hidLin h W b (ix2 r j)
      = GruRow.lin (fun j k => W (ix2 k j)) (fun j => b (ix1 j)) (fun k => h (ix2 r k)) j := by
  unfold hidLin
  rw [addf_apply, matmul256_apply, biasRows_apply]
  rfl

/-- The logistic function and the hyperbolic tangent act entrywise. -/
theorem logistic_apply {s : Shape} (x : FVec Ideal s .f32) (i : s.Idx) : logistic x i = Ideal.logistic (x i) := rfl
theorem tanh_apply {s : Shape} (x : FVec Ideal s .f32) (i : s.Idx) : tanh x i = Ideal.tanh (x i) := rfl

/-- The three 256-wide column blocks of a 768-wide block, at an entry. -/
theorem third0_apply (X : FVec Ideal S2048x768 .f32) (r : Fin 2048) (i : Fin 256) :
    extractStridedSlice S2048x256 ![0, 0] X slices_S2048x768_o0_0_S2048x256 (ix2 r i) = X (ix2 r (GruRow.third0 i)) :=
  slice2_axis1_apply 0 X _ r i (GruRow.third0 i) (Nat.zero_add _).symm
theorem third1_apply (X : FVec Ideal S2048x768 .f32) (r : Fin 2048) (i : Fin 256) :
    extractStridedSlice S2048x256 ![0, 256] X slices_S2048x768_o0_256_S2048x256 (ix2 r i) = X (ix2 r (GruRow.third1 i)) :=
  slice2_axis1_apply 256 X _ r i (GruRow.third1 i) (Nat.add_comm _ _)
theorem third2_apply (X : FVec Ideal S2048x768 .f32) (r : Fin 2048) (i : Fin 256) :
    extractStridedSlice S2048x256 ![0, 512] X slices_S2048x768_o0_512_S2048x256 (ix2 r i) = X (ix2 r (GruRow.third2 i)) :=
  slice2_axis1_apply 512 X _ r i (GruRow.third2 i) (Nat.add_comm _ _)

/-- The gate combination is entrywise on the thirds of a row. -/
theorem gates_apply (gi gh : FVec Ideal S2048x768 .f32) (h : FVec Ideal S2048x256 .f32) (r : Fin 2048) (i : Fin 256) :
    gates gi gh h (ix2 r i)
      = GruRow.gates (fun j => gi (ix2 r j)) (fun j => gh (ix2 r j)) (fun k => h (ix2 r k)) i := by
  unfold gates GruRow.gates
  simp only [addf_apply, mulf_apply, subf_apply, logistic_apply, tanh_apply, broadcast_apply,
    third0_apply, third1_apply, third2_apply]
  rfl

/-- One column of a two-column block, laid along every column of a 768-wide block. -/
theorem posCol0_apply (pos : FVec Ideal S2048x2 .f32) (r : Fin 2048) (j : Fin 768) :
    broadcastTo S2048x768 (extractStridedSlice S2048x1 ![0, 0] pos slices_S2048x2_o0_0_S2048x1)
      broadcasts_S2048x1_S2048x768 (ix2 r j) = pos (ix2 r 0) := by
  refine (broadcastTo_apply _ _ (ix2 r j) (ix2 r (0 : Fin 1)) fun ax => ?_).trans
    (slice2_axis1_apply 0 pos _ r (0 : Fin 1) (0 : Fin 2) rfl)
  match ax with
  | ⟨0, _⟩ => rfl
  | ⟨1, _⟩ => rfl
theorem posCol1_apply (pos : FVec Ideal S2048x2 .f32) (r : Fin 2048) (j : Fin 768) :
    broadcastTo S2048x768 (extractStridedSlice S2048x1 ![0, 1] pos slices_S2048x2_o0_1_S2048x1)
      broadcasts_S2048x1_S2048x768 (ix2 r j) = pos (ix2 r 1) := by
  refine (broadcastTo_apply _ _ (ix2 r j) (ix2 r (0 : Fin 1)) fun ax => ?_).trans
    (slice2_axis1_apply 1 pos _ r (0 : Fin 1) (1 : Fin 2) rfl)
  match ax with
  | ⟨0, _⟩ => rfl
  | ⟨1, _⟩ => rfl

/-- One row of a two-row block, laid along every row of the block. -/
theorem wposRow0_apply (wpos : FVec Ideal S2x768 .f32) (r : Fin 2048) (j : Fin 768) :
    broadcastTo S2048x768 (extractStridedSlice S1x768 ![0, 0] wpos slices_S2x768_o0_0_S1x768)
      broadcasts_S1x768_S2048x768 (ix2 r j) = wpos (ix2 0 j) :=
  (broadcastTo_1b_ab_apply _ _ r j).trans (slice2_axis0_apply 0 wpos _ (0 : Fin 1) j (0 : Fin 2) rfl)
theorem wposRow1_apply (wpos : FVec Ideal S2x768 .f32) (r : Fin 2048) (j : Fin 768) :
    broadcastTo S2048x768 (extractStridedSlice S1x768 ![1, 0] wpos slices_S2x768_o1_0_S1x768)
      broadcasts_S1x768_S2048x768 (ix2 r j) = wpos (ix2 1 j) :=
  (broadcastTo_1b_ab_apply _ _ r j).trans (slice2_axis0_apply 1 wpos _ (0 : Fin 1) j (1 : Fin 2) rfl)

/-- The first layer's input pre-activation at entry `(r, j)`. -/
theorem posLin_apply (ctx : FVec Ideal S2048x768 .f32) (pos : FVec Ideal S2048x2 .f32) (wpos : FVec Ideal S2x768 .f32)
    (b : Vec Ideal S768 .f32) (r : Fin 2048) (j : Fin 768) :
    posLin ctx pos wpos b (ix2 r j)
      = (ctx (ix2 r j) + (pos (ix2 r 0) * wpos (ix2 0 j) + pos (ix2 r 1) * wpos (ix2 1 j))) + b (ix1 j) := by
  unfold posLin
  simp only [addf_apply, mulf_apply, posCol0_apply, posCol1_apply, wposRow0_apply, wposRow1_apply, biasRows_apply]

/-- A row's index with the lane coordinate put back. -/
theorem lift_row (r : Fin 2048) (k : Fin 256) :
    reduces_S2048x256_S2048.lift (ix1 r) k = ix2 r k :=
  funext fun c => Fin.ext (by
    match c with
    | ⟨0, _⟩ => rfl
    | ⟨1, _⟩ => rfl)

/-- One output column of the head at row `r`: the lane sum plus the bias entry. -/
theorem headCol_apply (h : FVec Ideal S2048x256 .f32) (w : FVec Ideal S1x256 .f32) (b : Ideal .f32)
    (r : Fin 2048) (c : Fin 1) :
    headCol h w b (ix2 r c) = (∑ k : Fin 256, h (ix2 r k) * w (ix2 0 k)) + b := by
  unfold headCol
  rw [addf_apply, broadcast_apply]
  refine congrArg (· + b) ?_
  refine (shapeCast_apply _ _ (ix2 r c) (ix1 r) (by
    have hc : c.val = 0 := by omega
    rw [Shape.rowMajor_val_one, Shape.rowMajor_val_two]
    show r.val = r.val * 1 + c.val
    rw [hc, Nat.mul_one, Nat.add_zero])).trans ?_
  refine (Ideal.multiReduction_add_single _ _ reduces_S2048x256_S2048 _ _ (ix1 r)).trans ?_
  show (∑ k : Fin 256, mulf h (broadcastTo S2048x256 w broadcasts_S1x256_S2048x256)
    (reduces_S2048x256_S2048.lift (ix1 r) k)) = _
  refine Finset.sum_congr rfl fun k _ => ?_
  rw [lift_row, mulf_apply, broadcastTo_1b_ab_apply]

/-- The two entries of the head's bias. -/
theorem fcb0_apply (fcb : Vec Ideal S2 .f32) :
    extractAt ![0] (extractStridedSlice S1 ![0] fcb slices_S2_o0_S1) inpos_S1_p0 = fcb (ix1 0) :=
  extractStridedSlice_apply _ fcb _ _ (ix1 (0 : Fin 2)) (fun a => by
    match a with
    | ⟨0, _⟩ => rfl)
theorem fcb1_apply (fcb : Vec Ideal S2 .f32) :
    extractAt ![0] (extractStridedSlice S1 ![1] fcb slices_S2_o1_S1) inpos_S1_p0 = fcb (ix1 1) :=
  extractStridedSlice_apply _ fcb _ _ (ix1 (1 : Fin 2)) (fun a => by
    match a with
    | ⟨0, _⟩ => rfl)

/-- The head at entry `(r, j)`: the row's state against row `j` of the head's weights, plus the bias. -/
theorem head_apply (h : FVec Ideal S2048x256 .f32) (fcw : Vec Ideal S2x256 .f32) (fcb : Vec Ideal S2 .f32)
    (r : Fin 2048) (j : Fin 2) :
    head h fcw fcb (ix2 r j) = (∑ k : Fin 256, h (ix2 r k) * fcw (ix2 j k)) + fcb (ix1 j) := by
  unfold head
  match j with
  | ⟨0, _⟩ =>
    refine (concatenate_pair_apply_left (s₁ := S2048x1) (s₂ := S2048x1) (1 : Fin S2048x2.rank) _ _ _ (ix2 r (0 : Fin 2)) rfl (ix2 r (0 : Fin 1))
      (fun b => by
        match b with
        | ⟨0, _⟩ => rfl
        | ⟨1, _⟩ => rfl)).trans ?_
    rw [headCol_apply, fcb0_apply]
    refine congrArg (· + _) (Finset.sum_congr rfl fun k _ => ?_)
    rw [slice2_axis0_apply 0 fcw _ (0 : Fin 1) k (0 : Fin 2) rfl]
    rfl
  | ⟨1, _⟩ =>
    refine (concatenate_pair_apply_right (s₁ := S2048x1) (s₂ := S2048x1) (1 : Fin S2048x2.rank) _ _ _ (ix2 r (1 : Fin 2)) rfl rfl (ix2 r (0 : Fin 1))
      (fun b hb => by
        match b with
        | ⟨0, _⟩ => rfl
        | ⟨1, _⟩ => exact absurd rfl hb) rfl).trans ?_
    rw [headCol_apply, fcb1_apply]
    refine congrArg (· + _) (Finset.sum_congr rfl fun k _ => ?_)
    rw [slice2_axis0_apply 1 fcw _ (0 : Fin 1) k (1 : Fin 2) rfl]
    rfl

/-! ## A block state's rows follow the row recurrence -/

/-- Row `r` of a block state. -/
def rowOf (s : St Ideal) (r : Fin 2048) : GruRow.St :=
  ⟨fun c => s.pos (ix2 r c), fun k => s.h0 (ix2 r k), fun k => s.h1 (ix2 r k), fun k => s.h2 (ix2 r k)⟩

/-- Two row states with the same four components are equal. -/
theorem St_ext {a b : GruRow.St} (hp : a.pos = b.pos) (h0 : a.h0 = b.h0) (h1 : a.h1 = b.h1) (h2 : a.h2 = b.h2) :
    a = b := by
  cases a; cases b
  dsimp only at hp h0 h1 h2
  subst hp h0 h1 h2
  rfl

/-- The first layer's input weights at the 512 context columns and at the two position columns. -/
theorem wih0_ctx (o : Ops Ideal) (j : Fin 768) (k : Fin 512) :
    (params o).wih0 j ⟨k.val, by omega⟩ = o.wctx (ix2 k j) := by
  show (if h : k.val < 512 then o.wctx (ix2 (⟨k.val, h⟩ : Fin 512) j) else _) = _
  rw [dif_pos k.isLt]
theorem wih0_512 (o : Ops Ideal) (j : Fin 768) : (params o).wih0 j ⟨512, by omega⟩ = o.wpos (ix2 0 j) := rfl
theorem wih0_513 (o : Ops Ideal) (j : Fin 768) : (params o).wih0 j ⟨513, by omega⟩ = o.wpos (ix2 1 j) := rfl

/-- The context product at entry `(r, j)`. -/
theorem ctxLin_apply (o : Ops Ideal) (r : Fin 2048) (j : Fin 768) :
    ctxLin o (ix2 r j) = ∑ k : Fin 512, o.raw (ix2 r k) * o.wctx (ix2 k j) := by
  unfold ctxLin
  rw [shapeCast_self, shapeCast_self, matmul512_apply]

/-- Row `r` of the first layer's input pre-activation is the row's linear map of the joined input. -/
theorem posLin_row (o : Ops Ideal) (pos : FVec Ideal S2048x2 .f32) (r : Fin 2048) :
    (fun j => posLin (ctxLin o) pos (shapeCast S2x768 o.wpos shapeCasts_S2x768_S2x768) o.bih0 (ix2 r j))
      = GruRow.lin (params o).wih0 (params o).bih0
          (GruRow.cat (fun k => o.raw (ix2 r k)) (fun c => pos (ix2 r c))) := by
  rw [GruRow.lin_cat]
  funext j
  rw [posLin_apply, ctxLin_apply, shapeCast_self]
  unfold GruRow.linSplit
  simp only [wih0_ctx, wih0_512, wih0_513]
  rfl

/-- Row `r` of a hidden pre-activation is the row's linear map of the row's state. -/
theorem hidLin_row (h : FVec Ideal S2048x256 .f32) (W : Vec Ideal S256x768 .bf16) (b : Vec Ideal S768 .f32) (r : Fin 2048) :
    (fun j => hidLin h (shapeCast S256x768 W shapeCasts_S256x768_S256x768) b (ix2 r j))
      = GruRow.lin (fun j k => W (ix2 k j)) (fun j => b (ix1 j)) (fun k => h (ix2 r k)) := by
  funext j
  rw [hidLin_apply, shapeCast_self]

theorem new0_row (o : Ops Ideal) (s : St Ideal) (r : Fin 2048) :
    (fun i => new0 o s (ix2 r i)) = GruRow.new0 (params o) (fun k => o.raw (ix2 r k)) (rowOf s r) := by
  funext i
  unfold new0
  rw [gates_apply, hidLin_row, posLin_row]
  rfl

theorem new1_row (o : Ops Ideal) (s : St Ideal) (r : Fin 2048) :
    (fun i => new1 o s (ix2 r i)) = GruRow.new1 (params o) (fun k => o.raw (ix2 r k)) (rowOf s r) := by
  funext i
  unfold new1
  rw [gates_apply, hidLin_row, hidLin_row, new0_row]
  rfl

theorem new2_row (o : Ops Ideal) (s : St Ideal) (r : Fin 2048) :
    (fun i => new2 o s (ix2 r i)) = GruRow.new2 (params o) (fun k => o.raw (ix2 r k)) (rowOf s r) := by
  funext i
  unfold new2
  rw [gates_apply, hidLin_row, hidLin_row, new1_row]
  rfl

/-- One block step is one row step on every row. -/
theorem step_row (o : Ops Ideal) (s : St Ideal) (r : Fin 2048) :
    rowOf (step o s) r = GruRow.step (params o) (fun k => o.raw (ix2 r k)) (rowOf s r) := by
  refine St_ext ?_ ?_ ?_ ?_
  · funext c
    show head (new2 o s) o.fcw o.fcb (ix2 r c)
      = GruRow.head (params o) (GruRow.new2 (params o) (fun k => o.raw (ix2 r k)) (rowOf s r)) c
    rw [head_apply, ← new2_row]
    rfl
  · show (fun k => shapeCast S2048x256 (new0 o s) shapeCasts_S2048x256_S2048x256 (ix2 r k)) = _
    rw [shapeCast_self]
    exact new0_row o s r
  · show (fun k => shapeCast S2048x256 (new1 o s) shapeCasts_S2048x256_S2048x256 (ix2 r k)) = _
    rw [shapeCast_self]
    exact new1_row o s r
  · show (fun k => shapeCast S2048x256 (new2 o s) shapeCasts_S2048x256_S2048x256 (ix2 r k)) = _
    rw [shapeCast_self]
    exact new2_row o s r

/-- The block's starting state has the row's starting state on every row. -/
theorem init_row (o : Ops Ideal) (r : Fin 2048) :
    rowOf (init o) r = GruRow.init (fun c => o.pos0 (ix2 r c)) := by
  have hz : (fun k : Fin 256 => zeroState (F := Ideal) (ix2 r k)) = fun _ => GruRow.zero := by
    unfold zeroState
    rw [shapeCast_self]
    rfl
  refine St_ext ?_ hz hz hz
  show (fun c => shapeCast S2048x2 o.pos0 shapeCasts_S2048x2_S2048x2 (ix2 r c)) = _
  rw [shapeCast_self]
  rfl

/-- Row `r` of the block after `n` steps is the row recurrence after `n` steps. -/
theorem after_row (o : Ops Ideal) (r : Fin 2048) : ∀ n : Nat,
    rowOf (after o n) r
      = GruRow.after (params o) (fun k => o.raw (ix2 r k)) (fun c => o.pos0 (ix2 r c)) n
  | 0 => init_row o r
  | n + 1 => by
    show rowOf (step o (after o n)) r
      = GruRow.step (params o) (fun k => o.raw (ix2 r k))
          (GruRow.after (params o) (fun k => o.raw (ix2 r k)) (fun c => o.pos0 (ix2 r c)) n)
    rw [step_row, after_row o r n]

/-! ## The output block -/

/-- A one-row slab reads the prediction it was cast from. -/
theorem slab_apply (p : FVec Ideal S2048x2 .f32) (u : Fin 1) (r : Fin 2048) (j : Fin 2) :
    slab p (ix3 u r j) = p (ix2 r j) :=
  shapeCast_ab_1ab_apply p _ u r j

/-- A stack of one-row slabs along the leading axis, read at `(s, r, j)`: slab number `s` at `(r, j)`. -/
theorem stack_apply (xs : List ((s : Shape) × (s.Idx → Ideal .f32)))
    (h : Shape.Concatenates (xs.map (·.1)) S12x2048x2 0) (k : Nat) (hk : k < xs.length)
    (p : FVec Ideal S2048x2 .f32) (hxk : xs[k] = ⟨S1x2048x2, slab p⟩)
    (hpre : (((xs.take k).map (·.1)).map fun s =>
      if h : s.rank = S12x2048x2.rank then s.size ((0 : Fin S12x2048x2.rank).cast h.symm) else 0).sum = k)
    (s : Fin 12) (hs : s.val = k) (r : Fin 2048) (j : Fin 2) :
    concatenate S12x2048x2 0 xs h (ix3 s r j) = p (ix2 r j) := by
  refine (concatenate_apply_piece (0 : Fin S12x2048x2.rank) xs h (ix3 s r j) k hk S1x2048x2 (slab p) hxk rfl k hpre
    (ix3 (0 : Fin 1) r j) (fun b hb => ?_) ?_).trans (slab_apply p 0 r j)
  · match b with
    | ⟨0, _⟩ => exact absurd rfl hb
    | ⟨1, _⟩ => rfl
    | ⟨2, _⟩ => rfl
  · show k + 0 = s.val
    rw [hs, Nat.add_zero]

/-- Row `r` of the output block: entry `(s, r, j)` is coordinate `j` of the row recurrence's prediction at step `s`. -/
theorem outBlock_apply (o : Ops Ideal) (s : Fin 12) (r : Fin 2048) (j : Fin 2) :
    outBlock o (ix3 s r j)
      = GruRow.pred (params o) (fun k => o.raw (ix2 r k)) (fun k => o.pos0 (ix2 r k)) s j := by
  have key : ∀ n : Nat, (after o n).pos (ix2 r j)
      = (GruRow.after (params o) (fun k => o.raw (ix2 r k)) (fun k => o.pos0 (ix2 r k)) n).pos j :=
    fun n => congrFun (congrArg GruRow.St.pos (after_row o r n)) j
  unfold GruRow.pred
  rw [← key]
  unfold outBlock
  match s with
  | ⟨0, _⟩ => exact stack_apply _ _ 0 (by show (0 : Nat) < 12; omega) _ rfl rfl _ rfl r j
  | ⟨1, _⟩ => exact stack_apply _ _ 1 (by show (1 : Nat) < 12; omega) _ rfl rfl _ rfl r j
  | ⟨2, _⟩ => exact stack_apply _ _ 2 (by show (2 : Nat) < 12; omega) _ rfl rfl _ rfl r j
  | ⟨3, _⟩ => exact stack_apply _ _ 3 (by show (3 : Nat) < 12; omega) _ rfl rfl _ rfl r j
  | ⟨4, _⟩ => exact stack_apply _ _ 4 (by show (4 : Nat) < 12; omega) _ rfl rfl _ rfl r j
  | ⟨5, _⟩ => exact stack_apply _ _ 5 (by show (5 : Nat) < 12; omega) _ rfl rfl _ rfl r j
  | ⟨6, _⟩ => exact stack_apply _ _ 6 (by show (6 : Nat) < 12; omega) _ rfl rfl _ rfl r j
  | ⟨7, _⟩ => exact stack_apply _ _ 7 (by show (7 : Nat) < 12; omega) _ rfl rfl _ rfl r j
  | ⟨8, _⟩ => exact stack_apply _ _ 8 (by show (8 : Nat) < 12; omega) _ rfl rfl _ rfl r j
  | ⟨9, _⟩ => exact stack_apply _ _ 9 (by show (9 : Nat) < 12; omega) _ rfl rfl _ rfl r j
  | ⟨10, _⟩ => exact stack_apply _ _ 10 (by show (10 : Nat) < 12; omega) _ rfl rfl _ rfl r j
  | ⟨11, _⟩ => exact stack_apply _ _ 11 (by show (11 : Nat) < 12; omega) _ rfl rfl _ rfl r j

end Cert.KernelIdeal.BlockRows

end
-- ==== Proof.BlockOperands.lean ====
/-
  The kernel's operands as the arguments.  Before the kernel runs, a few host operations prepare its seventeen
  operands from the sixteen arguments: the context rows change float format (the identity on the extended reals),
  the last observed positions are time 7 of the trajectory with the unit axis dropped, every weight matrix is
  transposed (the first layer's input weights first cut into their 512 context columns and their 2 position
  columns), and the bias vectors and the head's weights go in as they are.  The kernel reads the context and the
  positions in blocks of 2048 batch rows — grid point `t` sees rows `2048 t … 2048 t + 2047` — and every
  other operand whole at every point.  Each lemma below reads one block at an index as an entry of an argument.
-/
import proofs.«178381_j59072980189901_2_alg».proof.Proof.Gen.KernelIdeal.Value
import Idealize.ShloMosaic.Lib.Pipeline.Value
import Idealize.ShloMosaic.Lib.StableHlo.Run
import Idealize.ShloMosaic.Lib.ValueLayout
import Idealize.ShloMosaic.Lib.ValueIdx

set_option maxRecDepth 16384

noncomputable section

namespace Cert.KernelIdeal.BlockOperands

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The windows' arrays as the region finds them, read at an index -/

/-- The context window's array is the context argument (the change of float format is the identity). -/
theorem V_ctx (c : Dev nD) :
    (V m c main_v2 : S8192x512.Idx → EReal) = (m ((c.tc : Thread nD τ).loc main_arg0) : S8192x512.Idx → EReal) := by
  dsimp only [Gen.V, Gen.hostOps0]; after_results; try rfl

/-- The position window's array is time 7 of the observed trajectory. -/
theorem V_pos (c : Dev nD) (b : Fin 8192) (k : Fin 2) :
    (V m c main_v1 : S8192x2.Idx → EReal) (ix2 b k)
      = (m ((c.tc : Thread nD τ).loc main_arg1) : S8x8192x2.Idx → EReal) (ix3 (7 : Fin 8) b k) := by
  have e : (V m c main_v1 : S8192x2.Idx → EReal)
      = shapeCast S8192x2 (extractStridedSlice S1x8192x2 ![7, 0, 0] (m ((c.tc : Thread nD τ).loc main_arg1) : S8x8192x2.Idx → EReal) slices_S8x8192x2_S1x8192x2_7_0_0)
          shapeCasts_S1x8192x2_S8192x2 := by
    dsimp only [Gen.V, Gen.hostOps0]; after_results; try rfl
  rw [e, shapeCast_1ab_ab_apply]
  exact extractStridedSlice_apply _ _ _ _ _ fun a => by
    match a with
    | ⟨0, _⟩ => rfl
    | ⟨1, _⟩ => exact (Nat.zero_add _).symm
    | ⟨2, _⟩ => exact (Nat.zero_add _).symm

/-- The context-weights window's array: the first 512 columns of the first layer's input weights, transposed. -/
theorem V_wctx (c : Dev nD) (k : Fin 512) (j : Fin 768) (k' : Fin 514) (hk : k'.val = k.val) :
    (V m c main_v5 : S512x768.Idx → EReal) (ix2 k j)
      = (m ((c.tc : Thread nD τ).loc main_arg2) : S768x514.Idx → EReal) (ix2 j k') := by
  have e : (V m c main_v5 : S512x768.Idx → EReal)
      = transpose S512x768 [1, 0] (extractStridedSlice S768x512 ![0, 0] (m ((c.tc : Thread nD τ).loc main_arg2) : S768x514.Idx → EReal) slices_S768x514_S768x512_0_0)
          transposes_S768x512_S512x768_1_0 := by
    dsimp only [Gen.V, Gen.hostOps0]; after_results; try rfl
  rw [e, transpose_ix2_apply]
  exact slice2_axis1_apply 0 _ _ j k k' (by omega)

/-- The position-weights window's array: the last 2 columns of the first layer's input weights, transposed. -/
theorem V_wpos (c : Dev nD) (k : Fin 2) (j : Fin 768) (k' : Fin 514) (hk : k'.val = 512 + k.val) :
    (V m c main_v7 : S2x768.Idx → EReal) (ix2 k j)
      = (m ((c.tc : Thread nD τ).loc main_arg2) : S768x514.Idx → EReal) (ix2 j k') := by
  have e : (V m c main_v7 : S2x768.Idx → EReal)
      = transpose S2x768 [1, 0] (extractStridedSlice S768x2 ![0, 512] (m ((c.tc : Thread nD τ).loc main_arg2) : S768x514.Idx → EReal) slices_S768x514_S768x2_0_512)
          transposes_S768x2_S2x768_1_0 := by
    dsimp only [Gen.V, Gen.hostOps0]; after_results; try rfl
  rw [e, transpose_ix2_apply]
  exact slice2_axis1_apply 512 _ _ j k k' hk

/-- A hidden-weights window's array: the weight argument transposed. -/
theorem V_whh0 (c : Dev nD) (k : Fin 256) (j : Fin 768) :
    (V m c main_v9 : S256x768.Idx → EReal) (ix2 k j)
      = (m ((c.tc : Thread nD τ).loc main_arg3) : S768x256.Idx → EReal) (ix2 j k) := by
  have e : (V m c main_v9 : S256x768.Idx → EReal)
      = transpose S256x768 [1, 0] (m ((c.tc : Thread nD τ).loc main_arg3) : S768x256.Idx → EReal) transposes_S768x256_S256x768_1_0 := by
    dsimp only [Gen.V, Gen.hostOps0]; after_results; try rfl
  rw [e]
  exact transpose_ix2_apply _ _ k j

/-- The window of the second layer's input weights: the weight argument transposed. -/
theorem V_wih1 (c : Dev nD) (k : Fin 256) (j : Fin 768) :
    (V m c main_v11 : S256x768.Idx → EReal) (ix2 k j)
      = (m ((c.tc : Thread nD τ).loc main_arg6) : S768x256.Idx → EReal) (ix2 j k) := by
  have e : (V m c main_v11 : S256x768.Idx → EReal)
      = transpose S256x768 [1, 0] (m ((c.tc : Thread nD τ).loc main_arg6) : S768x256.Idx → EReal) transposes_S768x256_S256x768_1_0 := by
    dsimp only [Gen.V, Gen.hostOps0]; after_results; try rfl
  rw [e]
  exact transpose_ix2_apply _ _ k j

/-- The window of the second layer's hidden weights: the weight argument transposed. -/
theorem V_whh1 (c : Dev nD) (k : Fin 256) (j : Fin 768) :
    (V m c main_v13 : S256x768.Idx → EReal) (ix2 k j)
      = (m ((c.tc : Thread nD τ).loc main_arg7) : S768x256.Idx → EReal) (ix2 j k) := by
  have e : (V m c main_v13 : S256x768.Idx → EReal)
      = transpose S256x768 [1, 0] (m ((c.tc : Thread nD τ).loc main_arg7) : S768x256.Idx → EReal) transposes_S768x256_S256x768_1_0 := by
    dsimp only [Gen.V, Gen.hostOps0]; after_results; try rfl
  rw [e]
  exact transpose_ix2_apply _ _ k j

/-- The window of the third layer's input weights: the weight argument transposed. -/
theorem V_wih2 (c : Dev nD) (k : Fin 256) (j : Fin 768) :
    (V m c main_v15 : S256x768.Idx → EReal) (ix2 k j)
      = (m ((c.tc : Thread nD τ).loc main_arg10) : S768x256.Idx → EReal) (ix2 j k) := by
  have e : (V m c main_v15 : S256x768.Idx → EReal)
      = transpose S256x768 [1, 0] (m ((c.tc : Thread nD τ).loc main_arg10) : S768x256.Idx → EReal) transposes_S768x256_S256x768_1_0 := by
    dsimp only [Gen.V, Gen.hostOps0]; after_results; try rfl
  rw [e]
  exact transpose_ix2_apply _ _ k j

/-- The window of the third layer's hidden weights: the weight argument transposed. -/
theorem V_whh2 (c : Dev nD) (k : Fin 256) (j : Fin 768) :
    (V m c main_v17 : S256x768.Idx → EReal) (ix2 k j)
      = (m ((c.tc : Thread nD τ).loc main_arg11) : S768x256.Idx → EReal) (ix2 j k) := by
  have e : (V m c main_v17 : S256x768.Idx → EReal)
      = transpose S256x768 [1, 0] (m ((c.tc : Thread nD τ).loc main_arg11) : S768x256.Idx → EReal) transposes_S768x256_S256x768_1_0 := by
    dsimp only [Gen.V, Gen.hostOps0]; after_results; try rfl
  rw [e]
  exact transpose_ix2_apply _ _ k j

/-! ## The printed index maps over the grid, and each input block read at an index -/

/-- The four grid points. -/
theorem point_lt (t : Fin cfg0.N) : t.val < 4 := by
  have h := t.isLt; have hN : cfg0.N = 4 := N_0; omega

/-- The index maps, decided over the grid: the context, position and output windows move along the batch axis with
    the point; every other window stays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_17.index t (0 : Fin 3) = 0 ∧ win0_17.index t (1 : Fin 3) = t.val ∧ win0_17.index t (2 : Fin 3) = 0 :=
  (by decide +kernel : ∀ t : Fin grid0.N, _)

theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ win0_6.index t (0 : Fin 1) = 0
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 1) = 0
    ∧ win0_10.index t (0 : Fin 1) = 0
    ∧ (win0_11.index t (0 : Fin 2) = 0 ∧ win0_11.index t (1 : Fin 2) = 0)
    ∧ (win0_12.index t (0 : Fin 2) = 0 ∧ win0_12.index t (1 : Fin 2) = 0)
    ∧ win0_13.index t (0 : Fin 1) = 0
    ∧ win0_14.index t (0 : Fin 1) = 0
    ∧ (win0_15.index t (0 : Fin 2) = 0 ∧ win0_15.index t (1 : Fin 2) = 0)
    ∧ win0_16.index t (0 : Fin 1) = 0 :=
  (by decide +kernel : ∀ t : Fin grid0.N, _)

/-- The context block at point `t`: rows `2048 t … 2048 t + 2047` of the context argument. -/
theorem blk_ctx (c : Dev nD) (t : Fin cfg0.N) (r : Fin 2048) (k : Fin 512) (b : Fin 8192) (hb : b.val = 2048 * t.val + r.val) :
    (iblk m c 0 t : Vec Ideal S2048x512 .bf16) (ix2 r k)
      = (m ((c.tc : Thread nD τ).loc main_arg0) : S8192x512.Idx → EReal) (ix2 b k) := by
  obtain ⟨e0, e1, -⟩ := idx_facts t
  unfold iblk
  rw [View.read_apply]
  show (V m c main_v2 : S8192x512.Idx → EReal) _ = _
  rw [V_ctx]
  refine congrArg _ (funext fun a => Fin.ext ?_)
  match a with
  | ⟨0, _⟩ => show win0_0.index t (0 : Fin 2) * 2048 + 1 * r.val = b.val; omega
  | ⟨1, _⟩ => show win0_0.index t (1 : Fin 2) * 512 + 1 * k.val = k.val; omega

/-- The position block at point `t`: rows `2048 t … 2048 t + 2047` of time 7 of the observed trajectory. -/
theorem blk_pos (c : Dev nD) (t : Fin cfg0.N) (r : Fin 2048) (k : Fin 2) (b : Fin 8192) (hb : b.val = 2048 * t.val + r.val) :
    (iblk m c 1 t : Vec Ideal S2048x2 .f32) (ix2 r k)
      = (m ((c.tc : Thread nD τ).loc main_arg1) : S8x8192x2.Idx → EReal) (ix3 (7 : Fin 8) b k) := by
  obtain ⟨-, -, e0, e1, -⟩ := idx_facts t
  unfold iblk
  rw [View.read_apply]
  show (V m c main_v1 : S8192x2.Idx → EReal) _ = _
  rw [← V_pos m c b k]
  refine congrArg _ (funext fun a => Fin.ext ?_)
  match a with
  | ⟨0, _⟩ => show win0_1.index t (0 : Fin 2) * 2048 + 1 * r.val = b.val; omega
  | ⟨1, _⟩ => show win0_1.index t (1 : Fin 2) * 2 + 1 * k.val = k.val; omega

/-- The context-weights block is the whole window: the first 512 columns of the first layer's input weights, transposed. -/
theorem blk_wctx (c : Dev nD) (t : Fin cfg0.N) (k : Fin 512) (j : Fin 768) (k' : Fin 514) (hk : k'.val = k.val) :
    (iblk m c 2 t : Vec Ideal S512x768 .bf16) (ix2 k j) = (m ((c.tc : Thread nD τ).loc main_arg2) : S768x514.Idx → EReal) (ix2 j k') := by
  obtain ⟨⟨e0, e1⟩, -⟩ := idx_whole t
  unfold iblk
  rw [View.read_apply]
  show (V m c main_v5 : S512x768.Idx → EReal) _ = _
  rw [← V_wctx m c k j k' hk]
  refine congrArg _ (funext fun a => Fin.ext ?_)
  match a with
  | ⟨0, _⟩ => show win0_2.index t (0 : Fin 2) * 512 + 1 * k.val = k.val; omega
  | ⟨1, _⟩ => show win0_2.index t (1 : Fin 2) * 768 + 1 * j.val = j.val; omega

/-- The position-weights block is the whole window: the last 2 columns of the first layer's input weights, transposed. -/
theorem blk_wpos (c : Dev nD) (t : Fin cfg0.N) (k : Fin 2) (j : Fin 768) (k' : Fin 514) (hk : k'.val = 512 + k.val) :
    (iblk m c 3 t : Vec Ideal S2x768 .f32) (ix2 k j) = (m ((c.tc : Thread nD τ).loc main_arg2) : S768x514.Idx → EReal) (ix2 j k') := by
  obtain ⟨-, ⟨e0, e1⟩, -⟩ := idx_whole t
  unfold iblk
  rw [View.read_apply]
  show (V m c main_v7 : S2x768.Idx → EReal) _ = _
  rw [← V_wpos m c k j k' hk]
  refine congrArg _ (funext fun a => Fin.ext ?_)
  match a with
  | ⟨0, _⟩ => show win0_3.index t (0 : Fin 2) * 2 + 1 * k.val = k.val; omega
  | ⟨1, _⟩ => show win0_3.index t (1 : Fin 2) * 768 + 1 * j.val = j.val; omega

/-- The block of the first layer's hidden weights is the whole window: the weight argument transposed. -/
theorem blk_whh0 (c : Dev nD) (t : Fin cfg0.N) (k : Fin 256) (j : Fin 768) :
    (iblk m c 4 t : Vec Ideal S256x768 .bf16) (ix2 k j) = (m ((c.tc : Thread nD τ).loc main_arg3) : S768x256.Idx → EReal) (ix2 j k) := by
  obtain ⟨-, -, ⟨e0, e1⟩, -⟩ := idx_whole t
  unfold iblk
  rw [View.read_apply]
  show (V m c main_v9 : S256x768.Idx → EReal) _ = _
  rw [← V_whh0 m c k j]
  refine congrArg _ (funext fun a => Fin.ext ?_)
  match a with
  | ⟨0, _⟩ => show win0_4.index t (0 : Fin 2) * 256 + 1 * k.val = k.val; omega
  | ⟨1, _⟩ => show win0_4.index t (1 : Fin 2) * 768 + 1 * j.val = j.val; omega

/-- The block of the second layer's input weights is the whole window: the weight argument transposed. -/
theorem blk_wih1 (c : Dev nD) (t : Fin cfg0.N) (k : Fin 256) (j : Fin 768) :
    (iblk m c 7 t : Vec Ideal S256x768 .bf16) (ix2 k j) = (m ((c.tc : Thread nD τ).loc main_arg6) : S768x256.Idx → EReal) (ix2 j k) := by
  obtain ⟨-, -, -, -, -, ⟨e0, e1⟩, -⟩ := idx_whole t
  unfold iblk
  rw [View.read_apply]
  show (V m c main_v11 : S256x768.Idx → EReal) _ = _
  rw [← V_wih1 m c k j]
  refine congrArg _ (funext fun a => Fin.ext ?_)
  match a with
  | ⟨0, _⟩ => show win0_7.index t (0 : Fin 2) * 256 + 1 * k.val = k.val; omega
  | ⟨1, _⟩ => show win0_7.index t (1 : Fin 2) * 768 + 1 * j.val = j.val; omega

/-- The block of the second layer's hidden weights is the whole window: the weight argument transposed. -/
theorem blk_whh1 (c : Dev nD) (t : Fin cfg0.N) (k : Fin 256) (j : Fin 768) :
    (iblk m c 8 t : Vec Ideal S256x768 .bf16) (ix2 k j) = (m ((c.tc : Thread nD τ).loc main_arg7) : S768x256.Idx → EReal) (ix2 j k) := by
  obtain ⟨-, -, -, -, -, -, ⟨e0, e1⟩, -⟩ := idx_whole t
  unfold iblk
  rw [View.read_apply]
  show (V m c main_v13 : S256x768.Idx → EReal) _ = _
  rw [← V_whh1 m c k j]
  refine congrArg _ (funext fun a => Fin.ext ?_)
  match a with
  | ⟨0, _⟩ => show win0_8.index t (0 : Fin 2) * 256 + 1 * k.val = k.val; omega
  | ⟨1, _⟩ => show win0_8.index t (1 : Fin 2) * 768 + 1 * j.val = j.val; omega

/-- The block of the third layer's input weights is the whole window: the weight argument transposed. -/
theorem blk_wih2 (c : Dev nD) (t : Fin cfg0.N) (k : Fin 256) (j : Fin 768) :
    (iblk m c 11 t : Vec Ideal S256x768 .bf16) (ix2 k j) = (m ((c.tc : Thread nD τ).loc main_arg10) : S768x256.Idx → EReal) (ix2 j k) := by
  obtain ⟨-, -, -, -, -, -, -, -, -, ⟨e0, e1⟩, -⟩ := idx_whole t
  unfold iblk
  rw [View.read_apply]
  show (V m c main_v15 : S256x768.Idx → EReal) _ = _
  rw [← V_wih2 m c k j]
  refine congrArg _ (funext fun a => Fin.ext ?_)
  match a with
  | ⟨0, _⟩ => show win0_11.index t (0 : Fin 2) * 256 + 1 * k.val = k.val; omega
  | ⟨1, _⟩ => show win0_11.index t (1 : Fin 2) * 768 + 1 * j.val = j.val; omega

/-- The block of the third layer's hidden weights is the whole window: the weight argument transposed. -/
theorem blk_whh2 (c : Dev nD) (t : Fin cfg0.N) (k : Fin 256) (j : Fin 768) :
    (iblk m c 12 t : Vec Ideal S256x768 .bf16) (ix2 k j) = (m ((c.tc : Thread nD τ).loc main_arg11) : S768x256.Idx → EReal) (ix2 j k) := by
  obtain ⟨-, -, -, -, -, -, -, -, -, -, ⟨e0, e1⟩, -⟩ := idx_whole t
  unfold iblk
  rw [View.read_apply]
  show (V m c main_v17 : S256x768.Idx → EReal) _ = _
  rw [← V_whh2 m c k j]
  refine congrArg _ (funext fun a => Fin.ext ?_)
  match a with
  | ⟨0, _⟩ => show win0_12.index t (0 : Fin 2) * 256 + 1 * k.val = k.val; omega
  | ⟨1, _⟩ => show win0_12.index t (1 : Fin 2) * 768 + 1 * j.val = j.val; omega

/-- The block of the first layer's input bias is the whole argument. -/
theorem blk_bih0 (c : Dev nD) (t : Fin cfg0.N) (j : Fin 768) :
    (iblk m c 5 t : Vec Ideal S768 .f32) (ix1 j) = (m ((c.tc : Thread nD τ).loc main_arg4) : S768.Idx → EReal) (ix1 j) := by
  obtain ⟨-, -, -, e0, -⟩ := idx_whole t
  unfold iblk
  rw [View.read_apply]
  show (V m c main_arg4 : S768.Idx → EReal) _ = _
  rw [V_main_arg4]
  refine congrArg _ (funext fun a => Fin.ext ?_)
  match a with
  | ⟨0, _⟩ => show win0_5.index t (0 : Fin 1) * 768 + 1 * j.val = j.val; omega

/-- The block of the first layer's hidden bias is the whole argument. -/
theorem blk_bhh0 (c : Dev nD) (t : Fin cfg0.N) (j : Fin 768) :
    (iblk m c 6 t : Vec Ideal S768 .f32) (ix1 j) = (m ((c.tc : Thread nD τ).loc main_arg5) : S768.Idx → EReal) (ix1 j) := by
  obtain ⟨-, -, -, -, e0, -⟩ := idx_whole t
  unfold iblk
  rw [View.read_apply]
  show (V m c main_arg5 : S768.Idx → EReal) _ = _
  rw [V_main_arg5]
  refine congrArg _ (funext fun a => Fin.ext ?_)
  match a with
  | ⟨0, _⟩ => show win0_6.index t (0 : Fin 1) * 768 + 1 * j.val = j.val; omega

/-- The block of the second layer's input bias is the whole argument. -/
theorem blk_bih1 (c : Dev nD) (t : Fin cfg0.N) (j : Fin 768) :
    (iblk m c 9 t : Vec Ideal S768 .f32) (ix1 j) = (m ((c.tc : Thread nD τ).loc main_arg8) : S768.Idx → EReal) (ix1 j) := by
  obtain ⟨-, -, -, -, -, -, -, e0, -⟩ := idx_whole t
  unfold iblk
  rw [View.read_apply]
  show (V m c main_arg8 : S768.Idx → EReal) _ = _
  rw [V_main_arg8]
  refine congrArg _ (funext fun a => Fin.ext ?_)
  match a with
  | ⟨0, _⟩ => show win0_9.index t (0 : Fin 1) * 768 + 1 * j.val = j.val; omega

/-- The block of the second layer's hidden bias is the whole argument. -/
theorem blk_bhh1 (c : Dev nD) (t : Fin cfg0.N) (j : Fin 768) :
    (iblk m c 10 t : Vec Ideal S768 .f32) (ix1 j) = (m ((c.tc : Thread nD τ).loc main_arg9) : S768.Idx → EReal) (ix1 j) := by
  obtain ⟨-, -, -, -, -, -, -, -, e0, -⟩ := idx_whole t
  unfold iblk
  rw [View.read_apply]
  show (V m c main_arg9 : S768.Idx → EReal) _ = _
  rw [V_main_arg9]
  refine congrArg _ (funext fun a => Fin.ext ?_)
  match a with
  | ⟨0, _⟩ => show win0_10.index t (0 : Fin 1) * 768 + 1 * j.val = j.val; omega

/-- The block of the third layer's input bias is the whole argument. -/
theorem blk_bih2 (c : Dev nD) (t : Fin cfg0.N) (j : Fin 768) :
    (iblk m c 13 t : Vec Ideal S768 .f32) (ix1 j) = (m ((c.tc : Thread nD τ).loc main_arg12) : S768.Idx → EReal) (ix1 j) := by
  obtain ⟨-, -, -, -, -, -, -, -, -, -, -, e0, -⟩ := idx_whole t
  unfold iblk
  rw [View.read_apply]
  show (V m c main_arg12 : S768.Idx → EReal) _ = _
  rw [V_main_arg12]
  refine congrArg _ (funext fun a => Fin.ext ?_)
  match a with
  | ⟨0, _⟩ => show win0_13.index t (0 : Fin 1) * 768 + 1 * j.val = j.val; omega

/-- The block of the third layer's hidden bias is the whole argument. -/
theorem blk_bhh2 (c : Dev nD) (t : Fin cfg0.N) (j : Fin 768) :
    (iblk m c 14 t : Vec Ideal S768 .f32) (ix1 j) = (m ((c.tc : Thread nD τ).loc main_arg13) : S768.Idx → EReal) (ix1 j) := by
  obtain ⟨-, -, -, -, -, -, -, -, -, -, -, -, e0, -⟩ := idx_whole t
  unfold iblk
  rw [View.read_apply]
  show (V m c main_arg13 : S768.Idx → EReal) _ = _
  rw [V_main_arg13]
  refine congrArg _ (funext fun a => Fin.ext ?_)
  match a with
  | ⟨0, _⟩ => show win0_14.index t (0 : Fin 1) * 768 + 1 * j.val = j.val; omega

/-- The block of the head's weights is the whole argument. -/
theorem blk_fcw (c : Dev nD) (t : Fin cfg0.N) (j : Fin 2) (k : Fin 256) :
    (iblk m c 15 t : Vec Ideal S2x256 .f32) (ix2 j k) = (m ((c.tc : Thread nD τ).loc main_arg14) : S2x256.Idx → EReal) (ix2 j k) := by
  obtain ⟨-, -, -, -, -, -, -, -, -, -, -, -, -, ⟨e0, e1⟩, -⟩ := idx_whole t
  unfold iblk
  rw [View.read_apply]
  show (V m c main_arg14 : S2x256.Idx → EReal) _ = _
  rw [V_main_arg14]
  refine congrArg _ (funext fun a => Fin.ext ?_)
  match a with
  | ⟨0, _⟩ => show win0_15.index t (0 : Fin 2) * 2 + 1 * j.val = j.val; omega
  | ⟨1, _⟩ => show win0_15.index t (1 : Fin 2) * 256 + 1 * k.val = k.val; omega

/-- The block of the head's bias is the whole argument. -/
theorem blk_fcb (c : Dev nD) (t : Fin cfg0.N) (j : Fin 2) :
    (iblk m c 16 t : Vec Ideal S2 .f32) (ix1 j) = (m ((c.tc : Thread nD τ).loc main_arg15) : S2.Idx → EReal) (ix1 j) := by
  obtain ⟨-, -, -, -, -, -, -, -, -, -, -, -, -, -, e0⟩ := idx_whole t
  unfold iblk
  rw [View.read_apply]
  show (V m c main_arg15 : S2.Idx → EReal) _ = _
  rw [V_main_arg15]
  refine congrArg _ (funext fun a => Fin.ext ?_)
  match a with
  | ⟨0, _⟩ => show win0_16.index t (0 : Fin 1) * 2 + 1 * j.val = j.val; omega

end Cert.KernelIdeal.BlockOperands

end
-- ==== Proof.BlockParams.lean ====
/-
  The weights the block recurrence uses are the weight arguments.  The block recurrence reads its weights off
  the kernel's transposed weight operands; the operands a grid point loads are the windows' blocks, which are the
  arguments transposed back (the first layer's 514 input columns split into the 512 context columns and the 2
  position columns), so the weights are the arguments' entries, the same at every grid point.
-/
import proofs.«178381_j59072980189901_2_alg».proof.Proof.BlockOperands
import proofs.«178381_j59072980189901_2_alg».proof.Proof.BlockRows
import proofs.«178381_j59072980189901_2_alg».proof.Proof.GruArrays

set_option maxRecDepth 16384

noncomputable section

namespace Cert.KernelIdeal.BlockParams

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The operands grid point `t` loads: the seventeen input windows' blocks. -/
abbrev opsAt (c : Dev nD) (t : Fin cfg0.N) : GruBlock.Ops Ideal :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩

/-- Two weight records with the same fourteen components are equal. -/
theorem Params_ext {a b : GruRow.Params}
    (e1 : a.wih0 = b.wih0) (e2 : a.whh0 = b.whh0) (e3 : a.bih0 = b.bih0) (e4 : a.bhh0 = b.bhh0)
    (e5 : a.wih1 = b.wih1) (e6 : a.whh1 = b.whh1) (e7 : a.bih1 = b.bih1) (e8 : a.bhh1 = b.bhh1)
    (e9 : a.wih2 = b.wih2) (e10 : a.whh2 = b.whh2) (e11 : a.bih2 = b.bih2) (e12 : a.bhh2 = b.bhh2)
    (e13 : a.fcw = b.fcw) (e14 : a.fcb = b.fcb) : a = b := by
  cases a; cases b
  dsimp only at e1 e2 e3 e4 e5 e6 e7 e8 e9 e10 e11 e12 e13 e14
  subst e1 e2 e3 e4 e5 e6 e7 e8 e9 e10 e11 e12 e13 e14
  rfl

/-- The weight records of the two sides. -/
abbrev blockParams (c : Dev nD) (t : Fin cfg0.N) : GruRow.Params := BlockRows.params (opsAt m c t)
abbrev argParams (c : Dev nD) : GruRow.Params :=
  GruRow.paramsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-! Component by component: each weight the block recurrence reads is the weight argument's entry. -/

theorem wih0_eq (c : Dev nD) (t : Fin cfg0.N) : (blockParams m c t).wih0 = (argParams m c).wih0 := by
  funext j k
  show (if h : k.val < 512 then (opsAt m c t).wctx (ix2 (⟨k.val, h⟩ : Fin 512) j)
    else (opsAt m c t).wpos (ix2 (⟨k.val - 512, by omega⟩ : Fin 2) j)) = _
  by_cases h : k.val < 512
  · rw [dif_pos h]
    exact BlockOperands.blk_wctx m c t ⟨k.val, h⟩ j k rfl
  · rw [dif_neg h]
    exact BlockOperands.blk_wpos m c t ⟨k.val - 512, by omega⟩ j k (by show k.val = 512 + (k.val - 512); omega)
theorem whh0_eq (c : Dev nD) (t : Fin cfg0.N) : (blockParams m c t).whh0 = (argParams m c).whh0 := by
  funext j k; exact BlockOperands.blk_whh0 m c t k j
theorem bih0_eq (c : Dev nD) (t : Fin cfg0.N) : (blockParams m c t).bih0 = (argParams m c).bih0 := by
  funext j; exact BlockOperands.blk_bih0 m c t j
theorem bhh0_eq (c : Dev nD) (t : Fin cfg0.N) : (blockParams m c t).bhh0 = (argParams m c).bhh0 := by
  funext j; exact BlockOperands.blk_bhh0 m c t j
theorem wih1_eq (c : Dev nD) (t : Fin cfg0.N) : (blockParams m c t).wih1 = (argParams m c).wih1 := by
  funext j k; exact BlockOperands.blk_wih1 m c t k j
theorem whh1_eq (c : Dev nD) (t : Fin cfg0.N) : (blockParams m c t).whh1 = (argParams m c).whh1 := by
  funext j k; exact BlockOperands.blk_whh1 m c t k j
theorem bih1_eq (c : Dev nD) (t : Fin cfg0.N) : (blockParams m c t).bih1 = (argParams m c).bih1 := by
  funext j; exact BlockOperands.blk_bih1 m c t j
theorem bhh1_eq (c : Dev nD) (t : Fin cfg0.N) : (blockParams m c t).bhh1 = (argParams m c).bhh1 := by
  funext j; exact BlockOperands.blk_bhh1 m c t j
theorem wih2_eq (c : Dev nD) (t : Fin cfg0.N) : (blockParams m c t).wih2 = (argParams m c).wih2 := by
  funext j k; exact BlockOperands.blk_wih2 m c t k j
theorem whh2_eq (c : Dev nD) (t : Fin cfg0.N) : (blockParams m c t).whh2 = (argParams m c).whh2 := by
  funext j k; exact BlockOperands.blk_whh2 m c t k j
theorem bih2_eq (c : Dev nD) (t : Fin cfg0.N) : (blockParams m c t).bih2 = (argParams m c).bih2 := by
  funext j; exact BlockOperands.blk_bih2 m c t j
theorem bhh2_eq (c : Dev nD) (t : Fin cfg0.N) : (blockParams m c t).bhh2 = (argParams m c).bhh2 := by
  funext j; exact BlockOperands.blk_bhh2 m c t j
theorem fcw_eq (c : Dev nD) (t : Fin cfg0.N) : (blockParams m c t).fcw = (argParams m c).fcw := by
  funext j k; exact BlockOperands.blk_fcw m c t j k
theorem fcb_eq (c : Dev nD) (t : Fin cfg0.N) : (blockParams m c t).fcb = (argParams m c).fcb := by
  funext j; exact BlockOperands.blk_fcb m c t j

/-- The weights read off the operands of any grid point are the entries of the weight arguments. -/
theorem params_eq (c : Dev nD) (t : Fin cfg0.N) :
    BlockRows.params (opsAt m c t)
      = GruRow.paramsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  exact Params_ext (wih0_eq m c t) (whh0_eq m c t) (bih0_eq m c t) (bhh0_eq m c t) (wih1_eq m c t) (whh1_eq m c t)
    (bih1_eq m c t) (bhh1_eq m c t) (wih2_eq m c t) (whh2_eq m c t) (bih2_eq m c t) (bhh2_eq m c t) (fcw_eq m c t)
    (fcb_eq m c t)

end Cert.KernelIdeal.BlockParams

end
-- ==== Proof.BlockArrays.lean ====
/-
  From blocks to the whole result.  The sixteen arguments reach the kernel through a few host operations — the last
  time slice of the observed trajectory, the transposes of the weight matrices (the first layer's input weights cut
  into their 512 context columns and 2 position columns), changes of float format that are the identity on the
  extended reals — and are then read in blocks: grid point `t` sees rows `2048 t … 2048 t + 2047` of the context
  and of the last observed positions, and every weight whole.  What point `t` writes back is the output block of
  the block recurrence, whose row `r` is the row recurrence of batch row `2048 t + r`; the four blocks tile the
  result along its batch axis, so the whole result is the row recurrence applied to every batch row.
-/
import proofs.«178381_j59072980189901_2_alg».proof.Proof.Gen.KernelIdeal.Value
import proofs.«178381_j59072980189901_2_alg».proof.Proof.BlockPiece
import proofs.«178381_j59072980189901_2_alg».proof.Proof.BlockRows
import proofs.«178381_j59072980189901_2_alg».proof.Proof.GruArrays
import proofs.«178381_j59072980189901_2_alg».proof.Proof.BlockOperands
import proofs.«178381_j59072980189901_2_alg».proof.Proof.BlockParams
import Idealize.ShloMosaic.Lib.Pipeline.Value
import Idealize.ShloMosaic.Lib.StableHlo.Run

set_option maxRecDepth 16384

noncomputable section

namespace Cert.KernelIdeal.BlockArrays

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.BlockOperands Cert.KernelIdeal.BlockParams

variable (m : (ℓ : Loc nD τ sig) → Buf (Elt Ideal) ℓ) (ρ : Dev nD → PrngReg)

/-- Entry `(s, r, j)` of the output block of grid point `t` is the entry of the whole result at step `s`, batch row
    `2048 t + r`, coordinate `j`: the block's row `r` runs the row recurrence on row `2048 t + r` of the context and of
    the last observed positions, with the weight arguments' entries as weights. -/
theorem outBlock_entry (c : Dev nD) (t : Fin cfg0.N) (s : Fin 12) (r : Fin 2048) (j : Fin 2) (i : S12x8192x2.Idx)
    (h0 : (i 0).val = s.val) (h1 : (i 1).val = 2048 * t.val + r.val) (h2 : (i 2).val = j.val) :
    GruBlock.outBlock (opsAt m c t) (ix3 s r j)
      = GruRow.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) i := by
  rw [BlockRows.outBlock_apply, params_eq]
  have e0 : s = i 0 := Fin.ext h0.symm
  have e2 : j = i 2 := Fin.ext h2.symm
  have hraw : (fun k => (opsAt m c t).raw (ix2 r k)) = fun k => (m ((c.tc : Thread nD τ).loc main_arg0) : S8192x512.Idx → EReal) (ix2 (i 1) k) :=
    funext fun k => blk_ctx m c t r k (i 1) h1
  have hpos : (fun k => (opsAt m c t).pos0 (ix2 r k)) = fun k => (m ((c.tc : Thread nD τ).loc main_arg1) : S8x8192x2.Idx → EReal) (ix3 (7 : Fin 8) (i 1) k) :=
    funext fun k => blk_pos m c t r k (i 1) h1
  rw [hraw, hpos, e0, e2]
  rfl

/-- What grid point `t` writes back is block `t` of the whole result. -/
theorem flushed_eq (c : Dev nD) (t : Fin cfg0.N) :
    (dats m 0 c).flushed 17 t
      = ((cfg0.win 17).blk t).view.read (Elt Ideal) (GruRow.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  rw [Value.flushed17_A, BlockPiece.out0_A_17_eq]
  obtain ⟨-, -, -, -, e0, e1, e2⟩ := idx_facts t
  funext y
  rw [View.read_apply]
  show GruBlock.outBlock (opsAt m c t) (y : S12x2048x2.Idx) = GruRow.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (((cfg0.win 17).blk t).view.emb y)
  refine (congrArg (GruBlock.outBlock (opsAt m c t)) (eq_ix3 (y : S12x2048x2.Idx))).trans ?_
  refine outBlock_entry m c t (y 0) (y 1) (y 2) _ ?_ ?_ ?_
  · show win0_17.index t (0 : Fin 3) * 12 + 1 * (y 0).val = (y 0).val; omega
  · show win0_17.index t (1 : Fin 3) * 2048 + 1 * (y 1).val = 2048 * t.val + (y 1).val; omega
  · show win0_17.index t (2 : Fin 3) * 2 + 1 * (y 2).val = (y 2).val; omega

/-- An index of the result lies in point `t`'s block iff each coordinate lies in the block's range on its axis. -/
theorem mem_blk (t : Fin cfg0.N) (i : S12x8192x2.Idx) :
    i ∈ ((cfg0.win 17).blk t).view.set ↔ ∀ a : Fin 3, win0_17.index t a * S12x2048x2.size a ≤ (i a).val ∧ (i a).val < win0_17.index t a * S12x2048x2.size a + S12x2048x2.size a := by
  show i ∈ ((View.whole main_v18).slice (win0_17.rect t)).set ↔ _
  rw [View.set_slice_whole, Rect.mem_set_unit]
  exact Iff.rfl

/-- The four blocks tile the result along its batch axis: batch row `b` lies in the block of point `b / 2048`. -/
theorem cover (i : S12x8192x2.Idx) :
    ∃ t : Fin cfg0.N, (cfg0.win 17).flush t = true ∧ i ∈ ((cfg0.win 17).blk t).view.set := by
  have h0 : (i 0).val < 12 := (i 0).isLt
  have h1 : (i 1).val < 8192 := (i 1).isLt
  have h2 : (i 2).val < 2 := (i 2).isLt
  have hN : cfg0.N = 4 := N_0
  obtain ⟨t, ht⟩ : ∃ t : Fin cfg0.N, t.val = (i 1).val / 2048 := ⟨⟨(i 1).val / 2048, by omega⟩, rfl⟩
  obtain ⟨-, -, -, -, e0, e1, e2⟩ := idx_facts t
  refine ⟨t, flush0_17 t, ?_⟩
  rw [mem_blk]
  intro a
  match a with
  | ⟨0, _⟩ => show win0_17.index t (0 : Fin 3) * 12 ≤ (i 0).val ∧ (i 0).val < win0_17.index t (0 : Fin 3) * 12 + 12; omega
  | ⟨1, _⟩ => show win0_17.index t (1 : Fin 3) * 2048 ≤ (i 1).val ∧ (i 1).val < win0_17.index t (1 : Fin 3) * 2048 + 2048; omega
  | ⟨2, _⟩ => show win0_17.index t (2 : Fin 3) * 2 ≤ (i 2).val ∧ (i 2).val < win0_17.index t (2 : Fin 3) * 2 + 2; omega

/-- The result array after the run is the row recurrence applied to every batch row of the arguments. -/
theorem final17 (c : Dev nD) :
    (dats m 0 c).arrAt 17 cfg0.N
      = GruRow.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (dats m 0 c).arrAt_eq_of_cover 17 (GruRow.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))
    (fun t _ => flushed_eq m c t) cover

/-- Every weakly fair execution of the idealized kernel program terminates with its result the row recurrence
    applied to every batch row of the arguments, and the arguments unchanged. -/
theorem run : θ_run defs (onTc (τ := τ) (main (F := Ideal))) ⟨m, fun _ => 0, ρ⟩ fun r => ∀ c : Dev nD,
      r.2.mem ((c.tc : Thread nD τ).loc main_v18)
        = GruRow.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨(h c).1.trans (final17 m c), (h c).2⟩) (Value.run_blocks m ρ)

end Cert.KernelIdeal.BlockArrays

end
-- ==== Proof.GruWhole.lean ====
/-
  The reference's arithmetic on the WHOLE batch of 8192 rows, written as whole-array operations: at every step the
  input of the first GRU cell is the context joined with the fed-back position along the feature axis, each cell's
  two pre-activations are `x · Wᵀ + b` with the weights transposed on the spot, the logistic function is spelt
  `1 / (1 + exp (-x))`, and the head is `h · fc_wᵀ + fc_b`.  Twelve steps, the predictions stacked.
-/
import proofs.«178381_j59072980189901_2_alg».proof.ReferenceIdeal

noncomputable section

namespace Cert.ReferenceIdeal.GruWhole

open Idealize.ShloMosaic Idealize.SL.Sem Cert.ReferenceIdeal

variable {F : FTy → Type} [FloatOps F]
variable [Facts]
open Facts₀ Facts

/-- A bias vector laid along every row of the batch. -/
def biasRows (b : FVec F S768 .f32) : FVec F S8192x768 .f32 :=
  broadcastInDim S8192x768 ![0, 1] bcast_S1x768_S8192x768_0_1 (broadcastInDim S1x768 ![1] bcast_S768_S1x768_1 b)

/-- `h · Wᵀ + b` for a 256-wide state and a 768 × 256 weight matrix. -/
def hidLin (h : FVec F S8192x256 .f32) (W : FVec F S768x256 .f32) (b : FVec F S768 .f32) : FVec F S8192x768 .f32 :=
  addf (Host.dotGeneral dot_S8192x256_S256x768_S8192x768_1_0_0_1_n_n none h
    (transpose S256x768 [1, 0] W transposes_S768x256_S256x768_1_0)) (biasRows b)

/-- The constant one, as an array. -/
def ones : FVec F S8192x256 .f32 := broadcastInDim S8192x256 ![] bcast_S_S8192x256 (constant S_ .f32 0x3F800000#32)

/-- The logistic function spelt out: `1 / (1 + exp (-x))`. -/
def sig (x : FVec F S8192x256 .f32) : FVec F S8192x256 .f32 :=
  Host.divf ones (addf ones (Host.exp (Host.negf x)))

/-- The GRU gate combination (see the kernel side's `gates`): `(1 - z) * n + z * h`. -/
def gates (gi gh : FVec F S8192x768 .f32) (h : FVec F S8192x256 .f32) : FVec F S8192x256 .f32 :=
  addf
    (mulf
      (subf ones
        (sig (addf (extractStridedSlice S8192x256 ![0, 256] gi slices_S8192x768_S8192x256_0_256)
          (extractStridedSlice S8192x256 ![0, 256] gh slices_S8192x768_S8192x256_0_256))))
      (Host.tanh (addf (extractStridedSlice S8192x256 ![0, 512] gi slices_S8192x768_S8192x256_0_512)
        (mulf
          (sig (addf (extractStridedSlice S8192x256 ![0, 0] gi slices_S8192x768_S8192x256_0_0)
            (extractStridedSlice S8192x256 ![0, 0] gh slices_S8192x768_S8192x256_0_0)))
          (extractStridedSlice S8192x256 ![0, 512] gh slices_S8192x768_S8192x256_0_512)))))
    (mulf
      (sig (addf (extractStridedSlice S8192x256 ![0, 256] gi slices_S8192x768_S8192x256_0_256)
        (extractStridedSlice S8192x256 ![0, 256] gh slices_S8192x768_S8192x256_0_256)))
      h)

/-- The first layer's input pre-activation: `[raw | pos] · Wih0ᵀ + bih0`. -/
def catLin (raw : FVec F S8192x512 .f32) (pos : FVec F S8192x2 .f32) (W : FVec F S768x514 .f32) (b : FVec F S768 .f32) :
    FVec F S8192x768 .f32 :=
  addf (Host.dotGeneral dot_S8192x514_S514x768_S8192x768_1_0_0_1_n_n none
    (concatenate S8192x514 1 [⟨S8192x512, raw⟩, ⟨S8192x2, pos⟩] concatenates_S8192x512_S8192x2_S8192x514_d1)
    (transpose S514x768 [1, 0] W transposes_S768x514_S514x768_1_0)) (biasRows b)

/-- The head: `h · fc_wᵀ + fc_b`. -/
def head (h : FVec F S8192x256 .f32) (fcw : FVec F S2x256 .f32) (fcb : FVec F S2 .f32) : FVec F S8192x2 .f32 :=
  addf (Host.dotGeneral dot_S8192x256_S256x2_S8192x2_1_0_0_1_n_n none h
    (transpose S256x2 [1, 0] fcw transposes_S2x256_S256x2_1_0))
    (broadcastInDim S8192x2 ![0, 1] bcast_S1x2_S8192x2_0_1 (broadcastInDim S1x2 ![1] bcast_S2_S1x2_1 fcb))

/-- The program's sixteen arguments. -/
structure Args (F : FTy → Type) [FloatOps F] where
  raw : FVec F S8192x512 .f32
  obs : FVec F S8x8192x2 .f32
  wih0 : FVec F S768x514 .f32
  whh0 : FVec F S768x256 .f32
  bih0 : FVec F S768 .f32
  bhh0 : FVec F S768 .f32
  wih1 : FVec F S768x256 .f32
  whh1 : FVec F S768x256 .f32
  bih1 : FVec F S768 .f32
  bhh1 : FVec F S768 .f32
  wih2 : FVec F S768x256 .f32
  whh2 : FVec F S768x256 .f32
  bih2 : FVec F S768 .f32
  bhh2 : FVec F S768 .f32
  fcw : FVec F S2x256 .f32
  fcb : FVec F S2 .f32

/-- What one step carries to the next. -/
structure St (F : FTy → Type) [FloatOps F] where
  pos : FVec F S8192x2 .f32
  h0 : FVec F S8192x256 .f32
  h1 : FVec F S8192x256 .f32
  h2 : FVec F S8192x256 .f32

def new0 (a : Args F) (s : St F) : FVec F S8192x256 .f32 :=
  gates (catLin a.raw s.pos a.wih0 a.bih0) (hidLin s.h0 a.whh0 a.bhh0) s.h0

def new1 (a : Args F) (s : St F) : FVec F S8192x256 .f32 :=
  gates (hidLin (new0 a s) a.wih1 a.bih1) (hidLin s.h1 a.whh1 a.bhh1) s.h1

def new2 (a : Args F) (s : St F) : FVec F S8192x256 .f32 :=
  gates (hidLin (new1 a s) a.wih2 a.bih2) (hidLin s.h2 a.whh2 a.bhh2) s.h2

/-- One step of the recurrence. -/
def step (a : Args F) (s : St F) : St F where
  pos := head (new2 a s) a.fcw a.fcb
  h0 := new0 a s
  h1 := new1 a s
  h2 := new2 a s

/-- The all-zero state. -/
def zeroState : FVec F S8192x256 .f32 := broadcastInDim S8192x256 ![] bcast_S_S8192x256 (constant S_ .f32 0x00000000#32)

/-- The last observed position: time 7 of the observed trajectory. -/
def lastObs (obs : FVec F S8x8192x2 .f32) : FVec F S8192x2 .f32 :=
  shapeCast S8192x2 (extractStridedSlice S1x8192x2 ![7, 0, 0] obs slices_S8x8192x2_S1x8192x2_7_0_0) shapeCasts_S1x8192x2_S8192x2

def init (a : Args F) : St F where
  pos := lastObs a.obs
  h0 := zeroState
  h1 := zeroState
  h2 := zeroState

/-- The state after `n` steps. -/
def after (a : Args F) : Nat → St F
  | 0 => init a
  | n + 1 => step a (after a n)

/-- One step's prediction as a one-row slab of the result. -/
def slab (p : FVec F S8192x2 .f32) : FVec F S1x8192x2 .f32 := broadcastInDim S1x8192x2 ![1, 2] bcast_S8192x2_S1x8192x2_1_2 p

/-- The result: the twelve predictions stacked along the leading axis. -/
def result (a : Args F) : FVec F S12x8192x2 .f32 :=
  concatenate S12x8192x2 0
    [⟨S1x8192x2, slab (after a 1).pos⟩, ⟨S1x8192x2, slab (after a 2).pos⟩, ⟨S1x8192x2, slab (after a 3).pos⟩,
     ⟨S1x8192x2, slab (after a 4).pos⟩, ⟨S1x8192x2, slab (after a 5).pos⟩, ⟨S1x8192x2, slab (after a 6).pos⟩,
     ⟨S1x8192x2, slab (after a 7).pos⟩, ⟨S1x8192x2, slab (after a 8).pos⟩, ⟨S1x8192x2, slab (after a 9).pos⟩,
     ⟨S1x8192x2, slab (after a 10).pos⟩, ⟨S1x8192x2, slab (after a 11).pos⟩, ⟨S1x8192x2, slab (after a 12).pos⟩]
    concatenates_S1x8192x2_S1x8192x2_S1x8192x2_S1x8192x2_S1x8192x2_S1x8192x2_S1x8192x2_S1x8192x2_S1x8192x2_S1x8192x2_S1x8192x2_S1x8192x2_S12x8192x2_d0

end Cert.ReferenceIdeal.GruWhole

end
-- ==== Proof.WholeRun.lean ====
/-
  The reference's run, with its result named by the whole-batch recurrence: the program is twelve unrolled steps,
  each step's three new states and its prediction feeding the next, and the final result stacks the twelve
  predictions.  Step by step the program's intermediate arrays are the whole-batch recurrence's states.
-/
import proofs.«178381_j59072980189901_2_alg».proof.Proof.RefRunW8
import proofs.«178381_j59072980189901_2_alg».proof.Proof.RefRunW9
import proofs.«178381_j59072980189901_2_alg».proof.Proof.GruWhole

noncomputable section

namespace Cert.ReferenceIdeal.WholeRun

open Cert.ReferenceIdeal Cert.ReferenceIdeal.Gen Idealize.ShloMosaic Idealize.ShloMosaic.TcCoe Idealize.SL.Sem Idealize.ShloMosaic.StableHlo

variable {F : FTy → Type} [FloatOps F]

/-- The sixteen arguments as device `c` finds them. -/
def args (m : (ℓ : Loc nD τ sig) → Buf (Elt F) ℓ) (c : Dev nD) : GruWhole.Args F where
  raw := m ((c.tc : Thread nD τ).loc main_arg0)
  obs := m ((c.tc : Thread nD τ).loc main_arg1)
  wih0 := m ((c.tc : Thread nD τ).loc main_arg2)
  whh0 := m ((c.tc : Thread nD τ).loc main_arg3)
  bih0 := m ((c.tc : Thread nD τ).loc main_arg4)
  bhh0 := m ((c.tc : Thread nD τ).loc main_arg5)
  wih1 := m ((c.tc : Thread nD τ).loc main_arg6)
  whh1 := m ((c.tc : Thread nD τ).loc main_arg7)
  bih1 := m ((c.tc : Thread nD τ).loc main_arg8)
  bhh1 := m ((c.tc : Thread nD τ).loc main_arg9)
  wih2 := m ((c.tc : Thread nD τ).loc main_arg10)
  whh2 := m ((c.tc : Thread nD τ).loc main_arg11)
  bih2 := m ((c.tc : Thread nD τ).loc main_arg12)
  bhh2 := m ((c.tc : Thread nD τ).loc main_arg13)
  fcw := m ((c.tc : Thread nD τ).loc main_arg14)
  fcb := m ((c.tc : Thread nD τ).loc main_arg15)

open Cert.ReferenceIdeal.RunCut

/-- The sixteen arguments as a valuation of the program's buffers holds them. -/
def argsOf (V0 : Valuation τ sig (Elt F)) : GruWhole.Args F where
  raw := V0 (Proc.devRef .tc main_arg0)
  obs := V0 (Proc.devRef .tc main_arg1)
  wih0 := V0 (Proc.devRef .tc main_arg2)
  whh0 := V0 (Proc.devRef .tc main_arg3)
  bih0 := V0 (Proc.devRef .tc main_arg4)
  bhh0 := V0 (Proc.devRef .tc main_arg5)
  wih1 := V0 (Proc.devRef .tc main_arg6)
  whh1 := V0 (Proc.devRef .tc main_arg7)
  bih1 := V0 (Proc.devRef .tc main_arg8)
  bhh1 := V0 (Proc.devRef .tc main_arg9)
  wih2 := V0 (Proc.devRef .tc main_arg10)
  whh2 := V0 (Proc.devRef .tc main_arg11)
  bih2 := V0 (Proc.devRef .tc main_arg12)
  bhh2 := V0 (Proc.devRef .tc main_arg13)
  fcw := V0 (Proc.devRef .tc main_arg14)
  fcb := V0 (Proc.devRef .tc main_arg15)

/-! ## The program's intermediate arrays, step by step

The state "prog k" collects the four arrays the program carries out of its k-th step: the prediction and the three
cells' states.  Each is, by its definition, one step of the recurrence applied to the previous collection; so by
induction along the steps it is the recurrence's state. -/

/-- Before the first step: the last observed position and three zero states. -/
def prog0 (V0 : Valuation τ sig (Elt F)) : GruWhole.St F :=
  ⟨GruWhole.lastObs (argsOf V0).obs, res_main_v0 V0, res_main_v1 V0, res_main_v2 V0⟩
def prog1 (V0 : Valuation τ sig (Elt F)) : GruWhole.St F :=
  ⟨res_main_v124 V0, res_main_v43 V0, res_main_v81 V0, res_main_v119 V0⟩
def prog2 (V0 : Valuation τ sig (Elt F)) : GruWhole.St F :=
  ⟨res_main_v244 V0, res_main_v163 V0, res_main_v201 V0, res_main_v239 V0⟩
def prog3 (V0 : Valuation τ sig (Elt F)) : GruWhole.St F :=
  ⟨res_main_v364 V0, res_main_v283 V0, res_main_v321 V0, res_main_v359 V0⟩
def prog4 (V0 : Valuation τ sig (Elt F)) : GruWhole.St F :=
  ⟨res_main_v484 V0, res_main_v403 V0, res_main_v441 V0, res_main_v479 V0⟩
def prog5 (V0 : Valuation τ sig (Elt F)) : GruWhole.St F :=
  ⟨res_main_v604 V0, res_main_v523 V0, res_main_v561 V0, res_main_v599 V0⟩
def prog6 (V0 : Valuation τ sig (Elt F)) : GruWhole.St F :=
  ⟨res_main_v724 V0, res_main_v643 V0, res_main_v681 V0, res_main_v719 V0⟩
def prog7 (V0 : Valuation τ sig (Elt F)) : GruWhole.St F :=
  ⟨res_main_v844 V0, res_main_v763 V0, res_main_v801 V0, res_main_v839 V0⟩
def prog8 (V0 : Valuation τ sig (Elt F)) : GruWhole.St F :=
  ⟨res_main_v964 V0, res_main_v883 V0, res_main_v921 V0, res_main_v959 V0⟩
def prog9 (V0 : Valuation τ sig (Elt F)) : GruWhole.St F :=
  ⟨res_main_v1084 V0, res_main_v1003 V0, res_main_v1041 V0, res_main_v1079 V0⟩
def prog10 (V0 : Valuation τ sig (Elt F)) : GruWhole.St F :=
  ⟨res_main_v1204 V0, res_main_v1123 V0, res_main_v1161 V0, res_main_v1199 V0⟩
def prog11 (V0 : Valuation τ sig (Elt F)) : GruWhole.St F :=
  ⟨res_main_v1324 V0, res_main_v1243 V0, res_main_v1281 V0, res_main_v1319 V0⟩

/-- Each step's four arrays are the recurrence's step of the previous four: the arrays' definitions, read one step
    deep, are the recurrence's step with the previous arrays in the state's places. -/
theorem prog1_step (V0 : Valuation τ sig (Elt F)) : prog1 V0 = GruWhole.step (argsOf V0) (prog0 V0) := rfl
theorem prog2_step (V0 : Valuation τ sig (Elt F)) : prog2 V0 = GruWhole.step (argsOf V0) (prog1 V0) := rfl
theorem prog3_step (V0 : Valuation τ sig (Elt F)) : prog3 V0 = GruWhole.step (argsOf V0) (prog2 V0) := rfl
theorem prog4_step (V0 : Valuation τ sig (Elt F)) : prog4 V0 = GruWhole.step (argsOf V0) (prog3 V0) := rfl
theorem prog5_step (V0 : Valuation τ sig (Elt F)) : prog5 V0 = GruWhole.step (argsOf V0) (prog4 V0) := rfl
theorem prog6_step (V0 : Valuation τ sig (Elt F)) : prog6 V0 = GruWhole.step (argsOf V0) (prog5 V0) := rfl
theorem prog7_step (V0 : Valuation τ sig (Elt F)) : prog7 V0 = GruWhole.step (argsOf V0) (prog6 V0) := rfl
theorem prog8_step (V0 : Valuation τ sig (Elt F)) : prog8 V0 = GruWhole.step (argsOf V0) (prog7 V0) := rfl
theorem prog9_step (V0 : Valuation τ sig (Elt F)) : prog9 V0 = GruWhole.step (argsOf V0) (prog8 V0) := rfl
theorem prog10_step (V0 : Valuation τ sig (Elt F)) : prog10 V0 = GruWhole.step (argsOf V0) (prog9 V0) := rfl
theorem prog11_step (V0 : Valuation τ sig (Elt F)) : prog11 V0 = GruWhole.step (argsOf V0) (prog10 V0) := rfl

/-- Along the steps the program's arrays are the recurrence's states. -/
theorem prog0_eq (V0 : Valuation τ sig (Elt F)) : prog0 V0 = GruWhole.after (argsOf V0) 0 := rfl
theorem prog1_eq (V0 : Valuation τ sig (Elt F)) : prog1 V0 = GruWhole.after (argsOf V0) 1 :=
  (prog1_step V0).trans (congrArg (GruWhole.step (argsOf V0)) (prog0_eq V0))
theorem prog2_eq (V0 : Valuation τ sig (Elt F)) : prog2 V0 = GruWhole.after (argsOf V0) 2 :=
  (prog2_step V0).trans (congrArg (GruWhole.step (argsOf V0)) (prog1_eq V0))
theorem prog3_eq (V0 : Valuation τ sig (Elt F)) : prog3 V0 = GruWhole.after (argsOf V0) 3 :=
  (prog3_step V0).trans (congrArg (GruWhole.step (argsOf V0)) (prog2_eq V0))
theorem prog4_eq (V0 : Valuation τ sig (Elt F)) : prog4 V0 = GruWhole.after (argsOf V0) 4 :=
  (prog4_step V0).trans (congrArg (GruWhole.step (argsOf V0)) (prog3_eq V0))
theorem prog5_eq (V0 : Valuation τ sig (Elt F)) : prog5 V0 = GruWhole.after (argsOf V0) 5 :=
  (prog5_step V0).trans (congrArg (GruWhole.step (argsOf V0)) (prog4_eq V0))
theorem prog6_eq (V0 : Valuation τ sig (Elt F)) : prog6 V0 = GruWhole.after (argsOf V0) 6 :=
  (prog6_step V0).trans (congrArg (GruWhole.step (argsOf V0)) (prog5_eq V0))
theorem prog7_eq (V0 : Valuation τ sig (Elt F)) : prog7 V0 = GruWhole.after (argsOf V0) 7 :=
  (prog7_step V0).trans (congrArg (GruWhole.step (argsOf V0)) (prog6_eq V0))
theorem prog8_eq (V0 : Valuation τ sig (Elt F)) : prog8 V0 = GruWhole.after (argsOf V0) 8 :=
  (prog8_step V0).trans (congrArg (GruWhole.step (argsOf V0)) (prog7_eq V0))
theorem prog9_eq (V0 : Valuation τ sig (Elt F)) : prog9 V0 = GruWhole.after (argsOf V0) 9 :=
  (prog9_step V0).trans (congrArg (GruWhole.step (argsOf V0)) (prog8_eq V0))
theorem prog10_eq (V0 : Valuation τ sig (Elt F)) : prog10 V0 = GruWhole.after (argsOf V0) 10 :=
  (prog10_step V0).trans (congrArg (GruWhole.step (argsOf V0)) (prog9_eq V0))
theorem prog11_eq (V0 : Valuation τ sig (Elt F)) : prog11 V0 = GruWhole.after (argsOf V0) 11 :=
  (prog11_step V0).trans (congrArg (GruWhole.step (argsOf V0)) (prog10_eq V0))

/-- The last step's prediction, which the program does not name: the step's prediction from the eleventh state. -/
theorem last_eq (V0 : Valuation τ sig (Elt F)) :
    (GruWhole.step (argsOf V0) (prog11 V0)).pos = (GruWhole.after (argsOf V0) 12).pos :=
  congrArg (fun s => (GruWhole.step (argsOf V0) s).pos) (prog11_eq V0)

/-! ## The result -/

/-- Twelve predictions stacked along a new leading axis, as a function of the twelve. -/
def stack (p1 p2 p3 p4 p5 p6 p7 p8 p9 p10 p11 p12 : FVec F S8192x2 .f32) : FVec F S12x8192x2 .f32 :=
  concatenate S12x8192x2 0
    [⟨S1x8192x2, GruWhole.slab p1⟩, ⟨S1x8192x2, GruWhole.slab p2⟩, ⟨S1x8192x2, GruWhole.slab p3⟩,
     ⟨S1x8192x2, GruWhole.slab p4⟩, ⟨S1x8192x2, GruWhole.slab p5⟩, ⟨S1x8192x2, GruWhole.slab p6⟩,
     ⟨S1x8192x2, GruWhole.slab p7⟩, ⟨S1x8192x2, GruWhole.slab p8⟩, ⟨S1x8192x2, GruWhole.slab p9⟩,
     ⟨S1x8192x2, GruWhole.slab p10⟩, ⟨S1x8192x2, GruWhole.slab p11⟩, ⟨S1x8192x2, GruWhole.slab p12⟩]
    concatenates_S1x8192x2_S1x8192x2_S1x8192x2_S1x8192x2_S1x8192x2_S1x8192x2_S1x8192x2_S1x8192x2_S1x8192x2_S1x8192x2_S1x8192x2_S1x8192x2_S12x8192x2_d0

theorem result_eq_stack (a : GruWhole.Args F) :
    GruWhole.result a = stack (GruWhole.after a 1).pos (GruWhole.after a 2).pos (GruWhole.after a 3).pos
      (GruWhole.after a 4).pos (GruWhole.after a 5).pos (GruWhole.after a 6).pos (GruWhole.after a 7).pos
      (GruWhole.after a 8).pos (GruWhole.after a 9).pos (GruWhole.after a 10).pos (GruWhole.after a 11).pos
      (GruWhole.after a 12).pos := rfl

/-- The program's result, its eleven named predictions and the last one stacked, is the recurrence's result. -/
theorem stack_prog (V0 : Valuation τ sig (Elt F)) :
    stack (prog1 V0).pos (prog2 V0).pos (prog3 V0).pos (prog4 V0).pos (prog5 V0).pos (prog6 V0).pos (prog7 V0).pos
      (prog8 V0).pos (prog9 V0).pos (prog10 V0).pos (prog11 V0).pos (GruWhole.step (argsOf V0) (prog11 V0)).pos
      = GruWhole.result (argsOf V0) := by
  rw [result_eq_stack, last_eq, prog1_eq, prog2_eq, prog3_eq, prog4_eq, prog5_eq, prog6_eq, prog7_eq, prog8_eq,
    prog9_eq, prog10_eq, prog11_eq]

/-- Every weakly fair execution of the reference terminates with its result the whole-batch recurrence of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1457) = GruWhole.result (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun r h c => ?_) (Cert.ReferenceIdeal.RunCut.run_all m ρ)
  have e : ∀ b : Ref sig .tc, r.2.mem ((c.tc : Thread nD τ).loc b) = val28 (launchContents m c) (Proc.devRef .tc b) :=
    fun b => (h c b).trans (congrFun (after_ops (launchContents m c)) (Proc.devRef .tc b))
  exact ⟨(e main_v1457).trans ((val28_main_v1457 (launchContents m c)).trans (stack_prog (launchContents m c))),
    (e main_arg0).trans (val28_main_arg0 (launchContents m c)),
    (e main_arg1).trans (val28_main_arg1 (launchContents m c)),
    (e main_arg2).trans (val28_main_arg2 (launchContents m c)),
    (e main_arg3).trans (val28_main_arg3 (launchContents m c)),
    (e main_arg4).trans (val28_main_arg4 (launchContents m c)),
    (e main_arg5).trans (val28_main_arg5 (launchContents m c)),
    (e main_arg6).trans (val28_main_arg6 (launchContents m c)),
    (e main_arg7).trans (val28_main_arg7 (launchContents m c)),
    (e main_arg8).trans (val28_main_arg8 (launchContents m c)),
    (e main_arg9).trans (val28_main_arg9 (launchContents m c)),
    (e main_arg10).trans (val28_main_arg10 (launchContents m c)),
    (e main_arg11).trans (val28_main_arg11 (launchContents m c)),
    (e main_arg12).trans (val28_main_arg12 (launchContents m c)),
    (e main_arg13).trans (val28_main_arg13 (launchContents m c)),
    (e main_arg14).trans (val28_main_arg14 (launchContents m c)),
    (e main_arg15).trans (val28_main_arg15 (launchContents m c))⟩

end Cert.ReferenceIdeal.WholeRun

end
-- ==== Proof.WholeRows.lean ====
/-
  Reading the reference's whole-batch recurrence one batch row at a time.  Every whole-array operation acts on
  each of the 8192 rows separately: a matrix product's row is the sum over the contracted index (the weights are
  transposed on the spot, so the sum runs along a weight matrix's row), the joined input's row is the context row
  followed by the position row, the gates are entrywise on thirds of a row.  So row `b` of the batch after `n` steps
  is the row recurrence after `n` steps started from row `b` of the arguments.
-/
import proofs.«178381_j59072980189901_2_alg».proof.Proof.GruWhole
import proofs.«178381_j59072980189901_2_alg».proof.Proof.GruRow
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.StackMember

noncomputable section

namespace Cert.ReferenceIdeal.WholeRows

open Idealize.ShloMosaic Idealize.ShloMosaic.ValueIdx Cert.ReferenceIdeal Cert.ReferenceIdeal.GruWhole

variable [Facts]
open Facts₀ Facts

/-- The row recurrence's weights: the arguments' entries. -/
def params (a : Args Ideal) : GruRow.Params where
  wih0 j k := a.wih0 (ix2 j k)
  whh0 j k := a.whh0 (ix2 j k)
  bih0 j := a.bih0 (ix1 j)
  bhh0 j := a.bhh0 (ix1 j)
  wih1 j k := a.wih1 (ix2 j k)
  whh1 j k := a.whh1 (ix2 j k)
  bih1 j := a.bih1 (ix1 j)
  bhh1 j := a.bhh1 (ix1 j)
  wih2 j k := a.wih2 (ix2 j k)
  whh2 j k := a.whh2 (ix2 j k)
  bih2 j := a.bih2 (ix1 j)
  bhh2 j := a.bhh2 (ix1 j)
  fcw j k := a.fcw (ix2 j k)
  fcb j := a.fcb (ix1 j)

/-! ## The matrix products at an entry

Each of the three products contracts the left operand's second axis with the right operand's first and has no batch
axis: the plain product of two matrices, whose entry `(b, j)` is the sum over the contracted coordinate. -/

theorem dot768_apply (h : FVec Ideal S8192x256 .f32) (W : FVec Ideal S256x768 .f32) (b : Fin 8192) (j : Fin 768) :
    Host.dotGeneral dot_S8192x256_S256x768_S8192x768_1_0_0_1_n_n none h W (ix2 b j)
      = ∑ k : Fin 256, h (ix2 b k) * W (ix2 k j) :=
  StackMember.dotGeneral_plain_apply none h W b j

theorem dot514_apply (x : FVec Ideal S8192x514 .f32) (W : FVec Ideal S514x768 .f32) (b : Fin 8192) (j : Fin 768) :
    Host.dotGeneral dot_S8192x514_S514x768_S8192x768_1_0_0_1_n_n none x W (ix2 b j)
      = ∑ k : Fin 514, x (ix2 b k) * W (ix2 k j) :=
  StackMember.dotGeneral_plain_apply none x W b j

theorem dot2_apply (h : FVec Ideal S8192x256 .f32) (W : FVec Ideal S256x2 .f32) (b : Fin 8192) (j : Fin 2) :
    Host.dotGeneral dot_S8192x256_S256x2_S8192x2_1_0_0_1_n_n none h W (ix2 b j)
      = ∑ k : Fin 256, h (ix2 b k) * W (ix2 k j) :=
  StackMember.dotGeneral_plain_apply none h W b j

/-! ## The whole-array operations at an entry -/

/-- A bias vector laid along every row reads its own entry in every row. -/
theorem biasRows_apply (v : FVec Ideal S768 .f32) (b : Fin 8192) (j : Fin 768) :
    biasRows v (ix2 b j) = v (ix1 j) := by
  unfold biasRows
  refine (broadcastInDim_apply _ _ _ (ix2 b j) (ix2 (0 : Fin 1) j) ?_).trans ?_
  · intro a; match a with
    | ⟨0, _⟩ => rfl
    | ⟨1, _⟩ => rfl
  · refine broadcastInDim_apply _ _ _ (ix2 (0 : Fin 1) j) (ix1 j) ?_
    intro a; match a with
    | ⟨0, _⟩ => rfl

/-- `h · Wᵀ + bias` at `(b, j)`: the sum along row `j` of `W`, plus `bias j`. -/
theorem hidLin_apply (h : FVec Ideal S8192x256 .f32) (W : FVec Ideal S768x256 .f32) (bias : FVec Ideal S768 .f32)
    (b : Fin 8192) (j : Fin 768) :
    hidLin h W bias (ix2 b j)
      = GruRow.lin (fun j k => W (ix2 j k)) (fun j => bias (ix1 j)) (fun k => h (ix2 b k)) j := by
  unfold hidLin
  rw [addf_apply, dot768_apply, biasRows_apply]
  unfold GruRow.lin
  congr 1
  refine Finset.sum_congr rfl fun k _ => ?_
  rw [transpose_ix2_apply]

theorem hidLin_row (h : FVec Ideal S8192x256 .f32) (W : FVec Ideal S768x256 .f32) (bias : FVec Ideal S768 .f32)
    (b : Fin 8192) :
    (fun j => hidLin h W bias (ix2 b j))
      = GruRow.lin (fun j k => W (ix2 j k)) (fun j => bias (ix1 j)) (fun k => h (ix2 b k)) :=
  funext fun j => hidLin_apply h W bias b j

/-- The array of ones reads the extended real one. -/
theorem ones_apply (i : S8192x256.Idx) : (ones (F := Ideal)) i = 1 := by
  unfold ones
  rw [broadcastInDim_scalar_apply, constant_apply, Ideal.ofBits_one_f32]

/-- The spelt-out logistic function at an entry is the logistic function of the entry. -/
theorem sig_apply (x : FVec Ideal S8192x256 .f32) (i : S8192x256.Idx) :
    GruWhole.sig x i = Ideal.logistic (x i) := by
  show Ideal.div ((ones (F := Ideal)) i) ((ones (F := Ideal)) i + Ideal.exp (-(x i))) = _
  rw [ones_apply]
  rfl

/-- The three 256-wide column slices read the three thirds of a row. -/
theorem slice0_apply (g : FVec Ideal S8192x768 .f32) (b : Fin 8192) (i : Fin 256) :
    extractStridedSlice S8192x256 ![0, 0] g slices_S8192x768_S8192x256_0_0 (ix2 b i) = g (ix2 b (GruRow.third0 i)) :=
  slice2_axis1_apply 0 g _ b i (GruRow.third0 i) (Nat.zero_add _).symm

theorem slice1_apply (g : FVec Ideal S8192x768 .f32) (b : Fin 8192) (i : Fin 256) :
    extractStridedSlice S8192x256 ![0, 256] g slices_S8192x768_S8192x256_0_256 (ix2 b i) = g (ix2 b (GruRow.third1 i)) :=
  slice2_axis1_apply 256 g _ b i (GruRow.third1 i) (Nat.add_comm _ _)

theorem slice2_apply (g : FVec Ideal S8192x768 .f32) (b : Fin 8192) (i : Fin 256) :
    extractStridedSlice S8192x256 ![0, 512] g slices_S8192x768_S8192x256_0_512 (ix2 b i) = g (ix2 b (GruRow.third2 i)) :=
  slice2_axis1_apply 512 g _ b i (GruRow.third2 i) (Nat.add_comm _ _)

theorem hostTanh_apply (x : FVec Ideal S8192x256 .f32) (i : S8192x256.Idx) : Host.tanh x i = Ideal.tanh (x i) := rfl

/-- The gate combination at `(b, i)` is the row's gate combination at `i`. -/
theorem gates_apply (gi gh : FVec Ideal S8192x768 .f32) (h : FVec Ideal S8192x256 .f32) (b : Fin 8192) (i : Fin 256) :
    gates gi gh h (ix2 b i)
      = GruRow.gates (fun j => gi (ix2 b j)) (fun j => gh (ix2 b j)) (fun k => h (ix2 b k)) i := by
  have h1 : GruRow.one = 1 := Ideal.ofBits_one_f32
  unfold gates GruRow.gates
  rw [h1]
  simp only [addf_apply, mulf_apply, subf_apply, sig_apply, ones_apply, hostTanh_apply, slice0_apply, slice1_apply,
    slice2_apply]

theorem gates_row (gi gh : FVec Ideal S8192x768 .f32) (h : FVec Ideal S8192x256 .f32) (b : Fin 8192) :
    (fun i => gates gi gh h (ix2 b i))
      = GruRow.gates (fun j => gi (ix2 b j)) (fun j => gh (ix2 b j)) (fun k => h (ix2 b k)) :=
  funext fun i => gates_apply gi gh h b i

/-- The context joined with the position along the feature axis, at `(b, k)`: the context row followed by the
    position row. -/
theorem cat_apply (raw : FVec Ideal S8192x512 .f32) (pos : FVec Ideal S8192x2 .f32) (b : Fin 8192) (k : Fin 514) :
    concatenate S8192x514 1 [⟨S8192x512, raw⟩, ⟨S8192x2, pos⟩] concatenates_S8192x512_S8192x2_S8192x514_d1 (ix2 b k)
      = GruRow.cat (fun k => raw (ix2 b k)) (fun k => pos (ix2 b k)) k := by
  unfold GruRow.cat
  by_cases hk : k.val < 512
  · rw [dif_pos hk]
    exact concatenate_pair_apply_left 1 raw pos _ (ix2 b k) rfl (ix2 b ⟨k.val, hk⟩)
      (fun c => match c with | ⟨0, _⟩ => rfl | ⟨1, _⟩ => rfl)
  · rw [dif_neg hk]
    exact concatenate_pair_apply_right 1 raw pos _ (ix2 b k) rfl rfl (ix2 b ⟨k.val - 512, by omega⟩)
      (fun c hc => match c, hc with | ⟨0, _⟩, _ => rfl | ⟨1, _⟩, hc => absurd rfl hc)
      (show k.val - 512 + 512 = k.val by omega)

/-- The first layer's input pre-activation at `(b, j)`. -/
theorem catLin_apply (raw : FVec Ideal S8192x512 .f32) (pos : FVec Ideal S8192x2 .f32) (W : FVec Ideal S768x514 .f32)
    (bias : FVec Ideal S768 .f32) (b : Fin 8192) (j : Fin 768) :
    catLin raw pos W bias (ix2 b j)
      = GruRow.lin (fun j k => W (ix2 j k)) (fun j => bias (ix1 j))
          (GruRow.cat (fun k => raw (ix2 b k)) (fun k => pos (ix2 b k))) j := by
  unfold catLin
  rw [addf_apply, dot514_apply, biasRows_apply]
  unfold GruRow.lin
  congr 1
  refine Finset.sum_congr rfl fun k _ => ?_
  rw [transpose_ix2_apply, cat_apply]

theorem catLin_row (raw : FVec Ideal S8192x512 .f32) (pos : FVec Ideal S8192x2 .f32) (W : FVec Ideal S768x514 .f32)
    (bias : FVec Ideal S768 .f32) (b : Fin 8192) :
    (fun j => catLin raw pos W bias (ix2 b j))
      = GruRow.lin (fun j k => W (ix2 j k)) (fun j => bias (ix1 j))
          (GruRow.cat (fun k => raw (ix2 b k)) (fun k => pos (ix2 b k))) :=
  funext fun j => catLin_apply raw pos W bias b j

/-- The head at `(b, j)`. -/
theorem head_row (a : Args Ideal) (h : FVec Ideal S8192x256 .f32) (b : Fin 8192) :
    (fun j => head h a.fcw a.fcb (ix2 b j)) = GruRow.head (params a) (fun k => h (ix2 b k)) := by
  funext j
  unfold head GruRow.head
  rw [addf_apply, dot2_apply]
  congr 1
  · refine Finset.sum_congr rfl fun k _ => ?_
    rw [transpose_ix2_apply]
    rfl
  · refine (broadcastInDim_apply _ _ _ (ix2 b j) (ix2 (0 : Fin 1) j) ?_).trans ?_
    · intro c; match c with
      | ⟨0, _⟩ => rfl
      | ⟨1, _⟩ => rfl
    · refine broadcastInDim_apply _ _ _ (ix2 (0 : Fin 1) j) (ix1 j) ?_
      intro c; match c with
      | ⟨0, _⟩ => rfl

/-- The last observed position of row `b`: time 7 of the observed trajectory. -/
theorem lastObs_apply (obs : FVec Ideal S8x8192x2 .f32) (b : Fin 8192) (k : Fin 2) :
    lastObs obs (ix2 b k) = obs (ix3 (7 : Fin 8) b k) := by
  unfold lastObs
  rw [shapeCast_1ab_ab_apply]
  refine extractStridedSlice_apply _ _ _ (ix3 (0 : Fin 1) b k) (ix3 (7 : Fin 8) b k) ?_
  intro c; match c with
  | ⟨0, _⟩ => rfl
  | ⟨1, _⟩ => exact (Nat.zero_add _).symm
  | ⟨2, _⟩ => exact (Nat.zero_add _).symm

/-- The all-zero state reads the float zero. -/
theorem zeroState_apply (i : S8192x256.Idx) : (zeroState (F := Ideal)) i = GruRow.zero := by
  unfold zeroState
  rw [broadcastInDim_scalar_apply, constant_apply]

/-! ## Row `b` of the whole-batch state follows the row recurrence -/

/-- Row `b` of a whole-batch state. -/
def rowOf (s : St Ideal) (b : Fin 8192) : GruRow.St where
  pos j := s.pos (ix2 b j)
  h0 k := s.h0 (ix2 b k)
  h1 k := s.h1 (ix2 b k)
  h2 k := s.h2 (ix2 b k)

theorem new0_row (a : Args Ideal) (s : St Ideal) (b : Fin 8192) :
    (fun k => new0 a s (ix2 b k)) = GruRow.new0 (params a) (fun k => a.raw (ix2 b k)) (rowOf s b) := by
  have e1 := catLin_row a.raw s.pos a.wih0 a.bih0 b
  have e2 := hidLin_row s.h0 a.whh0 a.bhh0 b
  refine (gates_row _ _ _ b).trans ?_
  rw [e1, e2]
  rfl

theorem new1_row (a : Args Ideal) (s : St Ideal) (b : Fin 8192) :
    (fun k => new1 a s (ix2 b k)) = GruRow.new1 (params a) (fun k => a.raw (ix2 b k)) (rowOf s b) := by
  have e1 := hidLin_row (new0 a s) a.wih1 a.bih1 b
  have e2 := hidLin_row s.h1 a.whh1 a.bhh1 b
  refine (gates_row _ _ _ b).trans ?_
  rw [e1, e2, new0_row]
  rfl

theorem new2_row (a : Args Ideal) (s : St Ideal) (b : Fin 8192) :
    (fun k => new2 a s (ix2 b k)) = GruRow.new2 (params a) (fun k => a.raw (ix2 b k)) (rowOf s b) := by
  have e1 := hidLin_row (new1 a s) a.wih2 a.bih2 b
  have e2 := hidLin_row s.h2 a.whh2 a.bhh2 b
  refine (gates_row _ _ _ b).trans ?_
  rw [e1, e2, new1_row]
  rfl

/-- One whole-batch step, read on row `b`, is one step of the row recurrence. -/
theorem step_row (a : Args Ideal) (s : St Ideal) (b : Fin 8192) :
    rowOf (step a s) b = GruRow.step (params a) (fun k => a.raw (ix2 b k)) (rowOf s b) := by
  have e0 := new0_row a s b
  have e1 := new1_row a s b
  have e2 := new2_row a s b
  have eh := head_row a (new2 a s) b
  show GruRow.St.mk (fun j => head (new2 a s) a.fcw a.fcb (ix2 b j)) (fun k => new0 a s (ix2 b k))
      (fun k => new1 a s (ix2 b k)) (fun k => new2 a s (ix2 b k)) = _
  rw [eh, e0, e1, e2]
  rfl

/-- The whole-batch initial state, read on row `b`, is the row recurrence's initial state. -/
theorem init_row (a : Args Ideal) (b : Fin 8192) :
    rowOf (init a) b = GruRow.init (fun k => a.obs (ix3 (7 : Fin 8) b k)) := by
  show GruRow.St.mk (fun j => lastObs a.obs (ix2 b j)) (fun k => (zeroState (F := Ideal)) (ix2 b k))
      (fun k => (zeroState (F := Ideal)) (ix2 b k)) (fun k => (zeroState (F := Ideal)) (ix2 b k)) = _
  simp only [lastObs_apply, zeroState_apply]
  rfl

/-- Row `b` of the batch after `n` steps is the row recurrence after `n` steps. -/
theorem after_row (a : Args Ideal) (b : Fin 8192) (n : Nat) :
    rowOf (after a n) b
      = GruRow.after (params a) (fun k => a.raw (ix2 b k)) (fun k => a.obs (ix3 (7 : Fin 8) b k)) n := by
  induction n with
  | zero => exact init_row a b
  | succ n ih =>
    show rowOf (step a (after a n)) b = GruRow.step _ _ (GruRow.after _ _ _ n)
    rw [step_row, ih]

/-! ## The stacked predictions -/

/-- A prediction laid out as a one-row slab reads the prediction. -/
theorem slab_apply (p : FVec Ideal S8192x2 .f32) (u : Fin 1) (b : Fin 8192) (j : Fin 2) :
    slab p (ix3 u b j) = p (ix2 b j) := by
  unfold slab
  refine broadcastInDim_apply _ _ _ (ix3 u b j) (ix2 b j) ?_
  intro c; match c with
  | ⟨0, _⟩ => rfl
  | ⟨1, _⟩ => rfl

/-- Slab `s` of the result is the prediction after `s + 1` steps. -/
theorem result_slab (a : Args Ideal) (s : Fin 12) (b : Fin 8192) (j : Fin 2) :
    result a (ix3 s b j) = slab (after a (s.val + 1)).pos (ix3 (0 : Fin 1) b j) := by
  unfold result
  exact concatenate_ofFn_unit_apply (t := S12x8192x2) (s₁ := S1x8192x2) 0
    (fun n : Fin 12 => slab (after a (n.val + 1)).pos) _ rfl rfl (ix3 s b j) s rfl (ix3 (0 : Fin 1) b j)
    (fun c hc => match c, hc with
      | ⟨0, _⟩, hc => absurd rfl hc
      | ⟨1, _⟩, _ => rfl
      | ⟨2, _⟩, _ => rfl)

/-- Row `b` of the result: entry `(s, b, j)` is coordinate `j` of the row recurrence's prediction at step `s`, started
    from the context row `b` and the last observed position of row `b` (time 7 of the observed trajectory). -/
theorem result_apply (a : Args Ideal) (s : Fin 12) (b : Fin 8192) (j : Fin 2) :
    result a (ix3 s b j)
      = GruRow.pred (params a) (fun k => a.raw (ix2 b k)) (fun k => a.obs (ix3 (7 : Fin 8) b k)) s j := by
  rw [result_slab, slab_apply]
  show (rowOf (after a (s.val + 1)) b).pos j = _
  rw [after_row]
  rfl

end Cert.ReferenceIdeal.WholeRows

end
-- ==== Proof.lean ====
/-
  Three stacked GRU cells driven for twelve steps, the head's prediction fed back as the next step's position:
  the kernel against the jnp reference, on the extended reals.

  Both programs compute, for every batch row `b` independently, the same ROW recurrence (Proof/GruRow.lean): the
  row's position and three 256-wide hidden states are advanced twelve times by
      gi = Wih x + bih,  gh = Whh h + bhh,  r = σ(gi₀ + gh₀),  z = σ(gi₁ + gh₁),  n = tanh(gi₂ + r * gh₂),
      h' = (1 - z) * n + z * h
  in each of the three cells (the first cell's input the 512 context entries followed by the 2 position entries,
  each later cell's input the new state below it), and the head `fcw h₂' + fcb` is the step's prediction.

  The reference does this on the whole batch of 8192 rows (Proof/GruWhole.lean names its operations as a recurrence;
  Proof/WholeRun.lean shows the program's run is that recurrence; Proof/WholeRows.lean reads it row by row).  The
  kernel does it on blocks of 2048 rows with the weights transposed beforehand (Proof/GruBlock.lean,
  Proof/BlockPiece.lean, Proof/BlockRows.lean), and the four blocks tile the result (Proof/BlockArrays.lean).  The two
  differ in three spellings only, none of which changes a value on the extended reals: the kernel splits the first
  cell's input sum over 514 entries into the sum over the 512 context entries plus the two position terms
  (associativity and commutativity of addition: `GruRow.lin_cat`); the reference spells the logistic function as
  `1 / (1 + exp (-x))`, which is its definition; and a change of float format is the identity.  No finiteness of the
  inputs is used.
-/
import proofs.«178381_j59072980189901_2_alg».proof.Defs
import proofs.«178381_j59072980189901_2_alg».proof.Proof.Gen.Kernel
import proofs.«178381_j59072980189901_2_alg».proof.Proof.Gen.Kernel.Skeleton
import proofs.«178381_j59072980189901_2_alg».proof.Proof.Gen.Kernel.Launch
import proofs.«178381_j59072980189901_2_alg».proof.Proof.Gen.Kernel.Points
import proofs.«178381_j59072980189901_2_alg».proof.Proof.Gen.Kernel.Frame
import proofs.«178381_j59072980189901_2_alg».proof.Proof.Gen.KernelIdeal
import proofs.«178381_j59072980189901_2_alg».proof.Proof.Gen.KernelIdeal.Skeleton
import proofs.«178381_j59072980189901_2_alg».proof.Proof.Gen.KernelIdeal.Launch
import proofs.«178381_j59072980189901_2_alg».proof.Proof.Gen.KernelIdeal.Points
import proofs.«178381_j59072980189901_2_alg».proof.Proof.Gen.KernelIdeal.Frame
import proofs.«178381_j59072980189901_2_alg».proof.Proof.Gen.ReferenceIdeal
import proofs.«178381_j59072980189901_2_alg».proof.Proof.Gen.KernelIdeal.Value
import proofs.«178381_j59072980189901_2_alg».proof.Proof.Gen.Pre_finite_inputs
import proofs.«178381_j59072980189901_2_alg».proof.Proof.GruArrays
import proofs.«178381_j59072980189901_2_alg».proof.Proof.BlockArrays
import proofs.«178381_j59072980189901_2_alg».proof.Proof.WholeRun
import proofs.«178381_j59072980189901_2_alg».proof.Proof.WholeRows
import Idealize.ShloMosaic.Adequacy
import Idealize.ShloMosaic.Init

noncomputable section

namespace Cert.Proof

open Idealize.ShloMosaic Idealize.ShloMosaic.TcCoe Idealize.SL.Sem

/-- The reference's whole-batch recurrence is the row recurrence applied to every batch row. -/
theorem wholeBatch_eq (a : Cert.ReferenceIdeal.GruWhole.Args Ideal) :
    Cert.ReferenceIdeal.GruWhole.result a
      = GruRow.whole a.raw a.obs a.wih0 a.whh0 a.bih0 a.bhh0 a.wih1 a.whh1 a.bih1 a.bhh1 a.wih2 a.whh2 a.bih2 a.bhh2 a.fcw a.fcb := by
  funext i
  rw [ValueIdx.eq_ix3 i]
  exact Cert.ReferenceIdeal.WholeRows.result_apply a (i 0) (i 1) (i 2)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.WholeRun.run (F := Ideal) m ρ)

theorem preserves : Cert.preserves_Kernel_KernelIdeal := trivial

/-- From memories agreeing on the arguments both programs end with the row recurrence applied to every batch row. -/
theorem algebraic : Cert.algebraic_KernelIdeal_ReferenceIdeal := by
  intro m ρ m' ρ' _ hagree
  refine ⟨fun c => GruRow.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.BlockArrays.run m ρ, ?_⟩
  refine (θ_run Cert.ReferenceIdeal.defs _ _).mono (fun _ h c => ⟨(h c).1.trans ?_, (h c).2⟩)
    (Cert.ReferenceIdeal.WholeRun.run (F := Ideal) m' ρ')
  obtain ⟨h0, h1, h2, h3, h4, h5, h6, h7, h8, h9, h10, h11, h12, h13, h14, h15⟩ := hagree c
  rw [wholeBatch_eq]
  simp only [Cert.ReferenceIdeal.WholeRun.args]
  rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
